-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x2 : Shape := ⟨2, ![4194304, 2]⟩
abbrev S4194304 : Shape := ⟨1, ![4194304]⟩
abbrev S2097152 : Shape := ⟨1, ![2097152]⟩
abbrev S_ : Shape := ⟨0, ![]⟩

class Facts : Prop where
  bcast_S_S4194304x2 : S_.BroadcastsInDim S4194304x2 (![] : Fin 0 → Fin S4194304x2.rank)
  reducesTo_S4194304x2_S_d0_1 : S4194304x2.ReducesTo [0, 1] S_
  h_S_ : 0 < S_.numel
  bcast_S_S2097152 : S_.BroadcastsInDim S2097152 (![] : Fin 0 → Fin S2097152.rank)
  reducesTo_S2097152_S_d0 : S2097152.ReducesTo [0] S_

variable [Facts]

def fn_part1 {F : FTy → Type} [FloatOps F] (main_arg4 : IVec S2097152 32) (main_arg5 : IVec S2097152 32) (main_v10 : IVec S_ 1) (main_v15 : IVec S2097152 1) (main_c_5 : IVec S_ 1) : IVec S_ 1 :=
  let main_v16 : IVec S_ 1 := (fun x v => Host.reduce IntOp.andi x v reducesTo_S2097152_S_d0 h_S_) main_v15 main_c_5
  let main_v17 : IVec S_ 1 := andi main_v10 main_v16
  let main_c_6 : IVec S_ 32 := constantI S_ 32 4290772992#32
  let main_v18 : IVec S2097152 32 := broadcastInDim S2097152 ![] bcast_S_S2097152 main_c_6
  let main_v19 : IVec S2097152 1 := cmpi .sge main_arg4 main_v18
  let main_c_7 : IVec S_ 32 := constantI S_ 32 4194304#32
  let main_v20 : IVec S2097152 32 := broadcastInDim S2097152 ![] bcast_S_S2097152 main_c_7
  let main_v21 : IVec S2097152 1 := cmpi .slt main_arg4 main_v20
  let main_v22 : IVec S2097152 1 := andi main_v19 main_v21
  let main_c_8 : IVec S_ 1 := constantI S_ 1 1#1
  let main_v23 : IVec S_ 1 := (fun x v => Host.reduce IntOp.andi x v reducesTo_S2097152_S_d0 h_S_) main_v22 main_c_8
  let main_v24 : IVec S_ 1 := andi main_v17 main_v23
  let main_c_9 : IVec S_ 32 := constantI S_ 32 4290772992#32
  let main_v25 : IVec S2097152 32 := broadcastInDim S2097152 ![] bcast_S_S2097152 main_c_9
  let main_v26 : IVec S2097152 1 := cmpi .sge main_arg5 main_v25
  let main_c_10 : IVec S_ 32 := constantI S_ 32 4194304#32
  let main_v27 : IVec S2097152 32 := broadcastInDim S2097152 ![] bcast_S_S2097152 main_c_10
  let main_v28 : IVec S2097152 1 := cmpi .slt main_arg5 main_v27
  let main_v29 : IVec S2097152 1 := andi main_v26 main_v28
  let main_c_11 : IVec S_ 1 := constantI S_ 1 1#1
  let main_v30 : IVec S_ 1 := (fun x v => Host.reduce IntOp.andi x v reducesTo_S2097152_S_d0 h_S_) main_v29 main_c_11
  let main_v31 : IVec S_ 1 := andi main_v24 main_v30
  main_v31

def fn {F : FTy → Type} [FloatOps F] (main_arg0 : FVec F S4194304x2 .f32) (main_arg1 : IVec S4194304 32) (main_arg2 : IVec S2097152 32) (main_arg3 : IVec S2097152 32) (main_arg4 : IVec S2097152 32) (main_arg5 : IVec S2097152 32) : IVec S_ 1 :=
  let main_v0 : FVec F S4194304x2 .f32 := Host.absf main_arg0
  let main_cst : FVec F S_ .f32 := constant S_ .f32 0x7F800000#32
  let main_v1 : FVec F S4194304x2 .f32 := broadcastInDim S4194304x2 ![] bcast_S_S4194304x2 main_cst
  let main_v2 : IVec S4194304x2 1 := cmpf .olt main_v0 main_v1
  let main_c : IVec S_ 1 := constantI S_ 1 1#1
  let main_v3 : IVec S_ 1 := (fun x v => Host.reduce IntOp.andi x v reducesTo_S4194304x2_S_d0_1 h_S_) main_v2 main_c
  let main_c_0 : IVec S_ 32 := constantI S_ 32 4290772992#32
  let main_v4 : IVec S2097152 32 := broadcastInDim S2097152 ![] bcast_S_S2097152 main_c_0
  let main_v5 : IVec S2097152 1 := cmpi .sge main_arg2 main_v4
  let main_c_1 : IVec S_ 32 := constantI S_ 32 4194304#32
  let main_v6 : IVec S2097152 32 := broadcastInDim S2097152 ![] bcast_S_S2097152 main_c_1
  let main_v7 : IVec S2097152 1 := cmpi .slt main_arg2 main_v6
  let main_v8 : IVec S2097152 1 := andi main_v5 main_v7
  let main_c_2 : IVec S_ 1 := constantI S_ 1 1#1
  let main_v9 : IVec S_ 1 := (fun x v => Host.reduce IntOp.andi x v reducesTo_S2097152_S_d0 h_S_) main_v8 main_c_2
  let main_v10 : IVec S_ 1 := andi main_v3 main_v9
  let main_c_3 : IVec S_ 32 := constantI S_ 32 4290772992#32
  let main_v11 : IVec S2097152 32 := broadcastInDim S2097152 ![] bcast_S_S2097152 main_c_3
  let main_v12 : IVec S2097152 1 := cmpi .sge main_arg3 main_v11
  let main_c_4 : IVec S_ 32 := constantI S_ 32 4194304#32
  let main_v13 : IVec S2097152 32 := broadcastInDim S2097152 ![] bcast_S_S2097152 main_c_4
  let main_v14 : IVec S2097152 1 := cmpi .slt main_arg3 main_v13
  let main_v15 : IVec S2097152 1 := andi main_v12 main_v14
  let main_c_5 : IVec S_ 1 := constantI S_ 1 1#1
  fn_part1 (F := F) main_arg4 main_arg5 main_v10 main_v15 main_c_5
-- ==== Kernel.lean ====
abbrev S4194304x2 : Shape := ⟨2, ![4194304, 2]⟩
abbrev S4194304 : Shape := ⟨1, ![4194304]⟩
abbrev S2097152 : Shape := ⟨1, ![2097152]⟩
abbrev S_ : Shape := ⟨0, ![]⟩
abbrev S4194304x1 : Shape := ⟨2, ![4194304, 1]⟩
abbrev S1 : Shape := ⟨1, ![1]⟩
abbrev S1x1 : Shape := ⟨2, ![1, 1]⟩
abbrev S8192x2 : Shape := ⟨2, ![8192, 2]⟩
abbrev S8192x1 : Shape := ⟨2, ![8192, 1]⟩
abbrev S8192 : Shape := ⟨1, ![8192]⟩

abbrev nBuf : Space → Nat
  | .hbm => 68
  | .vmem => 12
  | .smem => 0
  | _ => 0

abbrev bufTy : (tb : Table) → Fin (tcTables nBuf tb) → BufTy
  | .hbm, ⟨0, _⟩ => ⟨S4194304x2, .f32⟩
  | .hbm, ⟨1, _⟩ => ⟨S4194304, .i32⟩
  | .hbm, ⟨2, _⟩ => ⟨S2097152, .i32⟩
  | .hbm, ⟨3, _⟩ => ⟨S2097152, .i32⟩
  | .hbm, ⟨4, _⟩ => ⟨S2097152, .i32⟩
  | .hbm, ⟨5, _⟩ => ⟨S2097152, .i32⟩
  | .hbm, ⟨6, _⟩ => ⟨S4194304, .i32⟩
  | .hbm, ⟨7, _⟩ => ⟨S4194304, .i32⟩
  | .hbm, ⟨8, _⟩ => ⟨S_, .i32⟩
  | .hbm, ⟨9, _⟩ => ⟨S4194304, .i32⟩
  | .hbm, ⟨10, _⟩ => ⟨S4194304, .i1⟩
  | .hbm, ⟨11, _⟩ => ⟨S_, .i32⟩
  | .hbm, ⟨12, _⟩ => ⟨S4194304, .i32⟩
  | .hbm, ⟨13, _⟩ => ⟨S4194304, .i32⟩
  | .hbm, ⟨14, _⟩ => ⟨S4194304, .i32⟩
  | .hbm, ⟨15, _⟩ => ⟨S4194304x1, .i32⟩
  | .hbm, ⟨16, _⟩ => ⟨S1, .i32⟩
  | .hbm, ⟨17, _⟩ => ⟨S_, .i32⟩
  | .hbm, ⟨18, _⟩ => ⟨S4194304x1, .i32⟩
  | .hbm, ⟨19, _⟩ => ⟨S4194304x1, .i1⟩
  | .hbm, ⟨20, _⟩ => ⟨S1x1, .i32⟩
  | .hbm, ⟨21, _⟩ => ⟨S4194304x1, .i32⟩
  | .hbm, ⟨22, _⟩ => ⟨S4194304x1, .i1⟩
  | .hbm, ⟨23, _⟩ => ⟨S4194304x1, .i1⟩
  | .hbm, ⟨24, _⟩ => ⟨S_, .i1⟩
  | .hbm, ⟨25, _⟩ => ⟨S4194304, .i1⟩
  | .hbm, ⟨26, _⟩ => ⟨S4194304x2, .f32⟩
  | .hbm, ⟨27, _⟩ => ⟨S4194304x2, .i1⟩
  | .hbm, ⟨28, _⟩ => ⟨S_, .f32⟩
  | .hbm, ⟨29, _⟩ => ⟨S4194304x2, .f32⟩
  | .hbm, ⟨30, _⟩ => ⟨S4194304x2, .f32⟩
  | .hbm, ⟨31, _⟩ => ⟨S_, .i32⟩
  | .hbm, ⟨32, _⟩ => ⟨S4194304, .i32⟩
  | .hbm, ⟨33, _⟩ => ⟨S4194304, .i1⟩
  | .hbm, ⟨34, _⟩ => ⟨S_, .i32⟩
  | .hbm, ⟨35, _⟩ => ⟨S4194304, .i32⟩
  | .hbm, ⟨36, _⟩ => ⟨S4194304, .i32⟩
  | .hbm, ⟨37, _⟩ => ⟨S4194304, .i32⟩
  | .hbm, ⟨38, _⟩ => ⟨S4194304x1, .i32⟩
  | .hbm, ⟨39, _⟩ => ⟨S1, .i32⟩
  | .hbm, ⟨40, _⟩ => ⟨S_, .i32⟩
  | .hbm, ⟨41, _⟩ => ⟨S4194304x1, .i32⟩
  | .hbm, ⟨42, _⟩ => ⟨S4194304x1, .i1⟩
  | .hbm, ⟨43, _⟩ => ⟨S1x1, .i32⟩
  | .hbm, ⟨44, _⟩ => ⟨S4194304x1, .i32⟩
  | .hbm, ⟨45, _⟩ => ⟨S4194304x1, .i1⟩
  | .hbm, ⟨46, _⟩ => ⟨S4194304x1, .i1⟩
  | .hbm, ⟨47, _⟩ => ⟨S_, .i1⟩
  | .hbm, ⟨48, _⟩ => ⟨S4194304, .i1⟩
  | .hbm, ⟨49, _⟩ => ⟨S4194304x2, .f32⟩
  | .hbm, ⟨50, _⟩ => ⟨S4194304x2, .i1⟩
  | .hbm, ⟨51, _⟩ => ⟨S_, .f32⟩
  | .hbm, ⟨52, _⟩ => ⟨S4194304x2, .f32⟩
  | .hbm, ⟨53, _⟩ => ⟨S4194304x2, .f32⟩
  | .hbm, ⟨54, _⟩ => ⟨S4194304x1, .i32⟩
  | .hbm, ⟨55, _⟩ => ⟨S1x1, .f32⟩
  | .hbm, ⟨56, _⟩ => ⟨S_, .f32⟩
  | .hbm, ⟨57, _⟩ => ⟨S1x1, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .local _ .vmem, ⟨0, _⟩ => ⟨S8192x2, .f32⟩
  | .local _ .vmem, ⟨1, _⟩ => ⟨S8192x2, .f32⟩
  | .local _ .vmem, ⟨2, _⟩ => ⟨S8192x1, .i32⟩
  | .local _ .vmem, ⟨3, _⟩ => ⟨S8192x1, .i32⟩
  | .local _ .vmem, ⟨4, _⟩ => ⟨S1x1, .f32⟩
  | .local _ .vmem, ⟨5, _⟩ => ⟨S1x1, .f32⟩
  | .local _ .vmem, ⟨6, _⟩ => ⟨S8192x2, .f32⟩
  | .local _ .vmem, ⟨7, _⟩ => ⟨S8192x2, .f32⟩
  | .local _ .vmem, ⟨8, _⟩ => ⟨S8192x2, .f32⟩
  | .local _ .vmem, ⟨9, _⟩ => ⟨S8192x2, .f32⟩
  | .local _ .vmem, ⟨10, _⟩ => ⟨S1x1, .f32⟩
  | .local _ .vmem, ⟨11, _⟩ => ⟨S1x1, .f32⟩
  | _, _ => ⟨S4194304x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v2 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_c_1 : Ref sig .tc := ⟨.hbm, 39, rfl⟩
abbrev main_call1_c_2 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_3 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_call1_cst : Ref sig .tc := ⟨.hbm, 51, rfl⟩
abbrev main_call1_v15 : Ref sig .tc := ⟨.hbm, 52, rfl⟩
abbrev main_v3 : Ref sig .tc := ⟨.hbm, 53, rfl⟩
abbrev main_v4 : Ref sig .tc := ⟨.hbm, 54, rfl⟩
abbrev main_v5 : Ref sig .tc := ⟨.hbm, 55, rfl⟩
abbrev main_v6 : Ref sig .tc := ⟨.hbm, 56, rfl⟩
abbrev main_v7 : Ref sig .tc := ⟨.hbm, 57, rfl⟩
abbrev main_v8 : Ref sig .tc := ⟨.hbm, 58, rfl⟩
abbrev main_cst : Ref sig .tc := ⟨.hbm, 59, rfl⟩
abbrev main_v9 : Ref sig .tc := ⟨.hbm, 60, rfl⟩
abbrev main_cst_0 : Ref sig .tc := ⟨.hbm, 61, rfl⟩
abbrev main_v10 : Ref sig .tc := ⟨.hbm, 62, rfl⟩
abbrev main_cst_1 : Ref sig .tc := ⟨.hbm, 63, rfl⟩
abbrev main_v11 : Ref sig .tc := ⟨.hbm, 64, rfl⟩
abbrev main_cst_2 : Ref sig .tc := ⟨.hbm, 65, rfl⟩
abbrev main_v12 : Ref sig .tc := ⟨.hbm, 66, rfl⟩
abbrev main_v13 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9

abbrev nD : Nat := 1
abbrev τ : Topo := Topo.v7x

variable {F : FTy → Type} [FloatOps F]

abbrev grid0 : Pipeline.Grid := ⟨1, ![512], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8192x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![512], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S8192x2 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192x2 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

class Facts₀ : Prop where
  concatenates_S2097152_S2097152_S4194304_d0 : Shape.Concatenates [S2097152, S2097152] S4194304 0
  bcast_S_S4194304 : S_.BroadcastsInDim S4194304 (![] : Fin 0 → Fin S4194304.rank)
  bcast_S4194304_S4194304x1_0 : S4194304.BroadcastsInDim S4194304x1 (![0] : Fin 1 → Fin S4194304x1.rank)
  bcast_S_S4194304x1 : S_.BroadcastsInDim S4194304x1 (![] : Fin 0 → Fin S4194304x1.rank)
  bcast_S1_S1x1_1 : S1.BroadcastsInDim S1x1 (![1] : Fin 1 → Fin S1x1.rank)
  bcast_S1x1_S4194304x1_0_1 : S1x1.BroadcastsInDim S4194304x1 (![0, 1] : Fin 2 → Fin S4194304x1.rank)
  reducesTo_S4194304x1_S4194304_d1 : S4194304x1.ReducesTo [1] S4194304
  h_S_ : 0 < S_.numel
  bcast_S4194304_S4194304x2_0 : S4194304.BroadcastsInDim S4194304x2 (![0] : Fin 1 → Fin S4194304x2.rank)
  bcast_S_S4194304x2 : S_.BroadcastsInDim S4194304x2 (![] : Fin 0 → Fin S4194304x2.rank)
  shapeCasts_S4194304_S4194304x1 : S4194304.ShapeCasts S4194304x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S8192x2_S8192x2_0_0 : ∀ a, (![0, 0] : Fin 2 → Nat) a + S8192x2.size a ≤ S8192x2.size a
  h_S8192x2 : 0 < S8192x2.numel
  inb_S8192x1_S8192x1_0_0 : ∀ a, (![0, 0] : Fin 2 → Nat) a + S8192x1.size a ≤ S8192x1.size a
  h_S8192x1 : 0 < S8192x1.numel
  shapeCasts_S8192x1_S8192x1 : S8192x1.ShapeCasts S8192x1
  iota_S8192x2_d1_w32 : S8192x2.Iotas .tc 32 [1]
  broadcasts_S8192x1_S8192x2 : S8192x1.Broadcasts S8192x2
  natLt_1_32 : 1 < 32
  reduces_S8192x2_S8192 : S8192x2.Reduces [1] S8192
  shapeCasts_S8192_S8192x1 : S8192.ShapeCasts S8192x1
  reduces_S8192x1_S1 : S8192x1.Reduces [0] S1
  shapeCasts_S1_S1x1 : S1.ShapeCasts S1x1
  shapeCasts_S1x1_S_ : S1x1.ShapeCasts S_
  shapeCasts_S8192x2_S8192x2 : S8192x2.ShapeCasts S8192x2
  gather_S4194304x2_S4194304x1_S4194304x2_1_0_n_n_0_1_12_wf : GatherDims.WF S4194304x2 S4194304x1 S4194304x2 [1] [0] [] [0] [] 1 ![1, 2]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x2.size a ≤ S4194304x2.size a
  hwx0_0 : ∀ i : grid0.Coords, EltTy.bits .f32 = 32 ∨ (Rect.block (s := S4194304x2) S8192x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x1.size a ≤ S4194304x1.size a
  hwx0_1 : ∀ i : grid0.Coords, EltTy.bits .i32 = 32 ∨ (Rect.block (s := S4194304x1) S8192x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x2.size a ≤ S4194304x2.size a
  hwx1_0 : ∀ i : grid1.Coords, EltTy.bits .f32 = 32 ∨ (Rect.block (s := S4194304x2) S8192x2.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192x2.size a ≤ S4194304x2.size a
  hwx1_1 : ∀ i : grid1.Coords, EltTy.bits .f32 = 32 ∨ (Rect.block (s := S4194304x2) S8192x2.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)

variable [Facts₀]

def gather_S4194304x2_S4194304x1_S4194304x2_1_0_n_n_0_1_12 : GatherDims S4194304x2 S4194304x1 S4194304x2 where
  offsetDims := [1]
  collapsedSliceDims := [0]
  operandBatchingDims := []
  startIndicesBatchingDims := []
  startIndexMap := [0]
  indexVectorDim := 1
  sliceSizes := ![1, 2]
  wf := gather_S4194304x2_S4194304x1_S4194304x2_1_0_n_n_0_1_12_wf

abbrev win0_0 : Pipeline.Window sig grid0 :=
  Pipeline.Window.ofSpec (Memref.whole main_arg0) S8192x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S8192x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v2) S8192x2.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S8192x2.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x1.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4194304x2 : Shape := ⟨2, ![4194304, 2]⟩
abbrev S4194304 : Shape := ⟨1, ![4194304]⟩
abbrev S2097152 : Shape := ⟨1, ![2097152]⟩
abbrev S4194304x1 : Shape := ⟨2, ![4194304, 1]⟩
abbrev S1x2 : Shape := ⟨2, ![1, 2]⟩
abbrev S_ : Shape := ⟨0, ![]⟩

abbrev nBuf : Space → Nat
  | .hbm => 91
  | .vmem => 0
  | .smem => 0
  | _ => 0

abbrev bufTy : (tb : Table) → Fin (tcTables nBuf tb) → BufTy
  | .hbm, ⟨0, _⟩ => ⟨S4194304x2, .f32⟩
  | .hbm, ⟨1, _⟩ => ⟨S4194304, .i32⟩
  | .hbm, ⟨2, _⟩ => ⟨S2097152, .i32⟩
  | .hbm, ⟨3, _⟩ => ⟨S2097152, .i32⟩
  | .hbm, ⟨4, _⟩ => ⟨S2097152, .i32⟩
  | .hbm, ⟨5, _⟩ => ⟨S2097152, .i32⟩
  | .hbm, ⟨6, _⟩ => ⟨S4194304x1, .i32⟩
  | .hbm, ⟨7, _⟩ => ⟨S1x2, .i32⟩
  | .hbm, ⟨8, _⟩ => ⟨S4194304x2, .i32⟩
  | .hbm, ⟨9, _⟩ => ⟨S4194304x2, .i32⟩
  | .hbm, ⟨10, _⟩ => ⟨S4194304x2, .i1⟩
  | .hbm, ⟨11, _⟩ => ⟨S4194304x2, .f32⟩
  | .hbm, ⟨12, _⟩ => ⟨S4194304x2, .f32⟩
  | .hbm, ⟨13, _⟩ => ⟨S4194304x2, .f32⟩
  | .hbm, ⟨14, _⟩ => ⟨S_, .f32⟩
  | .hbm, ⟨15, _⟩ => ⟨S4194304x2, .f32⟩
  | .hbm, ⟨16, _⟩ => ⟨S4194304x2, .f32⟩
  | .hbm, ⟨17, _⟩ => ⟨S4194304x2, .f32⟩
  | .hbm, ⟨18, _⟩ => ⟨S4194304x2, .f32⟩
  | .hbm, ⟨19, _⟩ => ⟨S4194304x2, .f32⟩
  | .hbm, ⟨20, _⟩ => ⟨S4194304x2, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S4194304x2, .f32⟩
  | .hbm, ⟨27, _⟩ => ⟨S4194304x2, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S4194304, .i32⟩
  | .hbm, ⟨33, _⟩ => ⟨S_, .i32⟩
  | .hbm, ⟨34, _⟩ => ⟨S4194304, .i32⟩
  | .hbm, ⟨35, _⟩ => ⟨S4194304, .i1⟩
  | .hbm, ⟨36, _⟩ => ⟨S_, .i32⟩
  | .hbm, ⟨37, _⟩ => ⟨S4194304, .i32⟩
  | .hbm, ⟨38, _⟩ => ⟨S4194304, .i32⟩
  | .hbm, ⟨39, _⟩ => ⟨S4194304, .i32⟩
  | .hbm, ⟨40, _⟩ => ⟨S4194304x1, .i32⟩
  | .hbm, ⟨41, _⟩ => ⟨S4194304x2, .f32⟩
  | .hbm, ⟨42, _⟩ => ⟨S4194304, .i32⟩
  | .hbm, ⟨43, _⟩ => ⟨S_, .i32⟩
  | .hbm, ⟨44, _⟩ => ⟨S4194304, .i32⟩
  | .hbm, ⟨45, _⟩ => ⟨S4194304, .i1⟩
  | .hbm, ⟨46, _⟩ => ⟨S_, .i32⟩
  | .hbm, ⟨47, _⟩ => ⟨S4194304, .i32⟩
  | .hbm, ⟨48, _⟩ => ⟨S4194304, .i32⟩
  | .hbm, ⟨49, _⟩ => ⟨S4194304, .i32⟩
  | .hbm, ⟨50, _⟩ => ⟨S4194304x1, .i32⟩
  | .hbm, ⟨51, _⟩ => ⟨S4194304x2, .f32⟩
  | .hbm, ⟨52, _⟩ => ⟨S_, .f32⟩
  | .hbm, ⟨53, _⟩ => ⟨S2097152, .f32⟩
  | .hbm, ⟨54, _⟩ => ⟨S_, .f32⟩
  | .hbm, ⟨55, _⟩ => ⟨S2097152, .f32⟩
  | .hbm, ⟨56, _⟩ => ⟨S4194304, .f32⟩
  | .hbm, ⟨57, _⟩ => ⟨S4194304x2, .f32⟩
  | .hbm, ⟨58, _⟩ => ⟨S_, .f32⟩
  | .hbm, ⟨59, _⟩ => ⟨S4194304x2, .f32⟩
  | .hbm, ⟨60, _⟩ => ⟨S4194304x2, .f32⟩
  | .hbm, ⟨61, _⟩ => ⟨S4194304x2, .f32⟩
  | .hbm, ⟨62, _⟩ => ⟨S_, .f32⟩
  | .hbm, ⟨63, _⟩ => ⟨S4194304, .f32⟩
  | .hbm, ⟨64, _⟩ => ⟨S4194304, .f32⟩
  | .hbm, ⟨65, _⟩ => ⟨S_, .f32⟩
  | .hbm, ⟨66, _⟩ => ⟨S4194304, .f32⟩
  | .hbm, ⟨67, _⟩ => ⟨S4194304, .f32⟩
  | .hbm, ⟨68, _⟩ => ⟨S4194304, .f32⟩
  | .hbm, ⟨69, _⟩ => ⟨S4194304, .f32⟩
  | .hbm, ⟨70, _⟩ => ⟨S_, .f32⟩
  | .hbm, ⟨71, _⟩ => ⟨S4194304, .f32⟩
  | .hbm, ⟨72, _⟩ => ⟨S4194304, .f32⟩
  | .hbm, ⟨73, _⟩ => ⟨S_, .f32⟩
  | .hbm, ⟨74, _⟩ => ⟨S4194304, .f32⟩
  | .hbm, ⟨75, _⟩ => ⟨S4194304, .f32⟩
  | .hbm, ⟨76, _⟩ => ⟨S4194304, .f32⟩
  | .hbm, ⟨77, _⟩ => ⟨S4194304, .f32⟩
  | .hbm, ⟨78, _⟩ => ⟨S4194304, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | _, _ => ⟨S4194304x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_cst_3 : Ref sig .tc := ⟨.hbm, 30, rfl⟩
abbrev main_v15 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_c_6 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_7 : Ref sig .tc := ⟨.hbm, 52, rfl⟩
abbrev main_v32 : Ref sig .tc := ⟨.hbm, 53, rfl⟩
abbrev main_cst_8 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_9 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_10 : Ref sig .tc := ⟨.hbm, 62, rfl⟩
abbrev main_v39 : Ref sig .tc := ⟨.hbm, 63, rfl⟩
abbrev main_v40 : Ref sig .tc := ⟨.hbm, 64, rfl⟩
abbrev main_cst_11 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_12 : Ref sig .tc := ⟨.hbm, 70, rfl⟩
abbrev main_v45 : Ref sig .tc := ⟨.hbm, 71, rfl⟩
abbrev main_v46 : Ref sig .tc := ⟨.hbm, 72, rfl⟩
abbrev main_cst_13 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_14 : Ref sig .tc := ⟨.hbm, 79, rfl⟩
abbrev main_v52 : Ref sig .tc := ⟨.hbm, 80, rfl⟩
abbrev main_cst_15 : Ref sig .tc := ⟨.hbm, 81, rfl⟩
abbrev main_v53 : Ref sig .tc := ⟨.hbm, 82, rfl⟩
abbrev main_cst_16 : Ref sig .tc := ⟨.hbm, 83, rfl⟩
abbrev main_v54 : Ref sig .tc := ⟨.hbm, 84, rfl⟩
abbrev main_cst_17 : Ref sig .tc := ⟨.hbm, 85, rfl⟩
abbrev main_v55 : Ref sig .tc := ⟨.hbm, 86, rfl⟩
abbrev main_v56 : Ref sig .tc := ⟨.hbm, 87, rfl⟩
abbrev main_cst_18 : Ref sig .tc := ⟨.hbm, 88, rfl⟩
abbrev main_v57 : Ref sig .tc := ⟨.hbm, 89, rfl⟩
abbrev main_v58 : Ref sig .tc := ⟨.hbm, 90, rfl⟩

abbrev nD : Nat := 1
abbrev τ : Topo := Topo.v7x

variable {F : FTy → Type} [FloatOps F]

class Facts₀ : Prop where
  bcast_S4194304_S4194304x1_0 : S4194304.BroadcastsInDim S4194304x1 (![0] : Fin 1 → Fin S4194304x1.rank)
  bcast_S4194304x1_S4194304x2_0_1 : S4194304x1.BroadcastsInDim S4194304x2 (![0, 1] : Fin 2 → Fin S4194304x2.rank)
  bcast_S1x2_S4194304x2_0_1 : S1x2.BroadcastsInDim S4194304x2 (![0, 1] : Fin 2 → Fin S4194304x2.rank)
  bcast_S_S4194304x2 : S_.BroadcastsInDim S4194304x2 (![] : Fin 0 → Fin S4194304x2.rank)
  reducesTo_S4194304x2_S_d0_1 : S4194304x2.ReducesTo [0, 1] S_
  h_S_ : 0 < S_.numel
  concatenates_S2097152_S2097152_S4194304_d0 : Shape.Concatenates [S2097152, S2097152] S4194304 0
  bcast_S_S4194304 : S_.BroadcastsInDim S4194304 (![] : Fin 0 → Fin S4194304.rank)
  bcast_S_S2097152 : S_.BroadcastsInDim S2097152 (![] : Fin 0 → Fin S2097152.rank)
  reducesTo_S4194304x2_S4194304_d1 : S4194304x2.ReducesTo [1] S4194304
  reducesTo_S4194304_S_d0 : S4194304.ReducesTo [0] S_
  gather_S4194304x2_S4194304x1_S4194304x2_1_0_n_n_0_1_12_wf : GatherDims.WF S4194304x2 S4194304x1 S4194304x2 [1] [0] [] [0] [] 1 ![1, 2]

variable [Facts₀]

def gather_S4194304x2_S4194304x1_S4194304x2_1_0_n_n_0_1_12 : GatherDims S4194304x2 S4194304x1 S4194304x2 where
  offsetDims := [1]
  collapsedSliceDims := [0]
  operandBatchingDims := []
  startIndicesBatchingDims := []
  startIndexMap := [0]
  indexVectorDim := 1
  sliceSizes := ![1, 2]
  wf := gather_S4194304x2_S4194304x1_S4194304x2_1_0_n_n_0_1_12_wf

class Facts : Prop extends Facts₀ where

variable [Facts]
-- ==== Proof.K.Data.lean ====
/-
  The two tiled sums as data of their pipelines.

  Each region walks 512 blocks of 8192 rows. At block `t` the body adds the block's sum to a 1×1 scratch cell (cleared
  at the first block) and copies the cell to the 1×1 output buffer, which is written back once, after the last block. So the cell after
  block `t` is `acc t`: `acc 0 = pay (block 0) zero`, `acc (t+1) = pay (block (t+1)) (acc t)`, where `pay` is the
  body's one stored value as a function of the blocks it loads and of the cell it reads.

  Stated for any float instance: at the word instance this carries the frame, at the exact one also the value.
-/
import proofs.«401785_j35828617183237_2_alg».proof.Proof.Gen.Kernel.Launch
import proofs.«401785_j35828617183237_2_alg».proof.Proof.Gen.Kernel.Skeleton
import proofs.«401785_j35828617183237_2_alg».proof.Proof.Gen.Kernel.Points
import proofs.«401785_j35828617183237_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A core's buffers read at the TensorCore's references. -/
abbrev Bufs (F : FTy → Type) [FloatOps F] : Type :=
  (c : Dev nD) → (b : Ref sig .tc) → Buf (Elt F) ((c : Thread nD τ).loc b)

section Region0

variable (V : Bufs F)

/-- Window `w`'s block at point `t` of the first sum, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The scratch cell (and the output buffer) after block `n` of the first sum. -/
def acc0 (c : Dev nD) : (n : ℕ) → n < cfg0.N → Vec F S1x1 .f32
  | 0, h => k0_pay2 (iblk0 V c 0 ⟨0, h⟩) (iblk0 V c 1 ⟨0, h⟩) (k0_pay1 (F := F))
  | n + 1, h => k0_pay2 (iblk0 V c 0 ⟨n + 1, h⟩) (iblk0 V c 1 ⟨n + 1, h⟩) (acc0 c n (Nat.lt_of_succ_lt h))

/-- The first sum's scratch cell. -/
abbrev sc0 : Memref sig .tc .vmem S1x1 .f32 := Memref.whole cc0_scratch0

/-- The scoped buffers the first region neither stages nor uses: the second region's staging buffers and scratch cell,
    each whole at some contents. -/
def others0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_scratch0), ((c : Thread nD τ).loc cc1_scratch0) ↦{fullShare} f))

/-- The region's invariant before block `n`: before the first block the scoped rest at anything; afterwards the scratch
    cell at what the block before left, the scoped buffers it does not use, and the generator register at some state. -/
def Phi0 (c : Dev nD) : (n : ℕ) → n ≤ cfg0.N → sProp 𝕄
  | 0, _ => Pipeline.ΦA spec0 c
  | n + 1, hn => iprop(owns (c : Thread nD τ) sc0 fullShare (acc0 V c n hn) ∗ others0 (F := F) c ∗ (∃ r, prngReg c r))

/-- The first sum's proof data: the arrays as the region finds them; after each block the inputs' buffers at their blocks
    and the output's at the running sum; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => acc0 V c t.val t.isLt
  Φ t := Phi0 V c t.val (Nat.le_of_lt_succ t.isLt)
  q _ := fullShare
  owed _ := 0

end Region0

section Region1

variable (V : Bufs F)

/-- Window `w`'s block at point `t` of the second sum, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scratch cell (and the output buffer) after block `n` of the second sum. -/
def acc1 (c : Dev nD) : (n : ℕ) → n < cfg1.N → Vec F S1x1 .f32
  | 0, h => k1_pay2 (grid1.coords ⟨0, h⟩) (iblk1 V c 0 ⟨0, h⟩) (iblk1 V c 1 ⟨0, h⟩) (k1_pay1 (F := F))
  | n + 1, h => k1_pay2 (grid1.coords ⟨n + 1, h⟩) (iblk1 V c 0 ⟨n + 1, h⟩) (iblk1 V c 1 ⟨n + 1, h⟩) (acc1 c n (Nat.lt_of_succ_lt h))

abbrev sc1 : Memref sig .tc .vmem S1x1 .f32 := Memref.whole cc1_scratch0

/-- The scoped buffers the second region neither stages nor uses: the first region's staging buffers and scratch cell. -/
def others1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_scratch0), ((c : Thread nD τ).loc cc0_scratch0) ↦{fullShare} f))

def Phi1 (c : Dev nD) : (n : ℕ) → n ≤ cfg1.N → sProp 𝕄
  | 0, _ => Pipeline.ΦA spec1 c
  | n + 1, hn => iprop(owns (c : Thread nD τ) sc1 fullShare (acc1 V c n hn) ∗ others1 (F := F) c ∗ (∃ r, prngReg c r))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ t := Phi1 V c t.val (Nat.le_of_lt_succ t.isLt)
  q _ := fullShare
  owed _ := 0

end Region1

/-! ## The buffers between @main's items, with the regions' results named -/

variable (m : (ℓ : Loc nD τ sig) → Buf (Elt F) ℓ)

/-- What the first region finds. -/
abbrev Vin0 : Bufs F := fun c b => V4 m c b
/-- What the first region leaves: its arrays at what the pipeline computes, every other buffer as found. -/
def exit0 (c : Dev nD) : Valuation τ sig (Elt F) :=
  Pipeline.withArrays spec0 c (V4 m c) fun w => (dat0 (Vin0 m) c).arrAt w cfg0.N
/-- The regions' results, first approximation: the first region's. -/
def outsA : Outs (F := F) := fun _ r c => exit0 m c (Proc.devRef .tc r)
/-- What the second region finds. -/
abbrev Vin1 : Bufs F := fun c b => V6 m (outsA m) c b
def exit1 (c : Dev nD) : Valuation τ sig (Elt F) :=
  Pipeline.withArrays spec1 c (V6 m (outsA m) c) fun w => (dat1 (Vin1 m) c).arrAt w cfg1.N
/-- The regions' results: item 7's is the second region's, item 5's the first's. -/
def outsS : Outs (F := F) := fun n r c => match n with
  | 7 => exit1 m c (Proc.devRef .tc r)
  | _ => exit0 m c (Proc.devRef .tc r)

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (Vin0 m) c
  | ⟨1, _⟩ => fun c => dat1 (Vin1 m) c

/-- The program's result buffer at the end of @main, as the fold through its items computes it. -/
abbrev result (c : Dev nD) : Buf (Elt F) ((c : Thread nD τ).loc main_v13) := V8 m (outsS m) c main_v13

end Cert.Kernel.Hand

end
-- ==== Proof.K.Pieces.lean ====
/-
  Stores through a whole buffer, read back: the last such store decides the contents, whatever came before.
-/
import Idealize.ShloMosaic.Lib.Pipeline.FrameBody
import Idealize.ShloMosaic.Lib.Pipeline.Value

noncomputable section

namespace Cert.Kernel.Hand

open Idealize.ShloMosaic

variable {Val : EltTy → Type} [∀ e, Nonempty (Val e)] {S : Shape} {e : EltTy}

/-- A list of stores whose LAST store (the head) goes through the whole shape covers the shape. -/
theorem cover_head {off : Fin S.rank → ℕ} (h : off = fun _ => 0) (inb : ∀ a, off a + S.size a ≤ S.size a)
    (w : S.Idx → Val e) (L : List (View.Piece Val S e)) :
    ∀ y : S.Idx, ∃ p ∈ ((⟨Rect.unit off S.size inb, w⟩ : View.Piece Val S e) :: L), y ∈ p.1.set := fun y => by
  subst h
  exact ⟨_, List.mem_cons_self .., by show y ∈ (Rect.whole S).set; rw [Rect.set_whole]; exact Finset.mem_univ y⟩

/-- A load through the whole shape after such a list of stores reads the last store's payload. -/
theorem readCov_head {sig : RefSig} {κ : Kind} {sp : Space} (v : View sig κ sp S e) {off : Fin S.rank → ℕ}
    (h : off = fun _ => 0) (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (cover_head h inb w L), View.canon_cons_unit_zero h, View.ld_unit_zero h]

/-- The origin of a rank-2 buffer. -/
theorem hz2 : (![0, 0] : Fin 2 → ℕ) = fun _ => 0 := by funext a; fin_cases a <;> rfl

end Cert.Kernel.Hand

end
-- ==== Proof.K.Body0.lean ====
import proofs.«401785_j35828617183237_2_alg».proof.Proof.K.Data
import proofs.«401785_j35828617183237_2_alg».proof.Proof.K.Pieces

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The first sum's body -/

/-- The body clears the cell exactly when the grid coordinate is zero. -/
abbrev first0 (i : grid0.Coords) : Prop :=
  (Scalar.cmpi .ne (Scalar.extui (Scalar.cmpi .eq (BitVec.ofNat 32 (i 0).val) 0#32)) 0#32) = 1#1
theorem first0_iff : ∀ t : Fin cfg0.N, first0 (grid0.coords t) ↔ t.val = 0 :=
  (by decide +kernel : ∀ t : Fin grid0.N, first0 (grid0.coords t) ↔ t.val = 0)

set_option maxHeartbeats 2000000 in
/-- At the first block: whatever the cell and the output buffer held, the body leaves both at the block's sum over zero,
    and the two input buffers as they were. -/
theorem run0_first (c : Dev nD) (E : Set ℕ) (i : grid0.Coords) (hc : first0 i)
    (arg1 : Memref sig .tc .vmem S8192x2 .f32) (harg1 : arg1.IsWhole) (arg2 : Memref sig .tc .vmem S8192x1 .i32) (harg2 : arg2.IsWhole)
    (arg3 : Memref sig .tc .vmem S1x1 .f32) (harg3 : arg3.IsWhole) (arg4 : Memref sig .tc .vmem S1x1 .f32) (harg4 : arg4.IsWhole)
    (x : Vec F S8192x2 .f32) (y : Vec F S8192x1 .i32) (K : PUnit → sProp 𝕄) :
    iprop(owns (c : Thread nD τ) arg1 fullShare x ∗ owns (c : Thread nD τ) arg2 fullShare y
        ∗ (∃ d, owns (c : Thread nD τ) arg3 fullShare d) ∗ (∃ d, owns (c : Thread nD τ) arg4 fullShare d)
        ∗ (iprop(owns (c : Thread nD τ) arg1 fullShare x ∗ owns (c : Thread nD τ) arg2 fullShare y
            ∗ owns (c : Thread nD τ) arg3 fullShare (k0_pay2 x y (k0_pay1 (F := F)))
            ∗ owns (c : Thread nD τ) arg4 fullShare (k0_pay2 x y (k0_pay1 (F := F)))) -∗ K ⟨⟩))
      ⊢ wp frame (wpE (defs₀ (F := F)) Variants.none c none) E (cc0__bce_mse_kernel i arg1 harg1 arg2 harg2 arg3 harg3 arg4 harg4) K := by
  simp only [cc0__bce_mse_kernel_eq_skeleton]; unfold cc0__bce_mse_kernel_skel
  simp only [k0_part1_eq_skeleton]; unfold k0_part1_skel
  unfold owns
  iintro ⟨⟨%f1, %hf1, H1⟩, ⟨%f2, %hf2, H2⟩, ⟨%d3, %f3, -, H3⟩, ⟨%d4, %f4, -, H4⟩, Hk⟩
  obtain rfl := harg1.eq_unread hf1; obtain rfl := harg2.eq_unread hf2
  sl_exec (disch := first | exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr
    swap; · iexact H3
    ipureintro
    rw [View.read_writes_eq_canon _ _ _ (View.cover_of_tiled _ S1x1.size (by rfl))]
    sl_unfold_words
    rw [View.canon_unit_zero hz2, readCov_head _ hz2]
    simp only [View.readAt_eq_ld, harg1.read_unread, harg2.read_unread, View.ld_unit_zero (S := S8192x2) hz2, View.ld_unit_zero (S := S8192x1) hz2, View.ld_unit_zero (S := S1x1) hz2, View.readCov_unit_zero (S := S1x1) _ hz2]
  iexists _; isplitr
  swap; · iexact H4
  ipureintro
  sl_unfold_words
  rw [View.read_writes_eq_canon _ _ _ (cover_head hz2 _ _ _), View.canon_cons_unit_zero hz2]
  simp only [View.readAt_eq_ld, harg1.read_unread, harg2.read_unread, View.ld_unit_zero (S := S8192x2) hz2, View.ld_unit_zero (S := S8192x1) hz2, View.ld_unit_zero (S := S1x1) hz2, View.readCov_unit_zero (S := S1x1) _ hz2]

set_option maxHeartbeats 2000000 in
/-- At a later block: the cell holds `prev`; the body leaves the cell and the output buffer at the block's sum over `prev`. -/
theorem run0_next (c : Dev nD) (E : Set ℕ) (i : grid0.Coords) (hc : ¬first0 i)
    (arg1 : Memref sig .tc .vmem S8192x2 .f32) (harg1 : arg1.IsWhole) (arg2 : Memref sig .tc .vmem S8192x1 .i32) (harg2 : arg2.IsWhole)
    (arg3 : Memref sig .tc .vmem S1x1 .f32) (harg3 : arg3.IsWhole) (arg4 : Memref sig .tc .vmem S1x1 .f32) (harg4 : arg4.IsWhole)
    (x : Vec F S8192x2 .f32) (y : Vec F S8192x1 .i32) (prev : Vec F S1x1 .f32) (K : PUnit → sProp 𝕄) :
    iprop(owns (c : Thread nD τ) arg1 fullShare x ∗ owns (c : Thread nD τ) arg2 fullShare y
        ∗ (∃ d, owns (c : Thread nD τ) arg3 fullShare d) ∗ owns (c : Thread nD τ) arg4 fullShare prev
        ∗ (iprop(owns (c : Thread nD τ) arg1 fullShare x ∗ owns (c : Thread nD τ) arg2 fullShare y
            ∗ owns (c : Thread nD τ) arg3 fullShare (k0_pay2 x y prev)
            ∗ owns (c : Thread nD τ) arg4 fullShare (k0_pay2 x y prev)) -∗ K ⟨⟩))
      ⊢ wp frame (wpE (defs₀ (F := F)) Variants.none c none) E (cc0__bce_mse_kernel i arg1 harg1 arg2 harg2 arg3 harg3 arg4 harg4) K := by
  simp only [cc0__bce_mse_kernel_eq_skeleton]; unfold cc0__bce_mse_kernel_skel
  simp only [k0_part1_eq_skeleton]; unfold k0_part1_skel
  unfold owns
  iintro ⟨⟨%f1, %hf1, H1⟩, ⟨%f2, %hf2, H2⟩, ⟨%d3, %f3, -, H3⟩, ⟨%f4, %hf4, H4⟩, Hk⟩
  obtain rfl := harg1.eq_unread hf1; obtain rfl := harg2.eq_unread hf2; obtain rfl := harg4.eq_unread hf4
  sl_exec (disch := first | exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr
    swap; · iexact H3
    ipureintro
    rw [View.read_writes_eq_canon _ _ _ (View.cover_of_tiled _ S1x1.size (by rfl))]
    sl_unfold_words
    rw [View.canon_unit_zero hz2, View.readCov_unit_zero _ hz2]
    simp only [View.readAt_eq_ld, harg1.read_unread, harg2.read_unread, harg4.read_unread, View.ld_unit_zero (S := S8192x2) hz2, View.ld_unit_zero (S := S8192x1) hz2, View.ld_unit_zero (S := S1x1) hz2]
  iexists _; isplitr
  swap; · iexact H4
  ipureintro
  sl_unfold_words
  rw [View.read_writes_eq_canon _ _ _ (cover_head hz2 _ _ _), View.canon_unit_zero hz2]
  simp only [View.readAt_eq_ld, harg1.read_unread, harg2.read_unread, harg4.read_unread, View.ld_unit_zero (S := S8192x2) hz2, View.ld_unit_zero (S := S8192x1) hz2, View.ld_unit_zero (S := S1x1) hz2]

end Cert.Kernel.Hand

end
-- ==== Proof.K.Scoped.lean ====
/-
  Each region's scoped buffers, sorted: the region's own scratch cell, the scoped buffers it neither stages nor uses
  (the other region's), and the generator register — what the class's invariant holds, in the order the running
  invariant names them.
-/
import proofs.«401785_j35828617183237_2_alg».proof.Proof.K.Data

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The first region: the cell comes first among its scoped buffers. -/
theorem PhiA0_in (c : Dev nD) :
    (Pipeline.ΦA spec0 c : sProp 𝕄)
      ⊢ iprop((∃ d, owns (c : Thread nD τ) sc0 fullShare d) ∗ others0 (F := F) c ∗ (∃ r, prngReg c r)) := by
  unfold Pipeline.ΦA; rw [scopedRest0_eq]; unfold others0; simp only [sc0, owns_whole]
  iintro ⟨⟨HS, Hr⟩, Hg⟩
  isplitl [HS]; · iexact HS
  isplitl [Hr]; · iexact Hr
  iexact Hg

theorem PhiA0_out (c : Dev nD) :
    iprop((∃ d, owns (c : Thread nD τ) sc0 fullShare d) ∗ others0 (F := F) c ∗ (∃ r, prngReg c r))
      ⊢ (Pipeline.ΦA spec0 c : sProp 𝕄) := by
  unfold Pipeline.ΦA; rw [scopedRest0_eq]; unfold others0; simp only [sc0, owns_whole]
  iintro ⟨HS, Hr, Hg⟩
  isplitl [HS Hr]
  · isplitl [HS]; · iexact HS
    iexact Hr
  iexact Hg

/-- The second region: the cell comes last among its scoped buffers. -/
theorem PhiA1_in (c : Dev nD) :
    (Pipeline.ΦA spec1 c : sProp 𝕄)
      ⊢ iprop((∃ d, owns (c : Thread nD τ) sc1 fullShare d) ∗ others1 (F := F) c ∗ (∃ r, prngReg c r)) := by
  unfold Pipeline.ΦA; rw [scopedRest1_eq]; unfold others1; simp only [sc1, owns_whole]
  iintro ⟨⟨H1, H2, H3, H4, H5, H6, HS⟩, Hg⟩
  isplitl [HS]; · iexact HS
  isplitl [H1 H2 H3 H4 H5 H6]
  · isplitl [H1]; · iexact H1
    isplitl [H2]; · iexact H2
    isplitl [H3]; · iexact H3
    isplitl [H4]; · iexact H4
    isplitl [H5]; · iexact H5
    iexact H6
  iexact Hg

theorem PhiA1_out (c : Dev nD) :
    iprop((∃ d, owns (c : Thread nD τ) sc1 fullShare d) ∗ others1 (F := F) c ∗ (∃ r, prngReg c r))
      ⊢ (Pipeline.ΦA spec1 c : sProp 𝕄) := by
  unfold Pipeline.ΦA; rw [scopedRest1_eq]; unfold others1; simp only [sc1, owns_whole]
  iintro ⟨HS, ⟨H1, H2, H3, H4, H5, H6⟩, Hg⟩
  isplitl [HS H1 H2 H3 H4 H5 H6]
  · isplitl [H1]; · iexact H1
    isplitl [H2]; · iexact H2
    isplitl [H3]; · iexact H3
    isplitl [H4]; · iexact H4
    isplitl [H5]; · iexact H5
    isplitl [H6]; · iexact H6
    iexact HS
  iexact Hg

end Cert.Kernel.Hand

end
-- ==== Proof.K.Oblig0.lean ====
import proofs.«401785_j35828617183237_2_alg».proof.Proof.K.Body0
import proofs.«401785_j35828617183237_2_alg».proof.Proof.K.Scoped

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Bufs F)

/-! ## The first sum's proof data, projected -/

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = acc0 V c t.val t.isLt := by dsimp only [dat0]

/-- Each input's current staging buffer holds its block at every point: it is fetched at every point. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

/-! ## The invariant's three forms -/

theorem Phi0_zero (c : Dev nD) (n : ℕ) (h : n ≤ cfg0.N) (hz : n = 0) : Phi0 V c n h = Pipeline.ΦA spec0 c := by
  subst hz; rfl
theorem Phi0_succ (c : Dev nD) (n : ℕ) (hn : n < cfg0.N) :
    Phi0 V c (n + 1) hn = iprop(owns (c : Thread nD τ) sc0 fullShare (acc0 V c n hn) ∗ others0 (F := F) c ∗ (∃ r, prngReg c r)) := rfl
theorem Phi0_pos (c : Dev nD) (n : ℕ) (h : n ≤ cfg0.N) (hz : n ≠ 0) :
    Phi0 V c n h = iprop(owns (c : Thread nD τ) sc0 fullShare (acc0 V c (n - 1) (by omega)) ∗ others0 (F := F) c ∗ (∃ r, prngReg c r)) := by
  cases n with
  | zero => exact absurd rfl hz
  | succ n => rfl
theorem Phi0_castSucc (c : Dev nD) (t : Fin cfg0.N) :
    (dat0 V c).Φ t.castSucc = Phi0 V c t.val (Nat.le_of_lt t.isLt) := by
  dsimp only [dat0]; simp only [Fin.coe_castSucc]

/-- The running sum one block on. -/
theorem acc0_zero (c : Dev nD) (t : Fin cfg0.N) (hz : t.val = 0) :
    acc0 V c t.val t.isLt = k0_pay2 (iblk0 V c 0 t) (iblk0 V c 1 t) (k0_pay1 (F := F)) := by
  obtain ⟨n, hn⟩ := t
  cases n with
  | zero => rfl
  | succ n => exact absurd hz (Nat.succ_ne_zero n)
theorem acc0_pos (c : Dev nD) (t : Fin cfg0.N) (hz : t.val ≠ 0) :
    acc0 V c t.val t.isLt = k0_pay2 (iblk0 V c 0 t) (iblk0 V c 1 t) (acc0 V c (t.val - 1) (Nat.lt_of_le_of_lt (Nat.sub_le _ _) t.isLt)) := by
  obtain ⟨n, hn⟩ := t
  cases n with
  | zero => exact absurd rfl hz
  | succ n => rfl

/-! ## The body obligation -/

/-- What the body is called with at block `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

set_option maxHeartbeats 2000000 in
/-- The body at any block: the inputs' buffers hold their blocks; at the first block the cell is handed over at anything
    and comes back at the block's sum over zero, at a later block it is handed over at the running sum and comes back one
    block on; the output buffer comes back at the same value; the unused scoped buffers, the generator register and the
    core's dues pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl,
    show (dat0 V c).Φ t.succ = Phi0 V c (t.val + 1) t.isLt from rfl, Phi0_succ, after0_0, after0_1, after0_2]
  by_cases hz : t.val = 0
  · rw [Phi0_castSucc V c t, Phi0_zero V c _ _ hz, acc0_zero V c t hz]
    iintro ⟨HP, Ho, ⟨%d0, H0⟩, ⟨%d1, H1⟩, ⟨%d2, H2⟩⟩
    ihave HQ := (PhiA0_in (F := F) c) $$ HP
    icases HQ with ⟨HS, Hr, Hg⟩
    iapply (run0_first c Set.univ (grid0.coords t) ((first0_iff t).mpr hz) _ _ _ _ _ _ _ _ (iblk0 V c 0 t) (iblk0 V c 1 t) _)
    isplitl [H0]; · iexact H0
    isplitl [H1]; · iexact H1
    isplitl [H2]; · iexists _; iexact H2
    isplitl [HS]; · iexact HS
    iintro ⟨H0, H1, H2, HS⟩
    isplitl [HS Hr Hg]
    · isplitl [HS]; · iexact HS
      isplitl [Hr]; · iexact Hr
      iexact Hg
    isplitl [Ho]; · iexact Ho
    isplitl [H0]; · iexact H0
    isplitl [H1]; · iexact H1
    iexact H2
  · rw [Phi0_castSucc V c t, Phi0_pos V c _ _ hz, acc0_pos V c t hz]
    iintro ⟨⟨HS, Hr, Hg⟩, Ho, ⟨%d0, H0⟩, ⟨%d1, H1⟩, ⟨%d2, H2⟩⟩
    iapply (run0_next c Set.univ (grid0.coords t) (fun h => hz ((first0_iff t).mp h)) _ _ _ _ _ _ _ _ (iblk0 V c 0 t) (iblk0 V c 1 t) _ _)
    isplitl [H0]; · iexact H0
    isplitl [H1]; · iexact H1
    isplitl [H2]; · iexists _; iexact H2
    isplitl [HS]; · iexact HS
    iintro ⟨H0, H1, H2, HS⟩
    isplitl [HS Hr Hg]
    · isplitl [HS]; · iexact HS
      isplitl [Hr]; · iexact Hr
      iexact Hg
    isplitl [Ho]; · iexact Ho
    isplitl [H0]; · iexact H0
    isplitl [H1]; · iexact H1
    iexact H2

/-- The library's body obligation, at every block. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first block. -/
theorem hin0 (c : Dev nD) : Pipeline.ΦA spec0 c ⊢ (dat0 V c).Φ 0 := by
  rw [show (dat0 V c).Φ 0 = Phi0 V c 0 (Nat.zero_le _) from rfl, Phi0_zero V c 0 _ rfl]
  try exact Idealize.SL.BI.Entails.refl _

/-- After the last block the invariant gives the class's back: the cell's named contents are forgotten. -/
theorem hout0 (c : Dev nD) : (dat0 V c).Φ (Fin.last cfg0.N) ⊢ Pipeline.ΦA spec0 c := by
  have hN : (Fin.last cfg0.N).val ≠ 0 := by rw [Fin.val_last]; have : cfg0.N = 512 := N_0; omega
  rw [show (dat0 V c).Φ (Fin.last cfg0.N) = Phi0 V c (Fin.last cfg0.N).val (Nat.le_of_lt_succ (Fin.last cfg0.N).isLt) from rfl,
    Phi0_pos V c _ _ hN]
  iintro ⟨HS, Hr, Hg⟩
  iapply (PhiA0_out (F := F) c)
  isplitl [HS]; · iexists _; iexact HS
  isplitl [Hr]; · iexact Hr
  iexact Hg

end Cert.Kernel.Hand

end
-- ==== Proof.K.Body1.lean ====
import proofs.«401785_j35828617183237_2_alg».proof.Proof.K.Data
import proofs.«401785_j35828617183237_2_alg».proof.Proof.K.Pieces

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The second sum's body -/

/-- The body clears the cell exactly when the grid coordinate is zero. -/
abbrev first1 (i : grid1.Coords) : Prop :=
  (Scalar.cmpi .ne (Scalar.extui (Scalar.cmpi .eq (BitVec.ofNat 32 (i 0).val) 0#32)) 0#32) = 1#1
theorem first1_iff : ∀ t : Fin cfg1.N, first1 (grid1.coords t) ↔ t.val = 0 :=
  (by decide +kernel : ∀ t : Fin grid1.N, first1 (grid1.coords t) ↔ t.val = 0)

set_option maxHeartbeats 2000000 in
/-- At the first block: whatever the cell and the output buffer held, the body leaves both at the block's sum over zero,
    and the two input buffers as they were. -/
theorem run1_first (c : Dev nD) (E : Set ℕ) (i : grid1.Coords) (hc : first1 i)
    (arg1 : Memref sig .tc .vmem S8192x2 .f32) (harg1 : arg1.IsWhole) (arg2 : Memref sig .tc .vmem S8192x2 .f32) (harg2 : arg2.IsWhole)
    (arg3 : Memref sig .tc .vmem S1x1 .f32) (harg3 : arg3.IsWhole) (arg4 : Memref sig .tc .vmem S1x1 .f32) (harg4 : arg4.IsWhole)
    (x : Vec F S8192x2 .f32) (y : Vec F S8192x2 .f32) (K : PUnit → sProp 𝕄) :
    iprop(owns (c : Thread nD τ) arg1 fullShare x ∗ owns (c : Thread nD τ) arg2 fullShare y
        ∗ (∃ d, owns (c : Thread nD τ) arg3 fullShare d) ∗ (∃ d, owns (c : Thread nD τ) arg4 fullShare d)
        ∗ (iprop(owns (c : Thread nD τ) arg1 fullShare x ∗ owns (c : Thread nD τ) arg2 fullShare y
            ∗ owns (c : Thread nD τ) arg3 fullShare (k1_pay2 i x y (k1_pay1 (F := F)))
            ∗ owns (c : Thread nD τ) arg4 fullShare (k1_pay2 i x y (k1_pay1 (F := F)))) -∗ K ⟨⟩))
      ⊢ wp frame (wpE (defs₀ (F := F)) Variants.none c none) E (cc1__contrastive_kernel i arg1 harg1 arg2 harg2 arg3 harg3 arg4 harg4) K := by
  simp only [cc1__contrastive_kernel_eq_skeleton]; unfold cc1__contrastive_kernel_skel
  unfold owns
  iintro ⟨⟨%f1, %hf1, H1⟩, ⟨%f2, %hf2, H2⟩, ⟨%d3, %f3, -, H3⟩, ⟨%d4, %f4, -, H4⟩, Hk⟩
  obtain rfl := harg1.eq_unread hf1; obtain rfl := harg2.eq_unread hf2
  sl_exec (disch := first | exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr
    swap; · iexact H3
    ipureintro
    rw [View.read_writes_eq_canon _ _ _ (View.cover_of_tiled _ S1x1.size (by rfl))]
    sl_unfold_words
    rw [View.canon_unit_zero hz2, readCov_head _ hz2]
    simp only [View.readAt_eq_ld, harg1.read_unread, harg2.read_unread, View.ld_unit_zero (S := S8192x2) hz2, View.ld_unit_zero (S := S1x1) hz2, View.readCov_unit_zero (S := S1x1) _ hz2]
  iexists _; isplitr
  swap; · iexact H4
  ipureintro
  sl_unfold_words
  rw [View.read_writes_eq_canon _ _ _ (cover_head hz2 _ _ _), View.canon_cons_unit_zero hz2]
  simp only [View.readAt_eq_ld, harg1.read_unread, harg2.read_unread, View.ld_unit_zero (S := S8192x2) hz2, View.ld_unit_zero (S := S1x1) hz2, View.readCov_unit_zero (S := S1x1) _ hz2]

set_option maxHeartbeats 2000000 in
/-- At a later block: the cell holds `prev`; the body leaves the cell and the output buffer at the block's sum over `prev`. -/
theorem run1_next (c : Dev nD) (E : Set ℕ) (i : grid1.Coords) (hc : ¬first1 i)
    (arg1 : Memref sig .tc .vmem S8192x2 .f32) (harg1 : arg1.IsWhole) (arg2 : Memref sig .tc .vmem S8192x2 .f32) (harg2 : arg2.IsWhole)
    (arg3 : Memref sig .tc .vmem S1x1 .f32) (harg3 : arg3.IsWhole) (arg4 : Memref sig .tc .vmem S1x1 .f32) (harg4 : arg4.IsWhole)
    (x : Vec F S8192x2 .f32) (y : Vec F S8192x2 .f32) (prev : Vec F S1x1 .f32) (K : PUnit → sProp 𝕄) :
    iprop(owns (c : Thread nD τ) arg1 fullShare x ∗ owns (c : Thread nD τ) arg2 fullShare y
        ∗ (∃ d, owns (c : Thread nD τ) arg3 fullShare d) ∗ owns (c : Thread nD τ) arg4 fullShare prev
        ∗ (iprop(owns (c : Thread nD τ) arg1 fullShare x ∗ owns (c : Thread nD τ) arg2 fullShare y
            ∗ owns (c : Thread nD τ) arg3 fullShare (k1_pay2 i x y prev)
            ∗ owns (c : Thread nD τ) arg4 fullShare (k1_pay2 i x y prev)) -∗ K ⟨⟩))
      ⊢ wp frame (wpE (defs₀ (F := F)) Variants.none c none) E (cc1__contrastive_kernel i arg1 harg1 arg2 harg2 arg3 harg3 arg4 harg4) K := by
  simp only [cc1__contrastive_kernel_eq_skeleton]; unfold cc1__contrastive_kernel_skel
  unfold owns
  iintro ⟨⟨%f1, %hf1, H1⟩, ⟨%f2, %hf2, H2⟩, ⟨%d3, %f3, -, H3⟩, ⟨%f4, %hf4, H4⟩, Hk⟩
  obtain rfl := harg1.eq_unread hf1; obtain rfl := harg2.eq_unread hf2; obtain rfl := harg4.eq_unread hf4
  sl_exec (disch := first | exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr
    swap; · iexact H3
    ipureintro
    rw [View.read_writes_eq_canon _ _ _ (View.cover_of_tiled _ S1x1.size (by rfl))]
    sl_unfold_words
    rw [View.canon_unit_zero hz2, View.readCov_unit_zero _ hz2]
    simp only [View.readAt_eq_ld, harg1.read_unread, harg2.read_unread, harg4.read_unread, View.ld_unit_zero (S := S8192x2) hz2, View.ld_unit_zero (S := S1x1) hz2]
  iexists _; isplitr
  swap; · iexact H4
  ipureintro
  sl_unfold_words
  rw [View.read_writes_eq_canon _ _ _ (cover_head hz2 _ _ _), View.canon_unit_zero hz2]
  simp only [View.readAt_eq_ld, harg1.read_unread, harg2.read_unread, harg4.read_unread, View.ld_unit_zero (S := S8192x2) hz2, View.ld_unit_zero (S := S1x1) hz2]

end Cert.Kernel.Hand

end
-- ==== Proof.K.Oblig1.lean ====
import proofs.«401785_j35828617183237_2_alg».proof.Proof.K.Body1
import proofs.«401785_j35828617183237_2_alg».proof.Proof.K.Scoped

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Bufs F)

/-! ## The second sum's proof data, projected -/

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = acc1 V c t.val t.isLt := by dsimp only [dat1]

/-- Each input's current staging buffer holds its block at every point: it is fetched at every point. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)

/-! ## The invariant's three forms -/

theorem Phi1_zero (c : Dev nD) (n : ℕ) (h : n ≤ cfg1.N) (hz : n = 0) : Phi1 V c n h = Pipeline.ΦA spec1 c := by
  subst hz; rfl
theorem Phi1_succ (c : Dev nD) (n : ℕ) (hn : n < cfg1.N) :
    Phi1 V c (n + 1) hn = iprop(owns (c : Thread nD τ) sc1 fullShare (acc1 V c n hn) ∗ others1 (F := F) c ∗ (∃ r, prngReg c r)) := rfl
theorem Phi1_pos (c : Dev nD) (n : ℕ) (h : n ≤ cfg1.N) (hz : n ≠ 0) :
    Phi1 V c n h = iprop(owns (c : Thread nD τ) sc1 fullShare (acc1 V c (n - 1) (by omega)) ∗ others1 (F := F) c ∗ (∃ r, prngReg c r)) := by
  cases n with
  | zero => exact absurd rfl hz
  | succ n => rfl
theorem Phi1_castSucc (c : Dev nD) (t : Fin cfg1.N) :
    (dat1 V c).Φ t.castSucc = Phi1 V c t.val (Nat.le_of_lt t.isLt) := by
  dsimp only [dat1]; simp only [Fin.coe_castSucc]

/-- The running sum one block on. -/
theorem acc1_zero (c : Dev nD) (t : Fin cfg1.N) (hz : t.val = 0) :
    acc1 V c t.val t.isLt = k1_pay2 (grid1.coords t) (iblk1 V c 0 t) (iblk1 V c 1 t) (k1_pay1 (F := F)) := by
  obtain ⟨n, hn⟩ := t
  cases n with
  | zero => rfl
  | succ n => exact absurd hz (Nat.succ_ne_zero n)
theorem acc1_pos (c : Dev nD) (t : Fin cfg1.N) (hz : t.val ≠ 0) :
    acc1 V c t.val t.isLt = k1_pay2 (grid1.coords t) (iblk1 V c 0 t) (iblk1 V c 1 t) (acc1 V c (t.val - 1) (Nat.lt_of_le_of_lt (Nat.sub_le _ _) t.isLt)) := by
  obtain ⟨n, hn⟩ := t
  cases n with
  | zero => exact absurd rfl hz
  | succ n => rfl

/-! ## The body obligation -/

/-- What the body is called with at block `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

set_option maxHeartbeats 2000000 in
/-- The body at any block: the inputs' buffers hold their blocks; at the first block the cell is handed over at anything
    and comes back at the block's sum over zero, at a later block it is handed over at the running sum and comes back one
    block on; the output buffer comes back at the same value; the unused scoped buffers, the generator register and the
    core's dues pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl,
    show (dat1 V c).Φ t.succ = Phi1 V c (t.val + 1) t.isLt from rfl, Phi1_succ, after1_0, after1_1, after1_2]
  by_cases hz : t.val = 0
  · rw [Phi1_castSucc V c t, Phi1_zero V c _ _ hz, acc1_zero V c t hz]
    iintro ⟨HP, Ho, ⟨%d0, H0⟩, ⟨%d1, H1⟩, ⟨%d2, H2⟩⟩
    ihave HQ := (PhiA1_in (F := F) c) $$ HP
    icases HQ with ⟨HS, Hr, Hg⟩
    iapply (run1_first c Set.univ (grid1.coords t) ((first1_iff t).mpr hz) _ _ _ _ _ _ _ _ (iblk1 V c 0 t) (iblk1 V c 1 t) _)
    isplitl [H0]; · iexact H0
    isplitl [H1]; · iexact H1
    isplitl [H2]; · iexists _; iexact H2
    isplitl [HS]; · iexact HS
    iintro ⟨H0, H1, H2, HS⟩
    isplitl [HS Hr Hg]
    · isplitl [HS]; · iexact HS
      isplitl [Hr]; · iexact Hr
      iexact Hg
    isplitl [Ho]; · iexact Ho
    isplitl [H0]; · iexact H0
    isplitl [H1]; · iexact H1
    iexact H2
  · rw [Phi1_castSucc V c t, Phi1_pos V c _ _ hz, acc1_pos V c t hz]
    iintro ⟨⟨HS, Hr, Hg⟩, Ho, ⟨%d0, H0⟩, ⟨%d1, H1⟩, ⟨%d2, H2⟩⟩
    iapply (run1_next c Set.univ (grid1.coords t) (fun h => hz ((first1_iff t).mp h)) _ _ _ _ _ _ _ _ (iblk1 V c 0 t) (iblk1 V c 1 t) _ _)
    isplitl [H0]; · iexact H0
    isplitl [H1]; · iexact H1
    isplitl [H2]; · iexists _; iexact H2
    isplitl [HS]; · iexact HS
    iintro ⟨H0, H1, H2, HS⟩
    isplitl [HS Hr Hg]
    · isplitl [HS]; · iexact HS
      isplitl [Hr]; · iexact Hr
      iexact Hg
    isplitl [Ho]; · iexact Ho
    isplitl [H0]; · iexact H0
    isplitl [H1]; · iexact H1
    iexact H2

/-- The library's body obligation, at every block. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first block. -/
theorem hin1 (c : Dev nD) : Pipeline.ΦA spec1 c ⊢ (dat1 V c).Φ 0 := by
  rw [show (dat1 V c).Φ 0 = Phi1 V c 0 (Nat.zero_le _) from rfl, Phi1_zero V c 0 _ rfl]
  try exact Idealize.SL.BI.Entails.refl _

/-- After the last block the invariant gives the class's back: the cell's named contents are forgotten. -/
theorem hout1 (c : Dev nD) : (dat1 V c).Φ (Fin.last cfg1.N) ⊢ Pipeline.ΦA spec1 c := by
  have hN : (Fin.last cfg1.N).val ≠ 0 := by rw [Fin.val_last]; have : cfg1.N = 512 := N_1; omega
  rw [show (dat1 V c).Φ (Fin.last cfg1.N) = Phi1 V c (Fin.last cfg1.N).val (Nat.le_of_lt_succ (Fin.last cfg1.N).isLt) from rfl,
    Phi1_pos V c _ _ hN]
  iintro ⟨HS, Hr, Hg⟩
  iapply (PhiA1_out (F := F) c)
  isplitl [HS]; · iexists _; iexact HS
  isplitl [Hr]; · iexact Hr
  iexact Hg

end Cert.Kernel.Hand

end
-- ==== Proof.K.Segs.lean ====
/-
  The two regions as segments of @main: each region entered from every unscoped buffer at the contents the item before
  left, and left at those contents with the region's result array at what the pipeline computes — the running sum after
  the last block. The region's arrays are split out of the unscoped buffers on entry and put back on exit; the generator
  register goes into the region's invariant and comes back; nothing is owed; the kernels have no semaphore of their own.
-/
import proofs.«401785_j35828617183237_2_alg».proof.Proof.K.Oblig0
import proofs.«401785_j35828617183237_2_alg».proof.Proof.K.Oblig1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- No core owes another anything: no level is assigned. -/
abbrev LL : GSem nD τ sig → Finset Unit := fun _ => ∅
abbrev lvl : GSem nD τ sig → Unit → ℕ := fun _ _ => 0
/-- What rides beside the buffers through every item: the generator register at some state and the core owing nothing. -/
abbrev Rr (c : Dev nD) : sProp 𝕄 := iprop((∃ r, prngReg c r) ∗ ∃ W, owes (c : Thread nD τ) (0 : CellTallies nD τ sig Unit) W)

/-! ## What each region leaves in the unscoped buffers -/

theorem exit0_arr (c : Dev nD) (w : Fin cfg0.W) :
    exit0 m c (Proc.devRef .tc (Pipeline.arrRef spec0 w)) = (dat0 (Vin0 m) c).arrAt w cfg0.N := by
  unfold exit0; exact Pipeline.withArrays_arr spec0 launch0.win.arr_inj c _ _ w
theorem exit1_arr (c : Dev nD) (w : Fin cfg1.W) :
    exit1 m c (Proc.devRef .tc (Pipeline.arrRef spec1 w)) = (dat1 (Vin1 m) c).arrAt w cfg1.N := by
  unfold exit1; exact Pipeline.withArrays_arr spec1 launch1.win.arr_inj c _ _ w

/-- After the first region every array of its pipeline holds what the pipeline computes: the inputs as found, the result
    at the named contents. -/
theorem hF0 (c : Dev nD) (w : Fin cfg0.W) :
    (dat0 (Vin0 m) c).arrAt w cfg0.N = V5 m (outsS m) c (Pipeline.arrRef spec0 w) := by
  match w with
  | ⟨0, _⟩ => exact ((dat0 (Vin0 m) c).arrAt_in 0 rfl _).trans ((A_eq0 (Vin0 m) c 0).trans (V5_of m (outsS m) c main_arg0 (by decide)).symm)
  | ⟨1, _⟩ => exact ((dat0 (Vin0 m) c).arrAt_in 1 rfl _).trans ((A_eq0 (Vin0 m) c 1).trans (V5_of m (outsS m) c main_v4 (by decide)).symm)
  | ⟨2, _⟩ =>
    show _ = Function.update (V4 m c) (Proc.devRef .tc main_v5) (outsS m 5 main_v5 c) (Proc.devRef .tc main_v5)
    rw [Function.update_self]
    exact (exit0_arr m c 2).symm
theorem hrest0 (c : Dev nD) : ∀ b, b ∉ Finset.univ.image (Pipeline.arrRef spec0) → (V5 m (outsS m) c b) = Vin0 m c b :=
  fun b hb => V5_of m (outsS m) c b (fun h => hb (Finset.mem_image.mpr ⟨2, Finset.mem_univ _, (List.mem_singleton.mp h).symm⟩))

/-- The second region's entry contents do not depend on which of the two descriptions of the first result is used. -/
theorem V6_outs (c : Dev nD) : V6 m (outsS m) c = V6 m (outsA m) c := rfl

theorem hF1 (c : Dev nD) (w : Fin cfg1.W) :
    (dat1 (Vin1 m) c).arrAt w cfg1.N = V7 m (outsS m) c (Pipeline.arrRef spec1 w) := by
  match w with
  | ⟨0, _⟩ => exact ((dat1 (Vin1 m) c).arrAt_in 0 rfl _).trans ((A_eq1 (Vin1 m) c 0).trans (V7_of m (outsS m) c main_v2 (by decide)).symm)
  | ⟨1, _⟩ => exact ((dat1 (Vin1 m) c).arrAt_in 1 rfl _).trans ((A_eq1 (Vin1 m) c 1).trans (V7_of m (outsS m) c main_v3 (by decide)).symm)
  | ⟨2, _⟩ =>
    show _ = Function.update (V6 m (outsS m) c) (Proc.devRef .tc main_v7) (outsS m 7 main_v7 c) (Proc.devRef .tc main_v7)
    rw [Function.update_self]
    exact (exit1_arr m c 2).symm
theorem hrest1 (c : Dev nD) : ∀ b, b ∉ Finset.univ.image (Pipeline.arrRef spec1) → (V7 m (outsS m) c b) = Vin1 m c b :=
  fun b hb => V7_of m (outsS m) c b (fun h => hb (Finset.mem_image.mpr ⟨2, Finset.mem_univ _, (List.mem_singleton.mp h).symm⟩))

/-! ## The regions as segments -/

-- `iapply` of a library lemma stated over `pin pcs a p` unifies with the pinned configuration only when unification may
-- unfold plain definitions in a metavariable's type
set_option backward.isDefEq.respectTransparency.types false in
/-- REGION 0 over the thread state: entered from every unscoped buffer at the contents before it, left with its result array
    at the running sum after the last block and every other buffer as found. -/
def reg0 : Pipeline.RegionSeg (pcfgs (F := F)) adm (pdats m) () defs₀ Variants.none LL lvl 0 where
  win := launch0.win.to₀
  block_pos := launch0.block_pos
  stage_whole := launch0.stage_whole
  K := PEmpty
  osem k := k.elim
  ho := Pipeline.OwnSemFacts.none _
  hbody c := (body_obligation0 (Vin0 m) c).loose
  hwaits := Pipeline.hwaits_of_owed_zero _ _ _ _ LL lvl 0 fun _ _ => rfl
  pre c := iprop(StableHlo.held (c : Thread nD τ) (Pipeline.ucRefs τ sig) (V4 m c) ∗ Rr c)
  post c := iprop(StableHlo.held (c : Thread nD τ) (Pipeline.ucRefs τ sig) (V5 m (outsS m) c) ∗ Rr c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from hout0 (Vin0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vin0 m c) (fun b => V5 m (outsS m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 over the thread state: entered from every unscoped buffer at the contents before it, left with its result array
    at the running sum after the last block and every other buffer as found. -/
def reg1 : Pipeline.RegionSeg (pcfgs (F := F)) adm (pdats m) () defs₀ Variants.none LL lvl 1 where
  win := launch1.win.to₀
  block_pos := launch1.block_pos
  stage_whole := launch1.stage_whole
  K := PEmpty
  osem k := k.elim
  ho := Pipeline.OwnSemFacts.none _
  hbody c := (body_obligation1 (Vin1 m) c).loose
  hwaits := Pipeline.hwaits_of_owed_zero _ _ _ _ LL lvl 1 fun _ _ => rfl
  pre c := iprop(StableHlo.held (c : Thread nD τ) (Pipeline.ucRefs τ sig) (V6 m (outsA m) c) ∗ Rr c)
  post c := iprop(StableHlo.held (c : Thread nD τ) (Pipeline.ucRefs τ sig) (V7 m (outsS m) c) ∗ Rr c)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vin1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from hout1 (Vin1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vin1 m c) (fun b => V7 m (outsS m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Run.lean ====
/-
  The tiled program's run with its result named: from any memory with zero counters every weakly fair execution of @main
  terminates, the result buffer holds `result m c` — the fold through @main's items with each region's result array at the
  running sum after its last block — and every argument is as launched. The frame is this run with the result dropped.
-/
import proofs.«401785_j35828617183237_2_alg».proof.Proof.K.Segs
import proofs.«401785_j35828617183237_2_alg».proof.Proof.K.RunCond

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_named : θ_run defs (onTc (τ := τ) (main (F := F))) ⟨m, fun _ => 0, ρ⟩ (fun r => ∀ c : Dev nD,
      r.2.mem ((c.tc : Thread nD τ).loc main_v13) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Cert.Kernel.GenP.run_cond (F := F) m (Ix := Unit) (U := UR sig nD τ) (Lvl := ℕ) emb₁ () Variants.none LL lvl (fun _ _ => rfl) ρ (outsS m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ => Rr (F := F))
    (hE0 := Pipeline.initEach LL lvl fun c => by
      iintro ⟨⟨-, HO, -, Hp, -⟩, -⟩
      imodintro
      isplitl [Hp]; · iexists _; iexact Hp
      iexists ∅; iexact HO)
    (hE2 := fun c => by
      iintro ⟨-, HO⟩
      iexact HO)
    (R0 := reg0 m) (hpre0 := fun c => .rfl) (hpost0 := fun c => .rfl)
    (R1 := reg1 m) (hpre1 := fun c => .rfl) (hpost1 := fun c => .rfl)

/-- The frame: the run with the result dropped. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_named m ρ)

end Cert.Kernel.Hand

end
-- ==== Proof.KI.Data.lean ====
/-
  The two tiled sums as data of their pipelines.

  Each region walks 512 blocks of 8192 rows. At block `t` the body adds the block's sum to a 1×1 scratch cell (cleared
  at the first block) and copies the cell to the 1×1 output buffer, which is written back once, after the last block. So the cell after
  block `t` is `acc t`: `acc 0 = pay (block 0) zero`, `acc (t+1) = pay (block (t+1)) (acc t)`, where `pay` is the
  body's one stored value as a function of the blocks it loads and of the cell it reads.

  Stated for any float instance: at the word instance this carries the frame, at the exact one also the value.
-/
import proofs.«401785_j35828617183237_2_alg».proof.Proof.Gen.KernelIdeal.Launch
import proofs.«401785_j35828617183237_2_alg».proof.Proof.Gen.KernelIdeal.Skeleton
import proofs.«401785_j35828617183237_2_alg».proof.Proof.Gen.KernelIdeal.Points
import proofs.«401785_j35828617183237_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A core's buffers read at the TensorCore's references. -/
abbrev Bufs (F : FTy → Type) [FloatOps F] : Type :=
  (c : Dev nD) → (b : Ref sig .tc) → Buf (Elt F) ((c : Thread nD τ).loc b)

section Region0

variable (V : Bufs F)

/-- Window `w`'s block at point `t` of the first sum, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The scratch cell (and the output buffer) after block `n` of the first sum. -/
def acc0 (c : Dev nD) : (n : ℕ) → n < cfg0.N → Vec F S1x1 .f32
  | 0, h => k0_pay2 (iblk0 V c 0 ⟨0, h⟩) (iblk0 V c 1 ⟨0, h⟩) (k0_pay1 (F := F))
  | n + 1, h => k0_pay2 (iblk0 V c 0 ⟨n + 1, h⟩) (iblk0 V c 1 ⟨n + 1, h⟩) (acc0 c n (Nat.lt_of_succ_lt h))

/-- The first sum's scratch cell. -/
abbrev sc0 : Memref sig .tc .vmem S1x1 .f32 := Memref.whole cc0_scratch0

/-- The scoped buffers the first region neither stages nor uses: the second region's staging buffers and scratch cell,
    each whole at some contents. -/
def others0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_scratch0), ((c : Thread nD τ).loc cc1_scratch0) ↦{fullShare} f))

/-- The region's invariant before block `n`: before the first block the scoped rest at anything; afterwards the scratch
    cell at what the block before left, the scoped buffers it does not use, and the generator register at some state. -/
def Phi0 (c : Dev nD) : (n : ℕ) → n ≤ cfg0.N → sProp 𝕄
  | 0, _ => Pipeline.ΦA spec0 c
  | n + 1, hn => iprop(owns (c : Thread nD τ) sc0 fullShare (acc0 V c n hn) ∗ others0 (F := F) c ∗ (∃ r, prngReg c r))

/-- The first sum's proof data: the arrays as the region finds them; after each block the inputs' buffers at their blocks
    and the output's at the running sum; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => acc0 V c t.val t.isLt
  Φ t := Phi0 V c t.val (Nat.le_of_lt_succ t.isLt)
  q _ := fullShare
  owed _ := 0

end Region0

section Region1

variable (V : Bufs F)

/-- Window `w`'s block at point `t` of the second sum, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scratch cell (and the output buffer) after block `n` of the second sum. -/
def acc1 (c : Dev nD) : (n : ℕ) → n < cfg1.N → Vec F S1x1 .f32
  | 0, h => k1_pay2 (grid1.coords ⟨0, h⟩) (iblk1 V c 0 ⟨0, h⟩) (iblk1 V c 1 ⟨0, h⟩) (k1_pay1 (F := F))
  | n + 1, h => k1_pay2 (grid1.coords ⟨n + 1, h⟩) (iblk1 V c 0 ⟨n + 1, h⟩) (iblk1 V c 1 ⟨n + 1, h⟩) (acc1 c n (Nat.lt_of_succ_lt h))

abbrev sc1 : Memref sig .tc .vmem S1x1 .f32 := Memref.whole cc1_scratch0

/-- The scoped buffers the second region neither stages nor uses: the first region's staging buffers and scratch cell. -/
def others1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_scratch0), ((c : Thread nD τ).loc cc0_scratch0) ↦{fullShare} f))

def Phi1 (c : Dev nD) : (n : ℕ) → n ≤ cfg1.N → sProp 𝕄
  | 0, _ => Pipeline.ΦA spec1 c
  | n + 1, hn => iprop(owns (c : Thread nD τ) sc1 fullShare (acc1 V c n hn) ∗ others1 (F := F) c ∗ (∃ r, prngReg c r))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ t := Phi1 V c t.val (Nat.le_of_lt_succ t.isLt)
  q _ := fullShare
  owed _ := 0

end Region1

/-! ## The buffers between @main's items, with the regions' results named -/

variable (m : (ℓ : Loc nD τ sig) → Buf (Elt F) ℓ)

/-- What the first region finds. -/
abbrev Vin0 : Bufs F := fun c b => V4 m c b
/-- What the first region leaves: its arrays at what the pipeline computes, every other buffer as found. -/
def exit0 (c : Dev nD) : Valuation τ sig (Elt F) :=
  Pipeline.withArrays spec0 c (V4 m c) fun w => (dat0 (Vin0 m) c).arrAt w cfg0.N
/-- The regions' results, first approximation: the first region's. -/
def outsA : Outs (F := F) := fun _ r c => exit0 m c (Proc.devRef .tc r)
/-- What the second region finds. -/
abbrev Vin1 : Bufs F := fun c b => V6 m (outsA m) c b
def exit1 (c : Dev nD) : Valuation τ sig (Elt F) :=
  Pipeline.withArrays spec1 c (V6 m (outsA m) c) fun w => (dat1 (Vin1 m) c).arrAt w cfg1.N
/-- The regions' results: item 7's is the second region's, item 5's the first's. -/
def outsS : Outs (F := F) := fun n r c => match n with
  | 7 => exit1 m c (Proc.devRef .tc r)
  | _ => exit0 m c (Proc.devRef .tc r)

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (Vin0 m) c
  | ⟨1, _⟩ => fun c => dat1 (Vin1 m) c

/-- The program's result buffer at the end of @main, as the fold through its items computes it. -/
abbrev result (c : Dev nD) : Buf (Elt F) ((c : Thread nD τ).loc main_v13) := V8 m (outsS m) c main_v13

end Cert.KernelIdeal.Hand

end
-- ==== Proof.KI.Pieces.lean ====
/-
  Stores through a whole buffer, read back: the last such store decides the contents, whatever came before.
-/
import Idealize.ShloMosaic.Lib.Pipeline.FrameBody
import Idealize.ShloMosaic.Lib.Pipeline.Value

noncomputable section

namespace Cert.KernelIdeal.Hand

open Idealize.ShloMosaic

variable {Val : EltTy → Type} [∀ e, Nonempty (Val e)] {S : Shape} {e : EltTy}

/-- A list of stores whose LAST store (the head) goes through the whole shape covers the shape. -/
theorem cover_head {off : Fin S.rank → ℕ} (h : off = fun _ => 0) (inb : ∀ a, off a + S.size a ≤ S.size a)
    (w : S.Idx → Val e) (L : List (View.Piece Val S e)) :
    ∀ y : S.Idx, ∃ p ∈ ((⟨Rect.unit off S.size inb, w⟩ : View.Piece Val S e) :: L), y ∈ p.1.set := fun y => by
  subst h
  exact ⟨_, List.mem_cons_self .., by show y ∈ (Rect.whole S).set; rw [Rect.set_whole]; exact Finset.mem_univ y⟩

/-- A load through the whole shape after such a list of stores reads the last store's payload. -/
theorem readCov_head {sig : RefSig} {κ : Kind} {sp : Space} (v : View sig κ sp S e) {off : Fin S.rank → ℕ}
    (h : off = fun _ => 0) (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (cover_head h inb w L), View.canon_cons_unit_zero h, View.ld_unit_zero h]

/-- The origin of a rank-2 buffer. -/
theorem hz2 : (![0, 0] : Fin 2 → ℕ) = fun _ => 0 := by funext a; fin_cases a <;> rfl

end Cert.KernelIdeal.Hand

end
-- ==== Proof.KI.Body0.lean ====
import proofs.«401785_j35828617183237_2_alg».proof.Proof.KI.Data
import proofs.«401785_j35828617183237_2_alg».proof.Proof.KI.Pieces

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The first sum's body -/

/-- The body clears the cell exactly when the grid coordinate is zero. -/
abbrev first0 (i : grid0.Coords) : Prop :=
  (Scalar.cmpi .ne (Scalar.extui (Scalar.cmpi .eq (BitVec.ofNat 32 (i 0).val) 0#32)) 0#32) = 1#1
theorem first0_iff : ∀ t : Fin cfg0.N, first0 (grid0.coords t) ↔ t.val = 0 :=
  (by decide +kernel : ∀ t : Fin grid0.N, first0 (grid0.coords t) ↔ t.val = 0)

set_option maxHeartbeats 2000000 in
/-- At the first block: whatever the cell and the output buffer held, the body leaves both at the block's sum over zero,
    and the two input buffers as they were. -/
theorem run0_first (c : Dev nD) (E : Set ℕ) (i : grid0.Coords) (hc : first0 i)
    (arg1 : Memref sig .tc .vmem S8192x2 .f32) (harg1 : arg1.IsWhole) (arg2 : Memref sig .tc .vmem S8192x1 .i32) (harg2 : arg2.IsWhole)
    (arg3 : Memref sig .tc .vmem S1x1 .f32) (harg3 : arg3.IsWhole) (arg4 : Memref sig .tc .vmem S1x1 .f32) (harg4 : arg4.IsWhole)
    (x : Vec F S8192x2 .f32) (y : Vec F S8192x1 .i32) (K : PUnit → sProp 𝕄) :
    iprop(owns (c : Thread nD τ) arg1 fullShare x ∗ owns (c : Thread nD τ) arg2 fullShare y
        ∗ (∃ d, owns (c : Thread nD τ) arg3 fullShare d) ∗ (∃ d, owns (c : Thread nD τ) arg4 fullShare d)
        ∗ (iprop(owns (c : Thread nD τ) arg1 fullShare x ∗ owns (c : Thread nD τ) arg2 fullShare y
            ∗ owns (c : Thread nD τ) arg3 fullShare (k0_pay2 x y (k0_pay1 (F := F)))
            ∗ owns (c : Thread nD τ) arg4 fullShare (k0_pay2 x y (k0_pay1 (F := F)))) -∗ K ⟨⟩))
      ⊢ wp frame (wpE (defs₀ (F := F)) Variants.none c none) E (cc0__bce_mse_kernel i arg1 harg1 arg2 harg2 arg3 harg3 arg4 harg4) K := by
  simp only [cc0__bce_mse_kernel_eq_skeleton]; unfold cc0__bce_mse_kernel_skel
  simp only [k0_part1_eq_skeleton]; unfold k0_part1_skel
  unfold owns
  iintro ⟨⟨%f1, %hf1, H1⟩, ⟨%f2, %hf2, H2⟩, ⟨%d3, %f3, -, H3⟩, ⟨%d4, %f4, -, H4⟩, Hk⟩
  obtain rfl := harg1.eq_unread hf1; obtain rfl := harg2.eq_unread hf2
  sl_exec (disch := first | exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr
    swap; · iexact H3
    ipureintro
    rw [View.read_writes_eq_canon _ _ _ (View.cover_of_tiled _ S1x1.size (by rfl))]
    sl_unfold_words
    rw [View.canon_unit_zero hz2, readCov_head _ hz2]
    simp only [View.readAt_eq_ld, harg1.read_unread, harg2.read_unread, View.ld_unit_zero (S := S8192x2) hz2, View.ld_unit_zero (S := S8192x1) hz2, View.ld_unit_zero (S := S1x1) hz2, View.readCov_unit_zero (S := S1x1) _ hz2]
  iexists _; isplitr
  swap; · iexact H4
  ipureintro
  sl_unfold_words
  rw [View.read_writes_eq_canon _ _ _ (cover_head hz2 _ _ _), View.canon_cons_unit_zero hz2]
  simp only [View.readAt_eq_ld, harg1.read_unread, harg2.read_unread, View.ld_unit_zero (S := S8192x2) hz2, View.ld_unit_zero (S := S8192x1) hz2, View.ld_unit_zero (S := S1x1) hz2, View.readCov_unit_zero (S := S1x1) _ hz2]

set_option maxHeartbeats 2000000 in
/-- At a later block: the cell holds `prev`; the body leaves the cell and the output buffer at the block's sum over `prev`. -/
theorem run0_next (c : Dev nD) (E : Set ℕ) (i : grid0.Coords) (hc : ¬first0 i)
    (arg1 : Memref sig .tc .vmem S8192x2 .f32) (harg1 : arg1.IsWhole) (arg2 : Memref sig .tc .vmem S8192x1 .i32) (harg2 : arg2.IsWhole)
    (arg3 : Memref sig .tc .vmem S1x1 .f32) (harg3 : arg3.IsWhole) (arg4 : Memref sig .tc .vmem S1x1 .f32) (harg4 : arg4.IsWhole)
    (x : Vec F S8192x2 .f32) (y : Vec F S8192x1 .i32) (prev : Vec F S1x1 .f32) (K : PUnit → sProp 𝕄) :
    iprop(owns (c : Thread nD τ) arg1 fullShare x ∗ owns (c : Thread nD τ) arg2 fullShare y
        ∗ (∃ d, owns (c : Thread nD τ) arg3 fullShare d) ∗ owns (c : Thread nD τ) arg4 fullShare prev
        ∗ (iprop(owns (c : Thread nD τ) arg1 fullShare x ∗ owns (c : Thread nD τ) arg2 fullShare y
            ∗ owns (c : Thread nD τ) arg3 fullShare (k0_pay2 x y prev)
            ∗ owns (c : Thread nD τ) arg4 fullShare (k0_pay2 x y prev)) -∗ K ⟨⟩))
      ⊢ wp frame (wpE (defs₀ (F := F)) Variants.none c none) E (cc0__bce_mse_kernel i arg1 harg1 arg2 harg2 arg3 harg3 arg4 harg4) K := by
  simp only [cc0__bce_mse_kernel_eq_skeleton]; unfold cc0__bce_mse_kernel_skel
  simp only [k0_part1_eq_skeleton]; unfold k0_part1_skel
  unfold owns
  iintro ⟨⟨%f1, %hf1, H1⟩, ⟨%f2, %hf2, H2⟩, ⟨%d3, %f3, -, H3⟩, ⟨%f4, %hf4, H4⟩, Hk⟩
  obtain rfl := harg1.eq_unread hf1; obtain rfl := harg2.eq_unread hf2; obtain rfl := harg4.eq_unread hf4
  sl_exec (disch := first | exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr
    swap; · iexact H3
    ipureintro
    rw [View.read_writes_eq_canon _ _ _ (View.cover_of_tiled _ S1x1.size (by rfl))]
    sl_unfold_words
    rw [View.canon_unit_zero hz2, View.readCov_unit_zero _ hz2]
    simp only [View.readAt_eq_ld, harg1.read_unread, harg2.read_unread, harg4.read_unread, View.ld_unit_zero (S := S8192x2) hz2, View.ld_unit_zero (S := S8192x1) hz2, View.ld_unit_zero (S := S1x1) hz2]
  iexists _; isplitr
  swap; · iexact H4
  ipureintro
  sl_unfold_words
  rw [View.read_writes_eq_canon _ _ _ (cover_head hz2 _ _ _), View.canon_unit_zero hz2]
  simp only [View.readAt_eq_ld, harg1.read_unread, harg2.read_unread, harg4.read_unread, View.ld_unit_zero (S := S8192x2) hz2, View.ld_unit_zero (S := S8192x1) hz2, View.ld_unit_zero (S := S1x1) hz2]

end Cert.KernelIdeal.Hand

end
-- ==== Proof.KI.Scoped.lean ====
/-
  Each region's scoped buffers, sorted: the region's own scratch cell, the scoped buffers it neither stages nor uses
  (the other region's), and the generator register — what the class's invariant holds, in the order the running
  invariant names them.
-/
import proofs.«401785_j35828617183237_2_alg».proof.Proof.KI.Data

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The first region: the cell comes first among its scoped buffers. -/
theorem PhiA0_in (c : Dev nD) :
    (Pipeline.ΦA spec0 c : sProp 𝕄)
      ⊢ iprop((∃ d, owns (c : Thread nD τ) sc0 fullShare d) ∗ others0 (F := F) c ∗ (∃ r, prngReg c r)) := by
  unfold Pipeline.ΦA; rw [scopedRest0_eq]; unfold others0; simp only [sc0, owns_whole]
  iintro ⟨⟨HS, Hr⟩, Hg⟩
  isplitl [HS]; · iexact HS
  isplitl [Hr]; · iexact Hr
  iexact Hg

theorem PhiA0_out (c : Dev nD) :
    iprop((∃ d, owns (c : Thread nD τ) sc0 fullShare d) ∗ others0 (F := F) c ∗ (∃ r, prngReg c r))
      ⊢ (Pipeline.ΦA spec0 c : sProp 𝕄) := by
  unfold Pipeline.ΦA; rw [scopedRest0_eq]; unfold others0; simp only [sc0, owns_whole]
  iintro ⟨HS, Hr, Hg⟩
  isplitl [HS Hr]
  · isplitl [HS]; · iexact HS
    iexact Hr
  iexact Hg

/-- The second region: the cell comes last among its scoped buffers. -/
theorem PhiA1_in (c : Dev nD) :
    (Pipeline.ΦA spec1 c : sProp 𝕄)
      ⊢ iprop((∃ d, owns (c : Thread nD τ) sc1 fullShare d) ∗ others1 (F := F) c ∗ (∃ r, prngReg c r)) := by
  unfold Pipeline.ΦA; rw [scopedRest1_eq]; unfold others1; simp only [sc1, owns_whole]
  iintro ⟨⟨H1, H2, H3, H4, H5, H6, HS⟩, Hg⟩
  isplitl [HS]; · iexact HS
  isplitl [H1 H2 H3 H4 H5 H6]
  · isplitl [H1]; · iexact H1
    isplitl [H2]; · iexact H2
    isplitl [H3]; · iexact H3
    isplitl [H4]; · iexact H4
    isplitl [H5]; · iexact H5
    iexact H6
  iexact Hg

theorem PhiA1_out (c : Dev nD) :
    iprop((∃ d, owns (c : Thread nD τ) sc1 fullShare d) ∗ others1 (F := F) c ∗ (∃ r, prngReg c r))
      ⊢ (Pipeline.ΦA spec1 c : sProp 𝕄) := by
  unfold Pipeline.ΦA; rw [scopedRest1_eq]; unfold others1; simp only [sc1, owns_whole]
  iintro ⟨HS, ⟨H1, H2, H3, H4, H5, H6⟩, Hg⟩
  isplitl [HS H1 H2 H3 H4 H5 H6]
  · isplitl [H1]; · iexact H1
    isplitl [H2]; · iexact H2
    isplitl [H3]; · iexact H3
    isplitl [H4]; · iexact H4
    isplitl [H5]; · iexact H5
    isplitl [H6]; · iexact H6
    iexact HS
  iexact Hg

end Cert.KernelIdeal.Hand

end
-- ==== Proof.KI.Oblig0.lean ====
import proofs.«401785_j35828617183237_2_alg».proof.Proof.KI.Body0
import proofs.«401785_j35828617183237_2_alg».proof.Proof.KI.Scoped

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Bufs F)

/-! ## The first sum's proof data, projected -/

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = acc0 V c t.val t.isLt := by dsimp only [dat0]

/-- Each input's current staging buffer holds its block at every point: it is fetched at every point. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

/-! ## The invariant's three forms -/

theorem Phi0_zero (c : Dev nD) (n : ℕ) (h : n ≤ cfg0.N) (hz : n = 0) : Phi0 V c n h = Pipeline.ΦA spec0 c := by
  subst hz; rfl
theorem Phi0_succ (c : Dev nD) (n : ℕ) (hn : n < cfg0.N) :
    Phi0 V c (n + 1) hn = iprop(owns (c : Thread nD τ) sc0 fullShare (acc0 V c n hn) ∗ others0 (F := F) c ∗ (∃ r, prngReg c r)) := rfl
theorem Phi0_pos (c : Dev nD) (n : ℕ) (h : n ≤ cfg0.N) (hz : n ≠ 0) :
    Phi0 V c n h = iprop(owns (c : Thread nD τ) sc0 fullShare (acc0 V c (n - 1) (by omega)) ∗ others0 (F := F) c ∗ (∃ r, prngReg c r)) := by
  cases n with
  | zero => exact absurd rfl hz
  | succ n => rfl
theorem Phi0_castSucc (c : Dev nD) (t : Fin cfg0.N) :
    (dat0 V c).Φ t.castSucc = Phi0 V c t.val (Nat.le_of_lt t.isLt) := by
  dsimp only [dat0]; simp only [Fin.coe_castSucc]

/-- The running sum one block on. -/
theorem acc0_zero (c : Dev nD) (t : Fin cfg0.N) (hz : t.val = 0) :
    acc0 V c t.val t.isLt = k0_pay2 (iblk0 V c 0 t) (iblk0 V c 1 t) (k0_pay1 (F := F)) := by
  obtain ⟨n, hn⟩ := t
  cases n with
  | zero => rfl
  | succ n => exact absurd hz (Nat.succ_ne_zero n)
theorem acc0_pos (c : Dev nD) (t : Fin cfg0.N) (hz : t.val ≠ 0) :
    acc0 V c t.val t.isLt = k0_pay2 (iblk0 V c 0 t) (iblk0 V c 1 t) (acc0 V c (t.val - 1) (Nat.lt_of_le_of_lt (Nat.sub_le _ _) t.isLt)) := by
  obtain ⟨n, hn⟩ := t
  cases n with
  | zero => exact absurd rfl hz
  | succ n => rfl

/-! ## The body obligation -/

/-- What the body is called with at block `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

set_option maxHeartbeats 2000000 in
/-- The body at any block: the inputs' buffers hold their blocks; at the first block the cell is handed over at anything
    and comes back at the block's sum over zero, at a later block it is handed over at the running sum and comes back one
    block on; the output buffer comes back at the same value; the unused scoped buffers, the generator register and the
    core's dues pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl,
    show (dat0 V c).Φ t.succ = Phi0 V c (t.val + 1) t.isLt from rfl, Phi0_succ, after0_0, after0_1, after0_2]
  by_cases hz : t.val = 0
  · rw [Phi0_castSucc V c t, Phi0_zero V c _ _ hz, acc0_zero V c t hz]
    iintro ⟨HP, Ho, ⟨%d0, H0⟩, ⟨%d1, H1⟩, ⟨%d2, H2⟩⟩
    ihave HQ := (PhiA0_in (F := F) c) $$ HP
    icases HQ with ⟨HS, Hr, Hg⟩
    iapply (run0_first c Set.univ (grid0.coords t) ((first0_iff t).mpr hz) _ _ _ _ _ _ _ _ (iblk0 V c 0 t) (iblk0 V c 1 t) _)
    isplitl [H0]; · iexact H0
    isplitl [H1]; · iexact H1
    isplitl [H2]; · iexists _; iexact H2
    isplitl [HS]; · iexact HS
    iintro ⟨H0, H1, H2, HS⟩
    isplitl [HS Hr Hg]
    · isplitl [HS]; · iexact HS
      isplitl [Hr]; · iexact Hr
      iexact Hg
    isplitl [Ho]; · iexact Ho
    isplitl [H0]; · iexact H0
    isplitl [H1]; · iexact H1
    iexact H2
  · rw [Phi0_castSucc V c t, Phi0_pos V c _ _ hz, acc0_pos V c t hz]
    iintro ⟨⟨HS, Hr, Hg⟩, Ho, ⟨%d0, H0⟩, ⟨%d1, H1⟩, ⟨%d2, H2⟩⟩
    iapply (run0_next c Set.univ (grid0.coords t) (fun h => hz ((first0_iff t).mp h)) _ _ _ _ _ _ _ _ (iblk0 V c 0 t) (iblk0 V c 1 t) _ _)
    isplitl [H0]; · iexact H0
    isplitl [H1]; · iexact H1
    isplitl [H2]; · iexists _; iexact H2
    isplitl [HS]; · iexact HS
    iintro ⟨H0, H1, H2, HS⟩
    isplitl [HS Hr Hg]
    · isplitl [HS]; · iexact HS
      isplitl [Hr]; · iexact Hr
      iexact Hg
    isplitl [Ho]; · iexact Ho
    isplitl [H0]; · iexact H0
    isplitl [H1]; · iexact H1
    iexact H2

/-- The library's body obligation, at every block. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first block. -/
theorem hin0 (c : Dev nD) : Pipeline.ΦA spec0 c ⊢ (dat0 V c).Φ 0 := by
  rw [show (dat0 V c).Φ 0 = Phi0 V c 0 (Nat.zero_le _) from rfl, Phi0_zero V c 0 _ rfl]
  try exact Idealize.SL.BI.Entails.refl _

/-- After the last block the invariant gives the class's back: the cell's named contents are forgotten. -/
theorem hout0 (c : Dev nD) : (dat0 V c).Φ (Fin.last cfg0.N) ⊢ Pipeline.ΦA spec0 c := by
  have hN : (Fin.last cfg0.N).val ≠ 0 := by rw [Fin.val_last]; have : cfg0.N = 512 := N_0; omega
  rw [show (dat0 V c).Φ (Fin.last cfg0.N) = Phi0 V c (Fin.last cfg0.N).val (Nat.le_of_lt_succ (Fin.last cfg0.N).isLt) from rfl,
    Phi0_pos V c _ _ hN]
  iintro ⟨HS, Hr, Hg⟩
  iapply (PhiA0_out (F := F) c)
  isplitl [HS]; · iexists _; iexact HS
  isplitl [Hr]; · iexact Hr
  iexact Hg

end Cert.KernelIdeal.Hand

end
-- ==== Proof.KI.Body1.lean ====
import proofs.«401785_j35828617183237_2_alg».proof.Proof.KI.Data
import proofs.«401785_j35828617183237_2_alg».proof.Proof.KI.Pieces

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The second sum's body -/

/-- The body clears the cell exactly when the grid coordinate is zero. -/
abbrev first1 (i : grid1.Coords) : Prop :=
  (Scalar.cmpi .ne (Scalar.extui (Scalar.cmpi .eq (BitVec.ofNat 32 (i 0).val) 0#32)) 0#32) = 1#1
theorem first1_iff : ∀ t : Fin cfg1.N, first1 (grid1.coords t) ↔ t.val = 0 :=
  (by decide +kernel : ∀ t : Fin grid1.N, first1 (grid1.coords t) ↔ t.val = 0)

set_option maxHeartbeats 2000000 in
/-- At the first block: whatever the cell and the output buffer held, the body leaves both at the block's sum over zero,
    and the two input buffers as they were. -/
theorem run1_first (c : Dev nD) (E : Set ℕ) (i : grid1.Coords) (hc : first1 i)
    (arg1 : Memref sig .tc .vmem S8192x2 .f32) (harg1 : arg1.IsWhole) (arg2 : Memref sig .tc .vmem S8192x2 .f32) (harg2 : arg2.IsWhole)
    (arg3 : Memref sig .tc .vmem S1x1 .f32) (harg3 : arg3.IsWhole) (arg4 : Memref sig .tc .vmem S1x1 .f32) (harg4 : arg4.IsWhole)
    (x : Vec F S8192x2 .f32) (y : Vec F S8192x2 .f32) (K : PUnit → sProp 𝕄) :
    iprop(owns (c : Thread nD τ) arg1 fullShare x ∗ owns (c : Thread nD τ) arg2 fullShare y
        ∗ (∃ d, owns (c : Thread nD τ) arg3 fullShare d) ∗ (∃ d, owns (c : Thread nD τ) arg4 fullShare d)
        ∗ (iprop(owns (c : Thread nD τ) arg1 fullShare x ∗ owns (c : Thread nD τ) arg2 fullShare y
            ∗ owns (c : Thread nD τ) arg3 fullShare (k1_pay2 i x y (k1_pay1 (F := F)))
            ∗ owns (c : Thread nD τ) arg4 fullShare (k1_pay2 i x y (k1_pay1 (F := F)))) -∗ K ⟨⟩))
      ⊢ wp frame (wpE (defs₀ (F := F)) Variants.none c none) E (cc1__contrastive_kernel i arg1 harg1 arg2 harg2 arg3 harg3 arg4 harg4) K := by
  simp only [cc1__contrastive_kernel_eq_skeleton]; unfold cc1__contrastive_kernel_skel
  unfold owns
  iintro ⟨⟨%f1, %hf1, H1⟩, ⟨%f2, %hf2, H2⟩, ⟨%d3, %f3, -, H3⟩, ⟨%d4, %f4, -, H4⟩, Hk⟩
  obtain rfl := harg1.eq_unread hf1; obtain rfl := harg2.eq_unread hf2
  sl_exec (disch := first | exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr
    swap; · iexact H3
    ipureintro
    rw [View.read_writes_eq_canon _ _ _ (View.cover_of_tiled _ S1x1.size (by rfl))]
    sl_unfold_words
    rw [View.canon_unit_zero hz2, readCov_head _ hz2]
    simp only [View.readAt_eq_ld, harg1.read_unread, harg2.read_unread, View.ld_unit_zero (S := S8192x2) hz2, View.ld_unit_zero (S := S1x1) hz2, View.readCov_unit_zero (S := S1x1) _ hz2]
  iexists _; isplitr
  swap; · iexact H4
  ipureintro
  sl_unfold_words
  rw [View.read_writes_eq_canon _ _ _ (cover_head hz2 _ _ _), View.canon_cons_unit_zero hz2]
  simp only [View.readAt_eq_ld, harg1.read_unread, harg2.read_unread, View.ld_unit_zero (S := S8192x2) hz2, View.ld_unit_zero (S := S1x1) hz2, View.readCov_unit_zero (S := S1x1) _ hz2]

set_option maxHeartbeats 2000000 in
/-- At a later block: the cell holds `prev`; the body leaves the cell and the output buffer at the block's sum over `prev`. -/
theorem run1_next (c : Dev nD) (E : Set ℕ) (i : grid1.Coords) (hc : ¬first1 i)
    (arg1 : Memref sig .tc .vmem S8192x2 .f32) (harg1 : arg1.IsWhole) (arg2 : Memref sig .tc .vmem S8192x2 .f32) (harg2 : arg2.IsWhole)
    (arg3 : Memref sig .tc .vmem S1x1 .f32) (harg3 : arg3.IsWhole) (arg4 : Memref sig .tc .vmem S1x1 .f32) (harg4 : arg4.IsWhole)
    (x : Vec F S8192x2 .f32) (y : Vec F S8192x2 .f32) (prev : Vec F S1x1 .f32) (K : PUnit → sProp 𝕄) :
    iprop(owns (c : Thread nD τ) arg1 fullShare x ∗ owns (c : Thread nD τ) arg2 fullShare y
        ∗ (∃ d, owns (c : Thread nD τ) arg3 fullShare d) ∗ owns (c : Thread nD τ) arg4 fullShare prev
        ∗ (iprop(owns (c : Thread nD τ) arg1 fullShare x ∗ owns (c : Thread nD τ) arg2 fullShare y
            ∗ owns (c : Thread nD τ) arg3 fullShare (k1_pay2 i x y prev)
            ∗ owns (c : Thread nD τ) arg4 fullShare (k1_pay2 i x y prev)) -∗ K ⟨⟩))
      ⊢ wp frame (wpE (defs₀ (F := F)) Variants.none c none) E (cc1__contrastive_kernel i arg1 harg1 arg2 harg2 arg3 harg3 arg4 harg4) K := by
  simp only [cc1__contrastive_kernel_eq_skeleton]; unfold cc1__contrastive_kernel_skel
  unfold owns
  iintro ⟨⟨%f1, %hf1, H1⟩, ⟨%f2, %hf2, H2⟩, ⟨%d3, %f3, -, H3⟩, ⟨%f4, %hf4, H4⟩, Hk⟩
  obtain rfl := harg1.eq_unread hf1; obtain rfl := harg2.eq_unread hf2; obtain rfl := harg4.eq_unread hf4
  sl_exec (disch := first | exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr
    swap; · iexact H3
    ipureintro
    rw [View.read_writes_eq_canon _ _ _ (View.cover_of_tiled _ S1x1.size (by rfl))]
    sl_unfold_words
    rw [View.canon_unit_zero hz2, View.readCov_unit_zero _ hz2]
    simp only [View.readAt_eq_ld, harg1.read_unread, harg2.read_unread, harg4.read_unread, View.ld_unit_zero (S := S8192x2) hz2, View.ld_unit_zero (S := S1x1) hz2]
  iexists _; isplitr
  swap; · iexact H4
  ipureintro
  sl_unfold_words
  rw [View.read_writes_eq_canon _ _ _ (cover_head hz2 _ _ _), View.canon_unit_zero hz2]
  simp only [View.readAt_eq_ld, harg1.read_unread, harg2.read_unread, harg4.read_unread, View.ld_unit_zero (S := S8192x2) hz2, View.ld_unit_zero (S := S1x1) hz2]

end Cert.KernelIdeal.Hand

end
-- ==== Proof.KI.Oblig1.lean ====
import proofs.«401785_j35828617183237_2_alg».proof.Proof.KI.Body1
import proofs.«401785_j35828617183237_2_alg».proof.Proof.KI.Scoped

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Bufs F)

/-! ## The second sum's proof data, projected -/

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = acc1 V c t.val t.isLt := by dsimp only [dat1]

/-- Each input's current staging buffer holds its block at every point: it is fetched at every point. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)

/-! ## The invariant's three forms -/

theorem Phi1_zero (c : Dev nD) (n : ℕ) (h : n ≤ cfg1.N) (hz : n = 0) : Phi1 V c n h = Pipeline.ΦA spec1 c := by
  subst hz; rfl
theorem Phi1_succ (c : Dev nD) (n : ℕ) (hn : n < cfg1.N) :
    Phi1 V c (n + 1) hn = iprop(owns (c : Thread nD τ) sc1 fullShare (acc1 V c n hn) ∗ others1 (F := F) c ∗ (∃ r, prngReg c r)) := rfl
theorem Phi1_pos (c : Dev nD) (n : ℕ) (h : n ≤ cfg1.N) (hz : n ≠ 0) :
    Phi1 V c n h = iprop(owns (c : Thread nD τ) sc1 fullShare (acc1 V c (n - 1) (by omega)) ∗ others1 (F := F) c ∗ (∃ r, prngReg c r)) := by
  cases n with
  | zero => exact absurd rfl hz
  | succ n => rfl
theorem Phi1_castSucc (c : Dev nD) (t : Fin cfg1.N) :
    (dat1 V c).Φ t.castSucc = Phi1 V c t.val (Nat.le_of_lt t.isLt) := by
  dsimp only [dat1]; simp only [Fin.coe_castSucc]

/-- The running sum one block on. -/
theorem acc1_zero (c : Dev nD) (t : Fin cfg1.N) (hz : t.val = 0) :
    acc1 V c t.val t.isLt = k1_pay2 (grid1.coords t) (iblk1 V c 0 t) (iblk1 V c 1 t) (k1_pay1 (F := F)) := by
  obtain ⟨n, hn⟩ := t
  cases n with
  | zero => rfl
  | succ n => exact absurd hz (Nat.succ_ne_zero n)
theorem acc1_pos (c : Dev nD) (t : Fin cfg1.N) (hz : t.val ≠ 0) :
    acc1 V c t.val t.isLt = k1_pay2 (grid1.coords t) (iblk1 V c 0 t) (iblk1 V c 1 t) (acc1 V c (t.val - 1) (Nat.lt_of_le_of_lt (Nat.sub_le _ _) t.isLt)) := by
  obtain ⟨n, hn⟩ := t
  cases n with
  | zero => exact absurd rfl hz
  | succ n => rfl

/-! ## The body obligation -/

/-- What the body is called with at block `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

set_option maxHeartbeats 2000000 in
/-- The body at any block: the inputs' buffers hold their blocks; at the first block the cell is handed over at anything
    and comes back at the block's sum over zero, at a later block it is handed over at the running sum and comes back one
    block on; the output buffer comes back at the same value; the unused scoped buffers, the generator register and the
    core's dues pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl,
    show (dat1 V c).Φ t.succ = Phi1 V c (t.val + 1) t.isLt from rfl, Phi1_succ, after1_0, after1_1, after1_2]
  by_cases hz : t.val = 0
  · rw [Phi1_castSucc V c t, Phi1_zero V c _ _ hz, acc1_zero V c t hz]
    iintro ⟨HP, Ho, ⟨%d0, H0⟩, ⟨%d1, H1⟩, ⟨%d2, H2⟩⟩
    ihave HQ := (PhiA1_in (F := F) c) $$ HP
    icases HQ with ⟨HS, Hr, Hg⟩
    iapply (run1_first c Set.univ (grid1.coords t) ((first1_iff t).mpr hz) _ _ _ _ _ _ _ _ (iblk1 V c 0 t) (iblk1 V c 1 t) _)
    isplitl [H0]; · iexact H0
    isplitl [H1]; · iexact H1
    isplitl [H2]; · iexists _; iexact H2
    isplitl [HS]; · iexact HS
    iintro ⟨H0, H1, H2, HS⟩
    isplitl [HS Hr Hg]
    · isplitl [HS]; · iexact HS
      isplitl [Hr]; · iexact Hr
      iexact Hg
    isplitl [Ho]; · iexact Ho
    isplitl [H0]; · iexact H0
    isplitl [H1]; · iexact H1
    iexact H2
  · rw [Phi1_castSucc V c t, Phi1_pos V c _ _ hz, acc1_pos V c t hz]
    iintro ⟨⟨HS, Hr, Hg⟩, Ho, ⟨%d0, H0⟩, ⟨%d1, H1⟩, ⟨%d2, H2⟩⟩
    iapply (run1_next c Set.univ (grid1.coords t) (fun h => hz ((first1_iff t).mp h)) _ _ _ _ _ _ _ _ (iblk1 V c 0 t) (iblk1 V c 1 t) _ _)
    isplitl [H0]; · iexact H0
    isplitl [H1]; · iexact H1
    isplitl [H2]; · iexists _; iexact H2
    isplitl [HS]; · iexact HS
    iintro ⟨H0, H1, H2, HS⟩
    isplitl [HS Hr Hg]
    · isplitl [HS]; · iexact HS
      isplitl [Hr]; · iexact Hr
      iexact Hg
    isplitl [Ho]; · iexact Ho
    isplitl [H0]; · iexact H0
    isplitl [H1]; · iexact H1
    iexact H2

/-- The library's body obligation, at every block. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first block. -/
theorem hin1 (c : Dev nD) : Pipeline.ΦA spec1 c ⊢ (dat1 V c).Φ 0 := by
  rw [show (dat1 V c).Φ 0 = Phi1 V c 0 (Nat.zero_le _) from rfl, Phi1_zero V c 0 _ rfl]
  try exact Idealize.SL.BI.Entails.refl _

/-- After the last block the invariant gives the class's back: the cell's named contents are forgotten. -/
theorem hout1 (c : Dev nD) : (dat1 V c).Φ (Fin.last cfg1.N) ⊢ Pipeline.ΦA spec1 c := by
  have hN : (Fin.last cfg1.N).val ≠ 0 := by rw [Fin.val_last]; have : cfg1.N = 512 := N_1; omega
  rw [show (dat1 V c).Φ (Fin.last cfg1.N) = Phi1 V c (Fin.last cfg1.N).val (Nat.le_of_lt_succ (Fin.last cfg1.N).isLt) from rfl,
    Phi1_pos V c _ _ hN]
  iintro ⟨HS, Hr, Hg⟩
  iapply (PhiA1_out (F := F) c)
  isplitl [HS]; · iexists _; iexact HS
  isplitl [Hr]; · iexact Hr
  iexact Hg

end Cert.KernelIdeal.Hand

end
-- ==== Proof.KI.Segs.lean ====
/-
  The two regions as segments of @main: each region entered from every unscoped buffer at the contents the item before
  left, and left at those contents with the region's result array at what the pipeline computes — the running sum after
  the last block. The region's arrays are split out of the unscoped buffers on entry and put back on exit; the generator
  register goes into the region's invariant and comes back; nothing is owed; the kernels have no semaphore of their own.
-/
import proofs.«401785_j35828617183237_2_alg».proof.Proof.KI.Oblig0
import proofs.«401785_j35828617183237_2_alg».proof.Proof.KI.Oblig1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- No core owes another anything: no level is assigned. -/
abbrev LL : GSem nD τ sig → Finset Unit := fun _ => ∅
abbrev lvl : GSem nD τ sig → Unit → ℕ := fun _ _ => 0
/-- What rides beside the buffers through every item: the generator register at some state and the core owing nothing. -/
abbrev Rr (c : Dev nD) : sProp 𝕄 := iprop((∃ r, prngReg c r) ∗ ∃ W, owes (c : Thread nD τ) (0 : CellTallies nD τ sig Unit) W)

/-! ## What each region leaves in the unscoped buffers -/

theorem exit0_arr (c : Dev nD) (w : Fin cfg0.W) :
    exit0 m c (Proc.devRef .tc (Pipeline.arrRef spec0 w)) = (dat0 (Vin0 m) c).arrAt w cfg0.N := by
  unfold exit0; exact Pipeline.withArrays_arr spec0 launch0.win.arr_inj c _ _ w
theorem exit1_arr (c : Dev nD) (w : Fin cfg1.W) :
    exit1 m c (Proc.devRef .tc (Pipeline.arrRef spec1 w)) = (dat1 (Vin1 m) c).arrAt w cfg1.N := by
  unfold exit1; exact Pipeline.withArrays_arr spec1 launch1.win.arr_inj c _ _ w

/-- After the first region every array of its pipeline holds what the pipeline computes: the inputs as found, the result
    at the named contents. -/
theorem hF0 (c : Dev nD) (w : Fin cfg0.W) :
    (dat0 (Vin0 m) c).arrAt w cfg0.N = V5 m (outsS m) c (Pipeline.arrRef spec0 w) := by
  match w with
  | ⟨0, _⟩ => exact ((dat0 (Vin0 m) c).arrAt_in 0 rfl _).trans ((A_eq0 (Vin0 m) c 0).trans (V5_of m (outsS m) c main_arg0 (by decide)).symm)
  | ⟨1, _⟩ => exact ((dat0 (Vin0 m) c).arrAt_in 1 rfl _).trans ((A_eq0 (Vin0 m) c 1).trans (V5_of m (outsS m) c main_v4 (by decide)).symm)
  | ⟨2, _⟩ =>
    show _ = Function.update (V4 m c) (Proc.devRef .tc main_v5) (outsS m 5 main_v5 c) (Proc.devRef .tc main_v5)
    rw [Function.update_self]
    exact (exit0_arr m c 2).symm
theorem hrest0 (c : Dev nD) : ∀ b, b ∉ Finset.univ.image (Pipeline.arrRef spec0) → (V5 m (outsS m) c b) = Vin0 m c b :=
  fun b hb => V5_of m (outsS m) c b (fun h => hb (Finset.mem_image.mpr ⟨2, Finset.mem_univ _, (List.mem_singleton.mp h).symm⟩))

/-- The second region's entry contents do not depend on which of the two descriptions of the first result is used. -/
theorem V6_outs (c : Dev nD) : V6 m (outsS m) c = V6 m (outsA m) c := rfl

theorem hF1 (c : Dev nD) (w : Fin cfg1.W) :
    (dat1 (Vin1 m) c).arrAt w cfg1.N = V7 m (outsS m) c (Pipeline.arrRef spec1 w) := by
  match w with
  | ⟨0, _⟩ => exact ((dat1 (Vin1 m) c).arrAt_in 0 rfl _).trans ((A_eq1 (Vin1 m) c 0).trans (V7_of m (outsS m) c main_v2 (by decide)).symm)
  | ⟨1, _⟩ => exact ((dat1 (Vin1 m) c).arrAt_in 1 rfl _).trans ((A_eq1 (Vin1 m) c 1).trans (V7_of m (outsS m) c main_v3 (by decide)).symm)
  | ⟨2, _⟩ =>
    show _ = Function.update (V6 m (outsS m) c) (Proc.devRef .tc main_v7) (outsS m 7 main_v7 c) (Proc.devRef .tc main_v7)
    rw [Function.update_self]
    exact (exit1_arr m c 2).symm
theorem hrest1 (c : Dev nD) : ∀ b, b ∉ Finset.univ.image (Pipeline.arrRef spec1) → (V7 m (outsS m) c b) = Vin1 m c b :=
  fun b hb => V7_of m (outsS m) c b (fun h => hb (Finset.mem_image.mpr ⟨2, Finset.mem_univ _, (List.mem_singleton.mp h).symm⟩))

/-! ## The regions as segments -/

-- `iapply` of a library lemma stated over `pin pcs a p` unifies with the pinned configuration only when unification may
-- unfold plain definitions in a metavariable's type
set_option backward.isDefEq.respectTransparency.types false in
/-- REGION 0 over the thread state: entered from every unscoped buffer at the contents before it, left with its result array
    at the running sum after the last block and every other buffer as found. -/
def reg0 : Pipeline.RegionSeg (pcfgs (F := F)) adm (pdats m) () defs₀ Variants.none LL lvl 0 where
  win := launch0.win.to₀
  block_pos := launch0.block_pos
  stage_whole := launch0.stage_whole
  K := PEmpty
  osem k := k.elim
  ho := Pipeline.OwnSemFacts.none _
  hbody c := (body_obligation0 (Vin0 m) c).loose
  hwaits := Pipeline.hwaits_of_owed_zero _ _ _ _ LL lvl 0 fun _ _ => rfl
  pre c := iprop(StableHlo.held (c : Thread nD τ) (Pipeline.ucRefs τ sig) (V4 m c) ∗ Rr c)
  post c := iprop(StableHlo.held (c : Thread nD τ) (Pipeline.ucRefs τ sig) (V5 m (outsS m) c) ∗ Rr c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from hout0 (Vin0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vin0 m c) (fun b => V5 m (outsS m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 over the thread state: entered from every unscoped buffer at the contents before it, left with its result array
    at the running sum after the last block and every other buffer as found. -/
def reg1 : Pipeline.RegionSeg (pcfgs (F := F)) adm (pdats m) () defs₀ Variants.none LL lvl 1 where
  win := launch1.win.to₀
  block_pos := launch1.block_pos
  stage_whole := launch1.stage_whole
  K := PEmpty
  osem k := k.elim
  ho := Pipeline.OwnSemFacts.none _
  hbody c := (body_obligation1 (Vin1 m) c).loose
  hwaits := Pipeline.hwaits_of_owed_zero _ _ _ _ LL lvl 1 fun _ _ => rfl
  pre c := iprop(StableHlo.held (c : Thread nD τ) (Pipeline.ucRefs τ sig) (V6 m (outsA m) c) ∗ Rr c)
  post c := iprop(StableHlo.held (c : Thread nD τ) (Pipeline.ucRefs τ sig) (V7 m (outsS m) c) ∗ Rr c)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vin1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from hout1 (Vin1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vin1 m c) (fun b => V7 m (outsS m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Run.lean ====
/-
  The tiled program's run with its result named: from any memory with zero counters every weakly fair execution of @main
  terminates, the result buffer holds `result m c` — the fold through @main's items with each region's result array at the
  running sum after its last block — and every argument is as launched. The frame is this run with the result dropped.
-/
import proofs.«401785_j35828617183237_2_alg».proof.Proof.KI.Segs
import proofs.«401785_j35828617183237_2_alg».proof.Proof.KI.RunCond

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_named : θ_run defs (onTc (τ := τ) (main (F := F))) ⟨m, fun _ => 0, ρ⟩ (fun r => ∀ c : Dev nD,
      r.2.mem ((c.tc : Thread nD τ).loc main_v13) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Cert.KernelIdeal.GenP.run_cond (F := F) m (Ix := Unit) (U := UR sig nD τ) (Lvl := ℕ) emb₁ () Variants.none LL lvl (fun _ _ => rfl) ρ (outsS m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ => Rr (F := F))
    (hE0 := Pipeline.initEach LL lvl fun c => by
      iintro ⟨⟨-, HO, -, Hp, -⟩, -⟩
      imodintro
      isplitl [Hp]; · iexists _; iexact Hp
      iexists ∅; iexact HO)
    (hE2 := fun c => by
      iintro ⟨-, HO⟩
      iexact HO)
    (R0 := reg0 m) (hpre0 := fun c => .rfl) (hpost0 := fun c => .rfl)
    (R1 := reg1 m) (hpre1 := fun c => .rfl) (hpost1 := fun c => .rfl)

/-- The frame: the run with the result dropped. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_named m ρ)

end Cert.KernelIdeal.Hand

end
-- ==== Proof.KI.Final0.lean ====
/-
  The first sum's result array after the region: the running sum after the last block. The 1×1 result is written back
  once, at the last block, and that write-back covers the whole array.
-/
import proofs.«401785_j35828617183237_2_alg».proof.Proof.KI.Oblig0

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)

variable {F : FTy → Type} [FloatOps F]

variable (V : Bufs F)

/-- The last block of 512. -/
theorem lastBlk0 : 511 < cfg0.N := lt_of_lt_of_eq (by decide : 511 < 512) N_0.symm

/-- The one point that writes the result back. -/
theorem flush0_last (t : Fin cfg0.N) (hf : (cfg0.win 2).flush t = true) : t.val = 511 := by
  have h := (flush0_2 t).mp hf
  have hN : t.val < 512 := lt_of_lt_of_eq t.isLt N_0
  omega

/-- Two indices of a 1×1 array are one. -/
theorem idx11_eq0 (i j : S1x1.Idx) : i = j := by
  funext a; apply Fin.ext
  have hi : (i a).val < S1x1.size a := (i a).isLt
  have hj : (j a).val < S1x1.size a := (j a).isLt
  match a with
  | ⟨0, _⟩ => have hi' : (i 0).val < 1 := hi; have hj' : (j 0).val < 1 := hj; show (i 0).val = (j 0).val; omega
  | ⟨1, _⟩ => have hi' : (i 1).val < 1 := hi; have hj' : (j 1).val < 1 := hj; show (i 1).val = (j 1).val; omega

theorem final0 (c : Dev nD) : (dat0 V c).arrAt 2 cfg0.N = acc0 V c 511 lastBlk0 := by
  refine (dat0 V c).arrAt_eq_of_cover 2 (acc0 V c 511 lastBlk0) (fun t hf => ?_) (fun i => ?_)
  · have ht := flush0_last t hf
    show (cfg0.win 2).cut (grid0.coords t) ((dat0 V c).after 2 t) = _
    rw [after0_2]
    obtain ⟨n, hn⟩ := t
    have hn' : n = 511 := ht
    subst hn'
    funext j
    show acc0 V c 511 hn j = acc0 V c 511 lastBlk0 (((cfg0.win 2).blk ⟨511, hn⟩).view.emb j)
    exact congrArg (acc0 V c 511 lastBlk0) (idx11_eq0 _ _)
  · refine ⟨⟨511, lastBlk0⟩, (flush0_2 _).mpr (by decide), ?_⟩
    show i ∈ ((View.whole main_v5).slice (win0_2.rect ⟨511, lastBlk0⟩)).set
    rw [View.set_slice_whole, Rect.mem_set_unit]
    intro a
    have hi : (i a).val < S1x1.size a := (i a).isLt
    match a with
    | ⟨0, _⟩ => have hi' : (i 0).val < 1 := hi; show win0_2.index ⟨511, lastBlk0⟩ (0 : Fin 2) * 1 ≤ (i 0).val ∧ (i 0).val < win0_2.index ⟨511, lastBlk0⟩ (0 : Fin 2) * 1 + 1; have h0 : win0_2.index ⟨511, lastBlk0⟩ (0 : Fin 2) = 0 := rfl; omega
    | ⟨1, _⟩ => have hi' : (i 1).val < 1 := hi; show win0_2.index ⟨511, lastBlk0⟩ (1 : Fin 2) * 1 ≤ (i 1).val ∧ (i 1).val < win0_2.index ⟨511, lastBlk0⟩ (1 : Fin 2) * 1 + 1; have h0 : win0_2.index ⟨511, lastBlk0⟩ (1 : Fin 2) = 0 := rfl; omega

end Cert.KernelIdeal.Hand

end
-- ==== Proof.KI.Final1.lean ====
/-
  The second sum's result array after the region: the running sum after the last block. The 1×1 result is written back
  once, at the last block, and that write-back covers the whole array.
-/
import proofs.«401785_j35828617183237_2_alg».proof.Proof.KI.Oblig1

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)

variable {F : FTy → Type} [FloatOps F]

variable (V : Bufs F)

/-- The last block of 512. -/
theorem lastBlk1 : 511 < cfg1.N := lt_of_lt_of_eq (by decide : 511 < 512) N_1.symm

/-- The one point that writes the result back. -/
theorem flush1_last (t : Fin cfg1.N) (hf : (cfg1.win 2).flush t = true) : t.val = 511 := by
  have h := (flush1_2 t).mp hf
  have hN : t.val < 512 := lt_of_lt_of_eq t.isLt N_1
  omega

/-- Two indices of a 1×1 array are one. -/
theorem idx11_eq1 (i j : S1x1.Idx) : i = j := by
  funext a; apply Fin.ext
  have hi : (i a).val < S1x1.size a := (i a).isLt
  have hj : (j a).val < S1x1.size a := (j a).isLt
  match a with
  | ⟨0, _⟩ => have hi' : (i 0).val < 1 := hi; have hj' : (j 0).val < 1 := hj; show (i 0).val = (j 0).val; omega
  | ⟨1, _⟩ => have hi' : (i 1).val < 1 := hi; have hj' : (j 1).val < 1 := hj; show (i 1).val = (j 1).val; omega

theorem final1 (c : Dev nD) : (dat1 V c).arrAt 2 cfg1.N = acc1 V c 511 lastBlk1 := by
  refine (dat1 V c).arrAt_eq_of_cover 2 (acc1 V c 511 lastBlk1) (fun t hf => ?_) (fun i => ?_)
  · have ht := flush1_last t hf
    show (cfg1.win 2).cut (grid1.coords t) ((dat1 V c).after 2 t) = _
    rw [after1_2]
    obtain ⟨n, hn⟩ := t
    have hn' : n = 511 := ht
    subst hn'
    funext j
    show acc1 V c 511 hn j = acc1 V c 511 lastBlk1 (((cfg1.win 2).blk ⟨511, hn⟩).view.emb j)
    exact congrArg (acc1 V c 511 lastBlk1) (idx11_eq1 _ _)
  · refine ⟨⟨511, lastBlk1⟩, (flush1_2 _).mpr (by decide), ?_⟩
    show i ∈ ((View.whole main_v7).slice (win1_2.rect ⟨511, lastBlk1⟩)).set
    rw [View.set_slice_whole, Rect.mem_set_unit]
    intro a
    have hi : (i a).val < S1x1.size a := (i a).isLt
    match a with
    | ⟨0, _⟩ => have hi' : (i 0).val < 1 := hi; show win1_2.index ⟨511, lastBlk1⟩ (0 : Fin 2) * 1 ≤ (i 0).val ∧ (i 0).val < win1_2.index ⟨511, lastBlk1⟩ (0 : Fin 2) * 1 + 1; have h0 : win1_2.index ⟨511, lastBlk1⟩ (0 : Fin 2) = 0 := rfl; omega
    | ⟨1, _⟩ => have hi' : (i 1).val < 1 := hi; show win1_2.index ⟨511, lastBlk1⟩ (1 : Fin 2) * 1 ≤ (i 1).val ∧ (i 1).val < win1_2.index ⟨511, lastBlk1⟩ (1 : Fin 2) * 1 + 1; have h0 : win1_2.index ⟨511, lastBlk1⟩ (1 : Fin 2) = 0 := rfl; omega

end Cert.KernelIdeal.Hand

end
-- ==== Proof.Spec.lean ====
/-
  The mathematics both programs compute, stated once over the extended reals.

  Inputs: probabilities `y : [4194304, 2]`, label words `l : [4194304]`, and two arrays `a b : [4194304, 2]` of
  gathered rows (the pairs of the contrastive term: pair `p` is row `p` of `a` against row `p` of `b`; the first
  2097152 pairs are same-class, the rest different-class).

  Per entry, with the one-hot target `t = [l n = k]`:
    cross-entropy  `t · log y + (1 − t) · log(1 + (−y))`,
    squared error  `(y − t)²`.
  Per pair, with `d² = Σₖ (aₖ − bₖ + ε)²` and `d = √d²`:
    same-class pairs contribute `d²`, different-class pairs `max(1 − d, 0)²`.

  `kernelVal` adds everything the way the tiled program does (one sum of `−cross-entropy + squared error`, one sum of
  the pair terms chosen by the pair's position, each divided by its count); `refVal` the way the array program does
  (three means, the pair term written `(1 − label) · d·d + label · hinge²`). That they agree is the law proved beside
  this file; nothing here is a program.
-/
import Idealize.ShloMosaic.PureOps.Ideal
import Idealize.ShloMosaic.Lib.ValueIdx

noncomputable section

open scoped BigOperators

namespace Cert.Spec

open Idealize.ShloMosaic Idealize.ShloMosaic.ValueIdx

/-- The probabilities' (and the gathered rows') shape, and the labels'. -/
abbrev SY : Shape := ⟨2, ![4194304, 2]⟩
abbrev SL : Shape := ⟨1, ![4194304]⟩

/-- The float words both programs carry, read at the exact instance. -/
def zero : EReal := Ideal.ofBits .f32 0x00000000#32
def one : EReal := Ideal.ofBits .f32 0x3F800000#32
/-- ε of the pairwise distance: the float nearest 1e-6. -/
def eps : EReal := Ideal.ofBits .f32 0x358637BD#32
/-- 8388608 = 4194304 · 2, the number of entries; 4194304, the number of pairs. -/
def nEntries : EReal := Ideal.ofBits .f32 0x4B000000#32
def nPairs : EReal := Ideal.ofBits .f32 0x4A800000#32

/-- The one-hot target of label word `l` at class `k`. -/
def tgt (l : BitVec 32) (k : Fin 2) : EReal := if l = BitVec.ofNat 32 k.val then 1 else 0

/-- `t · log y + (1 − t) · log1p ny`, where `ny` is `−y` as the program at hand spells it. -/
def bceT (t y ny : EReal) : EReal := t * Ideal.log y + (one - t) * Ideal.log1p ny
/-- `(y − t)²`. -/
def mseT (t y : EReal) : EReal := (y - t) * (y - t)

/-- The squared distance of pair `p`: `Σₖ (a p k − b p k + ε)²`. -/
def dist2 (a b : SY.Idx → EReal) (p : Fin 4194304) : EReal :=
  ∑ k : Fin 2, (a (ix2 p k) - b (ix2 p k) + eps) * (a (ix2 p k) - b (ix2 p k) + eps)
/-- `max(1 − √d², 0)²`. -/
def hinge2 (d2 : EReal) : EReal := max (one - Ideal.sqrt d2) zero * max (one - Ideal.sqrt d2) zero

/-! ## The tiled program's grouping -/

/-- One entry's summand: the cross-entropy negated as `0 − ·`, `−y` spelt `0 − y`, plus the squared error. -/
def kT (t y : EReal) : EReal := (zero - bceT t y (zero - y)) + mseT t y
def kSum1 (y : SY.Idx → EReal) (l : SL.Idx → BitVec 32) : EReal :=
  ∑ n : Fin 4194304, ∑ k : Fin 2, kT (tgt (l (ix1 n)) k) (y (ix2 n k))
/-- One pair's summand, chosen by the pair's position. -/
def kPair (a b : SY.Idx → EReal) (p : Fin 4194304) : EReal :=
  if 2097152 ≤ p.val then hinge2 (dist2 a b p) else dist2 a b p
def kSum2 (a b : SY.Idx → EReal) : EReal := ∑ p : Fin 4194304, kPair a b p
def kernelVal (y : SY.Idx → EReal) (l : SL.Idx → BitVec 32) (a b : SY.Idx → EReal) : EReal :=
  Ideal.div (kSum1 y l) nEntries * one + Ideal.div (kSum2 a b) nPairs * one

/-! ## The array program's grouping -/

def rSumA (y : SY.Idx → EReal) (l : SL.Idx → BitVec 32) : EReal :=
  ∑ n : Fin 4194304, ∑ k : Fin 2, bceT (tgt (l (ix1 n)) k) (y (ix2 n k)) (-(y (ix2 n k)))
def rSumM (y : SY.Idx → EReal) (l : SL.Idx → BitVec 32) : EReal :=
  ∑ n : Fin 4194304, ∑ k : Fin 2, mseT (tgt (l (ix1 n)) k) (y (ix2 n k))
/-- The pair's label: 0 on the same-class half, 1 on the other. -/
def label (p : Fin 4194304) : EReal := if p.val < 2097152 then zero else one
def rPair (a b : SY.Idx → EReal) (p : Fin 4194304) : EReal :=
  (one - label p) * (Ideal.sqrt (dist2 a b p) * Ideal.sqrt (dist2 a b p)) + label p * hinge2 (dist2 a b p)
def rSumC (a b : SY.Idx → EReal) : EReal := ∑ p : Fin 4194304, rPair a b p
def refVal (y : SY.Idx → EReal) (l : SL.Idx → BitVec 32) (a b : SY.Idx → EReal) : EReal :=
  (-(Ideal.div (rSumA y l) nEntries)) * one + Ideal.div (rSumM y l) nEntries * one + Ideal.div (rSumC a b) nPairs * one

end Cert.Spec

end
-- ==== Proof.KI.Sum0.lean ====
import proofs.«401785_j35828617183237_2_alg».proof.Proof.KI.Data
import proofs.«401785_j35828617183237_2_alg».proof.Proof.Spec
import Idealize.ShloMosaic.Lib.ValueLayout
import Idealize.ShloMosaic.Lib.StableHlo.Predicate
import Idealize.ShloMosaic.PureOps.Ideal.Laws

/-!
  The first tiled sum over the extended reals.

  The cell after block `n` is the cell before it plus the block's own sum: the sum over the block's 8192 rows and 2
  classes of one entry's summand (the negated cross-entropy plus the squared error against the one-hot target of the
  row's label). Block `t` of an array holds its rows `t · 8192 + r`. So the cell after block `n` is the sum of the
  contributions of blocks `0 … n` (induction on `n`), and after the last of the 512 blocks it is the sum over all
  512 · 8192 = 4194304 rows.
-/

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem

/-- The last block of 512. -/
theorem last0 : 511 < cfg0.N := lt_of_lt_of_eq (by decide : 511 < 512) N_0.symm

/-! ## One entry of a block -/

open Idealize.ShloMosaic.StableHlo.Predicate in
/-- The one-hot target at row `r` and class `k`: the class number `k` compared with the row's label word, the bit
    widened to a word and read as a number, is `1` when the label is `k` and `0` otherwise. -/
theorem sum0_onehot_apply (lab : Vec Ideal S8192x1 .i32) (r : Fin 8192) (k : Fin 2) :
    (sitofp .f32 (extui 32 (cmpi .eq (iota .tc S8192x2 32 [1] iota_S8192x2_d1_w32)
      (broadcastTo S8192x2 (shapeCast S8192x1 lab shapeCasts_S8192x1_S8192x1) broadcasts_S8192x1_S8192x2)) natLt_1_32)
        : FVec Ideal S8192x2 .f32) (ix2 r k) = Cert.Spec.tgt (lab (ix2 r (0 : Fin 1))) k := by
  rw [sitofp_apply, extui_apply]
  show FloatOps.sitofp .f32 ((IntOp.cmpi .eq (iota .tc S8192x2 32 [1] iota_S8192x2_d1_w32 (ix2 r k))
      (broadcastTo S8192x2 (shapeCast S8192x1 lab shapeCasts_S8192x1_S8192x1) broadcasts_S8192x1_S8192x2 (ix2 r k))).setWidth 32) = _
  rw [iota_single_apply, shapeCast_self]
  rw [broadcastTo_apply lab broadcasts_S8192x1_S8192x2 (ix2 r k) (ix2 r (0 : Fin 1)) (fun a => by
    match a with
    | ⟨0, _⟩ => rfl
    | ⟨1, _⟩ => rfl)]
  show FloatOps.sitofp .f32 (BitVec.setWidth 32 (IntOp.cmpi .eq (BitVec.ofNat 32 k.val) (lab (ix2 r (0 : Fin 1))))) = _
  unfold Cert.Spec.tgt
  by_cases h : lab (ix2 r (0 : Fin 1)) = BitVec.ofNat 32 k.val
  · rw [if_pos h, cmpi_eq_iff.2 h.symm]
    show (((BitVec.setWidth 32 1#1).toInt : ℝ) : EReal) = 1
    rw [show (BitVec.setWidth 32 1#1).toInt = 1 from by decide]; simp
  · rw [if_neg h, eq_zero_of_ne_one (fun h' => h (cmpi_eq_iff.1 h').symm)]
    show (((BitVec.setWidth 32 0#1).toInt : ℝ) : EReal) = 0
    rw [show (BitVec.setWidth 32 0#1).toInt = 0 from by decide]; simp

/-! ## The two sums inside a block -/

section Layout
variable {α : Type}

/-- An `[a]` array cast to the column `[a, 1]` reads, at `(i, u)`, the operand at `i`: the same row-major position. -/
theorem sum0_shapeCast_col_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Layout

/-- Row `r` with the class coordinate `k` put back is `(r, k)`. -/
theorem sum0_lift_class (r : Fin 8192) (k : Fin 2) : reduces_S8192x2_S8192.lift (ix1 r) k = ix2 r k := by
  funext a
  apply Fin.ext
  match a with
  | ⟨0, _⟩ => rfl
  | ⟨1, _⟩ => rfl

/-- The one cell with the row coordinate `r` put back is `(r, 0)`. -/
theorem sum0_lift_row (u : Fin 1) (r : Fin 8192) : reduces_S8192x1_S1.lift (ix1 u) r = ix2 r (0 : Fin 1) := by
  funext a
  apply Fin.ext
  match a with
  | ⟨0, _⟩ => rfl
  | ⟨1, _⟩ => show u.val = 0; omega

/-- The sum over the two classes, read at row `r`. -/
theorem sum0_classSum_apply (src : FVec Ideal S8192x2 .f32) (hφ : FKind.Formats .f32)
    (hacc : (0x00000000#32 : BitVec 32) = 0x00000000#32) (r : Fin 8192) :
    multiReduction .add [1] S8192 src 0x00000000#32 reduces_S8192x2_S8192 hφ hacc (ix1 r) = ∑ k : Fin 2, src (ix2 r k) := by
  refine (Ideal.multiReduction_add_single src _ reduces_S8192x2_S8192 hφ hacc (ix1 r)).trans ?_
  exact Finset.sum_congr rfl fun k _ => congrArg src (sum0_lift_class r k)

/-- The sum over the rows of a column, read at its one cell. -/
theorem sum0_rowSum_apply (src : FVec Ideal S8192x1 .f32) (hφ : FKind.Formats .f32)
    (hacc : (0x00000000#32 : BitVec 32) = 0x00000000#32) (u : Fin 1) :
    multiReduction .add [0] S1 src 0x00000000#32 reduces_S8192x1_S1 hφ hacc (ix1 u) = ∑ r : Fin 8192, src (ix2 r (0 : Fin 1)) := by
  refine (Ideal.multiReduction_add_single src _ reduces_S8192x1_S1 hφ hacc (ix1 u)).trans ?_
  exact Finset.sum_congr rfl fun r _ => congrArg src (sum0_lift_row u r)

/-! ## What one block adds to the cell -/

/-- One block's contribution: the sum over its rows and classes of the entry's summand. -/
def blockSum0 (x : Vec Ideal S8192x2 .f32) (lab : Vec Ideal S8192x1 .i32) : EReal :=
  ∑ r : Fin 8192, ∑ k : Fin 2, Cert.Spec.kT (Cert.Spec.tgt (lab (ix2 r (0 : Fin 1))) k) (x (ix2 r k))

/-- The cleared cell holds `0`. -/
theorem k0_pay1_apply (j : S1x1.Idx) : (k0_pay1 (F := Ideal)) j = 0 := by
  unfold k0_pay1
  rw [shapeCast_self]
  exact Ideal.ofBits_zero_f32

/-- The stored cell is the cell read plus the block's contribution. -/
theorem k0_pay2_apply (x : Vec Ideal S8192x2 .f32) (lab : Vec Ideal S8192x1 .i32) (a : Vec Ideal S1x1 .f32) (u v : Fin 1) :
    k0_pay2 x lab a (ix2 u v) = a (ix2 u v) + blockSum0 x lab := by
  unfold k0_pay2
  dsimp only
  rw [shapeCast_self, addf_apply]
  refine congrArg (a (ix2 u v) + ·) ?_
  rw [sum0_shapeCast_col_apply]
  refine (sum0_rowSum_apply _ _ _ u).trans ?_
  unfold blockSum0
  refine Finset.sum_congr rfl fun r _ => ?_
  rw [sum0_shapeCast_col_apply]
  refine (sum0_classSum_apply _ _ _ r).trans ?_
  refine Finset.sum_congr rfl fun k _ => ?_
  simp only [addf_apply, subf_apply, mulf_apply, broadcast_apply]
  rw [sum0_onehot_apply lab r k]
  show _ = Cert.Spec.kT (Cert.Spec.tgt (lab (ix2 r 0)) k) (x (ix2 r k))
  rfl

/-! ## A block read off its array -/

theorem cfg0_N : cfg0.N = 512 := N_0

/-- Where block `t` of the probabilities sits: block row `t`, block column 0. -/
theorem idx0_0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- Where block `t` of the labels sits: block row `t`, block column 0. -/
theorem idx0_1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

theorem row0_lt (t : Fin cfg0.N) (r : Fin 8192) : t.val * 8192 + r.val < 4194304 := by
  have h1 : t.val < 512 := lt_of_lt_of_eq t.isLt cfg0_N
  have := r.isLt; omega

/-- The probabilities' block `t` at row `r` and class `k` is the array at row `t · 8192 + r`. -/
theorem iblk0_0_apply (V : Bufs Ideal) (c : Dev nD) (t : Fin cfg0.N) (r : Fin 8192) (k : Fin 2) :
    (iblk0 V c 0 t : Vec Ideal S8192x2 .f32) (ix2 r k)
      = (V c main_arg0 : S4194304x2.Idx → EReal) (ix2 ⟨t.val * 8192 + r.val, row0_lt t r⟩ k) := by
  unfold iblk0
  rw [View.read_apply]
  show V c main_arg0 _ = V c main_arg0 _
  congr 1
  funext a
  apply Fin.ext
  match a with
  | ⟨0, _⟩ => show win0_0.index t 0 * 8192 + 1 * r.val = t.val * 8192 + r.val; rw [(idx0_0 t).1]; omega
  | ⟨1, _⟩ => show win0_0.index t 1 * 2 + 1 * k.val = k.val; rw [(idx0_0 t).2]; omega

/-- The labels' block `t` at row `r` is the array at row `t · 8192 + r`. -/
theorem iblk0_1_apply (V : Bufs Ideal) (c : Dev nD) (t : Fin cfg0.N) (r : Fin 8192) (u : Fin 1) :
    (iblk0 V c 1 t : Vec Ideal S8192x1 .i32) (ix2 r u)
      = (V c main_v4 : S4194304x1.Idx → BitVec 32) (ix2 ⟨t.val * 8192 + r.val, row0_lt t r⟩ (0 : Fin 1)) := by
  unfold iblk0
  rw [View.read_apply]
  show V c main_v4 _ = V c main_v4 _
  congr 1
  funext a
  apply Fin.ext
  match a with
  | ⟨0, _⟩ => show win0_1.index t 0 * 8192 + 1 * r.val = t.val * 8192 + r.val; rw [(idx0_1 t).1]; omega
  | ⟨1, _⟩ => show win0_1.index t 1 * 1 + 1 * u.val = 0; rw [(idx0_1 t).2]; omega

/-- Block `t`'s contribution in terms of the arrays: the entries of rows `t · 8192 + r`. -/
theorem blockSum0_iblk (V : Bufs Ideal) (c : Dev nD) (y : Cert.Spec.SY.Idx → EReal) (l : Cert.Spec.SL.Idx → BitVec 32)
    (hy : ∀ (n : Fin 4194304) (k : Fin 2), (V c main_arg0 : S4194304x2.Idx → EReal) (ix2 n k) = y (ix2 n k))
    (hl : ∀ n : Fin 4194304, (V c main_v4 : S4194304x1.Idx → BitVec 32) (ix2 n (0 : Fin 1)) = l (ix1 n))
    (t : Fin cfg0.N) :
    blockSum0 (iblk0 V c 0 t) (iblk0 V c 1 t)
      = ∑ r : Fin 8192, ∑ k : Fin 2,
          Cert.Spec.kT (Cert.Spec.tgt (l (ix1 ⟨t.val * 8192 + r.val, row0_lt t r⟩)) k) (y (ix2 ⟨t.val * 8192 + r.val, row0_lt t r⟩ k)) := by
  unfold blockSum0
  refine Finset.sum_congr rfl fun r _ => Finset.sum_congr rfl fun k _ => ?_
  rw [iblk0_0_apply V c t r k, iblk0_1_apply V c t r 0, hy, hl]

/-! ## The cell after block `n` -/

/-- Block `t`'s contribution, `0` past the grid. -/
def contrib0 (V : Bufs Ideal) (c : Dev nD) (t : ℕ) : EReal :=
  if h : t < cfg0.N then blockSum0 (iblk0 V c 0 ⟨t, h⟩) (iblk0 V c 1 ⟨t, h⟩) else 0

/-- The cell after block `n` is the sum of the contributions of blocks `0 … n`. -/
theorem acc0_partial (V : Bufs Ideal) (c : Dev nD) :
    ∀ (n : ℕ) (hn : n < cfg0.N), acc0 V c n hn = fun _ => ∑ t ∈ Finset.range (n + 1), contrib0 V c t
  | 0, h => by
    funext j
    obtain ⟨u, v, rfl⟩ : ∃ (u : Fin 1) (v : Fin 1), j = ix2 u v := ⟨j 0, j 1, eq_ix2 j⟩
    rw [acc0]
    refine (k0_pay2_apply _ _ _ u v).trans ?_
    rw [k0_pay1_apply, zero_add, Finset.sum_range_one, contrib0, dif_pos h]
  | n + 1, h => by
    funext j
    obtain ⟨u, v, rfl⟩ : ∃ (u : Fin 1) (v : Fin 1), j = ix2 u v := ⟨j 0, j 1, eq_ix2 j⟩
    rw [acc0]
    refine (k0_pay2_apply _ _ _ u v).trans ?_
    rw [acc0_partial V c n (Nat.lt_of_succ_lt h), Finset.sum_range_succ _ (n + 1), contrib0, dif_pos h]

/-! ## All the rows -/

/-- A sum over `B · E` places is the sum over `B` tiles of the sums over the `E` places of a tile. -/
theorem sum0_tiles {M : Type*} [AddCommMonoid M] (B E N : ℕ) (hN : N = B * E) (g : Fin N → M)
    (hlt : ∀ (t : Fin B) (e : Fin E), t.val * E + e.val < N) :
    ∑ n : Fin N, g n = ∑ t : Fin B, ∑ e : Fin E, g ⟨t.val * E + e.val, hlt t e⟩ := by
  subst hN
  rw [← Fintype.sum_prod_type' (f := fun (t : Fin B) (e : Fin E) => g ⟨t.val * E + e.val, hlt t e⟩)]
  rw [← (finProdFinEquiv (m := B) (n := E)).sum_comp g]
  refine Finset.sum_congr rfl fun p _ => congrArg g (Fin.ext ?_)
  show p.2.val + E * p.1.val = p.1.val * E + p.2.val
  rw [Nat.mul_comm, Nat.add_comm]

theorem acc0_total (V : Bufs Ideal) (c : Dev nD) (y : Cert.Spec.SY.Idx → EReal) (l : Cert.Spec.SL.Idx → BitVec 32)
    (hy : ∀ (n : Fin 4194304) (k : Fin 2), (V c main_arg0 : S4194304x2.Idx → EReal) (ix2 n k) = y (ix2 n k))
    (hl : ∀ n : Fin 4194304, (V c main_v4 : S4194304x1.Idx → BitVec 32) (ix2 n (0 : Fin 1)) = l (ix1 n)) :
    acc0 V c 511 last0 = fun _ => Cert.Spec.kSum1 y l := by
  rw [acc0_partial V c 511 last0]
  funext _
  show ∑ t ∈ Finset.range 512, contrib0 V c t = Cert.Spec.kSum1 y l
  rw [← Fin.sum_univ_eq_sum_range (fun t => contrib0 V c t) 512]
  unfold Cert.Spec.kSum1
  refine Eq.symm ((sum0_tiles 512 8192 4194304 (by norm_num)
    (fun n => ∑ k : Fin 2, Cert.Spec.kT (Cert.Spec.tgt (l (ix1 n)) k) (y (ix2 n k)))
    (fun t e => by have := t.isLt; have := e.isLt; omega)).trans ?_)
  refine Finset.sum_congr rfl fun t _ => ?_
  have ht : t.val < cfg0.N := lt_of_lt_of_eq t.isLt cfg0_N.symm
  rw [contrib0, dif_pos ht]
  exact (blockSum0_iblk V c y l hy hl ⟨t.val, ht⟩).symm

end Cert.KernelIdeal.Hand

end
-- ==== Proof.KI.Sum1.lean ====
import proofs.«401785_j35828617183237_2_alg».proof.Proof.KI.Data
import proofs.«401785_j35828617183237_2_alg».proof.Proof.Spec
import Idealize.ShloMosaic.Lib.ValueLayout
import Idealize.ShloMosaic.PureOps.Ideal.Laws

/-
  The second tiled sum, read at the extended reals.

  The region walks 512 blocks of 8192 pairs. At block t the body forms, for each row r of the block, the squared
  distance d² of the two gathered rows, and adds to the running cell the block's sum of either d² or max(1 − √d², 0)²,
  the choice made once per block by comparing the block's first pair position t · 8192 with 2097152. Since 8192
  divides 2097152, that comparison says the same as comparing any pair position t · 8192 + r of the block, so the block
  adds exactly the pair terms of its rows; the cell after the last block is the sum of the pair terms over all
  512 · 8192 = 4194304 positions.
-/

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem

/-- The last block of 512. -/
theorem last1 : 511 < cfg1.N := lt_of_lt_of_eq (by decide : 511 < 512) N_1.symm

/-! ## The body's value at an index -/

/-- A length-8192 vector viewed as a column [8192, 1] reads, at row r, the vector at r: the same row-major position. -/
theorem col1_cast {α : Type} (x : S8192.Idx → α) (r : Fin 8192) (u : Fin 1) :
    shapeCast S8192x1 x shapeCasts_S8192_S8192x1 (ix2 r u) = x (ix1 r) :=
  shapeCast_apply x _ _ _ (by
    have hu : u.val = 0 := by omega
    rw [Shape.rowMajor_val_one, Shape.rowMajor_val_two]
    show r.val = r.val * 1 + u.val
    omega)

/-- The sum along the two lanes of an [8192, 2] block, at row r. -/
theorem lane1_sum (x : FVec Ideal S8192x2 .f32) (hφ : FKind.Formats .f32)
    (hacc : (0x00000000#32 : BitVec 32) = FKind.add.neutral .f32 hφ) (r : Fin 8192) :
    multiReduction (F := Ideal) .add [1] S8192 x 0x00000000#32 reduces_S8192x2_S8192 hφ hacc (ix1 r)
      = ∑ k : Fin 2, x (ix2 r k) :=
  (Ideal.multiReduction_add_single x _ reduces_S8192x2_S8192 hφ hacc (ix1 r)).trans
    (Finset.sum_congr rfl fun k _ => congrArg x (funext fun c => Fin.ext (match c with | ⟨0, _⟩ => rfl | ⟨1, _⟩ => rfl)))

/-- The sum down the 8192 rows of a column. -/
theorem rows1_sum (x : FVec Ideal S8192x1 .f32) (hφ : FKind.Formats .f32)
    (hacc : (0x00000000#32 : BitVec 32) = FKind.add.neutral .f32 hφ) (v : Fin 1) :
    multiReduction (F := Ideal) .add [0] S1 x 0x00000000#32 reduces_S8192x1_S1 hφ hacc (ix1 v)
      = ∑ r : Fin 8192, x (ix2 r v) :=
  (Ideal.multiReduction_add_single x _ reduces_S8192x1_S1 hφ hacc (ix1 v)).trans
    (Finset.sum_congr rfl fun k _ => congrArg x (funext fun c => Fin.ext (match c with | ⟨0, _⟩ => rfl | ⟨1, _⟩ => rfl)))

/-- The squared distance of row r of two blocks: Σₖ (xₖ − yₖ + ε)². -/
def blk1Dist2 (x y : Vec Ideal S8192x2 .f32) (r : Fin 8192) : EReal :=
  ∑ k : Fin 2, (x (ix2 r k) - y (ix2 r k) + Cert.Spec.eps) * (x (ix2 r k) - y (ix2 r k) + Cert.Spec.eps)

/-- The column of squared distances the body computes from two blocks, read at row r. -/
theorem col1_apply (x y : Vec Ideal S8192x2 .f32) (hφ : FKind.Formats .f32)
    (hacc : (0x00000000#32 : BitVec 32) = FKind.add.neutral .f32 hφ) (r : Fin 8192) (v : Fin 1) :
    shapeCast S8192x1
      (multiReduction (F := Ideal) .add [1] S8192
        (mulf (addf (subf x y) (broadcast S8192x2 (FloatOps.ofBits .f32 0x358637BD#32)))
          (addf (subf x y) (broadcast S8192x2 (FloatOps.ofBits .f32 0x358637BD#32))))
        0x00000000#32 reduces_S8192x2_S8192 hφ hacc)
      shapeCasts_S8192_S8192x1 (ix2 r v) = blk1Dist2 x y r :=
  (col1_cast _ r v).trans ((lane1_sum _ hφ hacc r).trans rfl)

/-- The hinge column at an index: max(1 − √c, 0)² of the column's entry c there. -/
theorem hinge1_apply (C : FVec Ideal S8192x1 .f32) (j : S8192x1.Idx) :
    mulf
      (maximumf (subf (broadcast S8192x1 (FloatOps.ofBits .f32 0x3F800000#32)) (sqrt C))
        (broadcast S8192x1 (FloatOps.ofBits .f32 0x00000000#32)))
      (maximumf (subf (broadcast S8192x1 (FloatOps.ofBits .f32 0x3F800000#32)) (sqrt C))
        (broadcast S8192x1 (FloatOps.ofBits .f32 0x00000000#32))) j = Cert.Spec.hinge2 (C j) := rfl

/-- The body's stored value at its one index: the cell it read plus the sum over the block's rows of the term the
    block's bit chooses. -/
theorem k1_pay2_apply (i : grid1.Coords) (x y : Vec Ideal S8192x2 .f32) (z : Vec Ideal S1x1 .f32) (u v : Fin 1) :
    k1_pay2 (F := Ideal) i x y z (ix2 u v)
      = z (ix2 u v) + ∑ r : Fin 8192,
          (if Scalar.cmpi .sge (Scalar.muli (BitVec.ofNat 32 (i 0).val) 8192#32) 2097152#32 = 1
            then Cert.Spec.hinge2 (blk1Dist2 x y r) else blk1Dist2 x y r) := by
  unfold k1_pay2
  simp only [shapeCast_self]
  rw [addf_apply]
  refine congrArg (z (ix2 u v) + ·) ?_
  refine (shapeCast_a_1a_apply _ shapeCasts_S1_S1x1 u v).trans ?_
  refine (rows1_sum _ _ _ v).trans ?_
  refine Finset.sum_congr rfl fun r _ => ?_
  unfold Scalar.select
  by_cases h : Scalar.cmpi .sge (Scalar.muli (BitVec.ofNat 32 (i 0).val) 8192#32) 2097152#32 = 1
  · rw [if_pos h, if_pos h]
    exact (hinge1_apply _ _).trans (congrArg Cert.Spec.hinge2 (col1_apply x y _ _ r v))
  · rw [if_neg h, if_neg h]
    exact col1_apply x y _ _ r v

/-- The first cell is the zero word, which is 0. -/
theorem k1_pay1_apply (j : S1x1.Idx) : k1_pay1 (F := Ideal) j = 0 := by
  unfold k1_pay1
  simp only [shapeCast_self]
  exact Ideal.ofBits_zero_f32

/-! ## The block's bit -/

/-- With fewer than 512 blocks the product n · 8192 stays below 2³¹, so the signed comparison with 2097152 is the
    comparison of naturals: true exactly from block 256 on. -/
theorem bit1_iff (n : ℕ) (hn : n < 512) :
    Scalar.cmpi .sge (Scalar.muli (BitVec.ofNat 32 n) 8192#32) 2097152#32 = 1 ↔ 256 ≤ n := by
  have hmul : (BitVec.ofNat 32 n * 8192#32).toNat = n * 8192 := by
    rw [BitVec.toNat_mul, BitVec.toNat_ofNat, BitVec.toNat_ofNat]; omega
  have hint : (BitVec.ofNat 32 n * 8192#32).toInt = ((n * 8192 : ℕ) : ℤ) := by
    rw [BitVec.toInt_eq_toNat_of_lt (by rw [hmul]; omega), hmul]
  have hc : (2097152#32 : BitVec 32).toInt = 2097152 := by decide
  show BitVec.ofBool ((2097152#32 : BitVec 32).sle (BitVec.ofNat 32 n * 8192#32)) = 1 ↔ _
  rw [BitVec.sle_eq_decide, hint, hc]
  by_cases h : 256 ≤ n
  · have h' : (2097152 : ℤ) ≤ ((n * 8192 : ℕ) : ℤ) := by omega
    rw [decide_eq_true h']
    exact ⟨fun _ => h, fun _ => rfl⟩
  · have h' : ¬ (2097152 : ℤ) ≤ ((n * 8192 : ℕ) : ℤ) := by omega
    rw [decide_eq_false h']
    exact ⟨fun hh => absurd hh (by decide), fun hh => absurd hh h⟩

/-! ## A block is 8192 rows of its array -/

/-- Both input windows' index maps send block t to (t, 0); the grid's one coordinate at point t is t. -/
theorem idx1_0 : ∀ t : Fin cfg1.N, win1_0.index t 0 = t.val ∧ win1_0.index t 1 = 0 :=
  (by decide +kernel : ∀ t : Fin grid1.N, win1_0.index t 0 = t.val ∧ win1_0.index t 1 = 0)

theorem idx1_1 : ∀ t : Fin cfg1.N, win1_1.index t 0 = t.val ∧ win1_1.index t 1 = 0 :=
  (by decide +kernel : ∀ t : Fin grid1.N, win1_1.index t 0 = t.val ∧ win1_1.index t 1 = 0)

theorem coords1_val : ∀ t : Fin cfg1.N, (grid1.coords t 0).val = t.val :=
  (by decide +kernel : ∀ t : Fin grid1.N, (grid1.coords t 0).val = t.val)

/-- Row r of block t is pair t · 8192 + r, inside the array. -/
theorem row1_lt (t : Fin cfg1.N) (r : Fin 8192) : t.val * 8192 + r.val < 4194304 := by
  have h : cfg1.N = 512 := N_1
  have := t.isLt
  have := r.isLt
  omega

theorem iblk1_0_apply (V : Bufs Ideal) (c : Dev nD) (t : Fin cfg1.N) (r : Fin 8192) (k : Fin 2) :
    (iblk1 V c 0 t : Vec Ideal S8192x2 .f32) (ix2 r k)
      = (V c main_v2 : S4194304x2.Idx → EReal) (ix2 ⟨t.val * 8192 + r.val, row1_lt t r⟩ k) := by
  unfold iblk1
  rw [View.read_apply]
  show V c main_v2 _ = V c main_v2 _
  congr 1
  funext a
  apply Fin.ext
  match a with
  | ⟨0, _⟩ => show win1_0.index t 0 * 8192 + 1 * r.val = t.val * 8192 + r.val; rw [(idx1_0 t).1]; omega
  | ⟨1, _⟩ => show win1_0.index t 1 * 2 + 1 * k.val = k.val; rw [(idx1_0 t).2]; omega

theorem iblk1_1_apply (V : Bufs Ideal) (c : Dev nD) (t : Fin cfg1.N) (r : Fin 8192) (k : Fin 2) :
    (iblk1 V c 1 t : Vec Ideal S8192x2 .f32) (ix2 r k)
      = (V c main_v3 : S4194304x2.Idx → EReal) (ix2 ⟨t.val * 8192 + r.val, row1_lt t r⟩ k) := by
  unfold iblk1
  rw [View.read_apply]
  show V c main_v3 _ = V c main_v3 _
  congr 1
  funext a
  apply Fin.ext
  match a with
  | ⟨0, _⟩ => show win1_1.index t 0 * 8192 + 1 * r.val = t.val * 8192 + r.val; rw [(idx1_1 t).1]; omega
  | ⟨1, _⟩ => show win1_1.index t 1 * 2 + 1 * k.val = k.val; rw [(idx1_1 t).2]; omega

/-! ## From blocks to the whole sum -/

/-- The pair term at a flat position, zero past the end: a total function of the position, so that sums over blocks
    and rows carry no bound proofs. -/
def flatPair1 (a b : Cert.Spec.SY.Idx → EReal) (p : ℕ) : EReal :=
  if h : p < 4194304 then Cert.Spec.kPair a b ⟨p, h⟩ else 0

/-- Block t's contribution: the pair terms of its 8192 rows. -/
def pairBlkSum (a b : Cert.Spec.SY.Idx → EReal) (t : ℕ) : EReal := ∑ r : Fin 8192, flatPair1 a b (t * 8192 + r.val)

/-- Two blocks whose row r holds pair p of the two arrays have, at row r, that pair's squared distance. -/
theorem blk1Dist2_congr (x y : Vec Ideal S8192x2 .f32) (a b : Cert.Spec.SY.Idx → EReal) (p : Fin 4194304) (r : Fin 8192)
    (hx : ∀ k : Fin 2, x (ix2 r k) = a (ix2 p k)) (hy : ∀ k : Fin 2, y (ix2 r k) = b (ix2 p k)) :
    blk1Dist2 x y r = Cert.Spec.dist2 a b p := by
  unfold blk1Dist2 Cert.Spec.dist2
  exact Finset.sum_congr rfl fun k _ => by rw [hx k, hy k]

section Blocks

variable (V : Bufs Ideal) (c : Dev nD) (a b : Cert.Spec.SY.Idx → EReal)
  (ha : ∀ (n : Fin 4194304) (k : Fin 2), (V c main_v2 : S4194304x2.Idx → EReal) (ix2 n k) = a (ix2 n k))
  (hb : ∀ (n : Fin 4194304) (k : Fin 2), (V c main_v3 : S4194304x2.Idx → EReal) (ix2 n k) = b (ix2 n k))

include ha hb

/-- One step of the body at block t: the cell plus the block's pair terms. The bit compares t · 8192 with 2097152;
    as 2097152 = 256 · 8192 and r < 8192, that is the comparison of t · 8192 + r with 2097152 for every row r. -/
theorem step1_apply (t : Fin cfg1.N) (z : Vec Ideal S1x1 .f32) (u v : Fin 1) :
    k1_pay2 (F := Ideal) (grid1.coords t) (iblk1 V c 0 t) (iblk1 V c 1 t) z (ix2 u v)
      = z (ix2 u v) + pairBlkSum a b t.val := by
  have hN : cfg1.N = 512 := N_1
  have ht : t.val < 512 := by have := t.isLt; omega
  refine (k1_pay2_apply _ _ _ z u v).trans (congrArg (z (ix2 u v) + ·) (Finset.sum_congr rfl fun r _ => ?_))
  have hd := blk1Dist2_congr (iblk1 V c 0 t) (iblk1 V c 1 t) a b ⟨t.val * 8192 + r.val, row1_lt t r⟩ r
    (fun k => (iblk1_0_apply V c t r k).trans (ha _ k)) (fun k => (iblk1_1_apply V c t r k).trans (hb _ k))
  have hbit := bit1_iff t.val ht
  have hr := r.isLt
  rw [coords1_val t, hd]
  unfold flatPair1
  rw [dif_pos (row1_lt t r)]
  unfold Cert.Spec.kPair
  by_cases h : 256 ≤ t.val
  · rw [if_pos (hbit.mpr h), if_pos (show 2097152 ≤ t.val * 8192 + r.val by omega)]
  · rw [if_neg (fun hh => h (hbit.mp hh)), if_neg (show ¬ 2097152 ≤ t.val * 8192 + r.val by omega)]

/-- The cell after block n is the sum of the contributions of blocks 0 … n: by induction on the block. -/
theorem acc1_eq : ∀ (n : ℕ) (hn : n < cfg1.N), acc1 V c n hn = fun _ => ∑ t ∈ Finset.range (n + 1), pairBlkSum a b t
  | 0, h => by
    funext j
    obtain ⟨u, v, rfl⟩ : ∃ (u v : Fin 1), j = ix2 u v := ⟨j 0, j 1, eq_ix2 j⟩
    rw [acc1]
    refine (step1_apply V c a b ha hb ⟨0, h⟩ _ u v).trans ?_
    rw [k1_pay1_apply, zero_add, Finset.sum_range_one]
  | n + 1, h => by
    funext j
    obtain ⟨u, v, rfl⟩ : ∃ (u v : Fin 1), j = ix2 u v := ⟨j 0, j 1, eq_ix2 j⟩
    rw [acc1]
    refine (step1_apply V c a b ha hb ⟨n + 1, h⟩ _ u v).trans ?_
    rw [acc1_eq n (Nat.lt_of_succ_lt h), Finset.sum_range_succ _ (n + 1)]

end Blocks

/-- A sum over B blocks of E rows of a function of the flat position t · E + r is the sum over the B · E positions. -/
theorem pair_sum_blocks {M : Type*} [AddCommMonoid M] (B E : ℕ) (g : ℕ → M) :
    ∑ t : Fin B, ∑ r : Fin E, g (t.val * E + r.val) = ∑ p : Fin (B * E), g p.val := by
  rw [← Fintype.sum_prod_type' (f := fun (t : Fin B) (r : Fin E) => g (t.val * E + r.val)),
    ← (finProdFinEquiv (m := B) (n := E)).sum_comp fun p : Fin (B * E) => g p.val]
  refine Finset.sum_congr rfl fun q _ => congrArg g ?_
  show q.1.val * E + q.2.val = q.2.val + E * q.1.val
  rw [Nat.mul_comm, Nat.add_comm]

theorem acc1_total (V : Bufs Ideal) (c : Dev nD) (a b : Cert.Spec.SY.Idx → EReal)
    (ha : ∀ (n : Fin 4194304) (k : Fin 2), (V c main_v2 : S4194304x2.Idx → EReal) (ix2 n k) = a (ix2 n k))
    (hb : ∀ (n : Fin 4194304) (k : Fin 2), (V c main_v3 : S4194304x2.Idx → EReal) (ix2 n k) = b (ix2 n k)) :
    acc1 V c 511 last1 = fun _ => Cert.Spec.kSum2 a b := by
  rw [acc1_eq V c a b ha hb 511 last1]
  funext _
  rw [Finset.sum_range fun t => pairBlkSum a b t]
  unfold pairBlkSum
  refine (pair_sum_blocks 512 8192 (flatPair1 a b)).trans ?_
  unfold Cert.Spec.kSum2
  refine Finset.sum_congr rfl fun p _ => ?_
  unfold flatPair1
  rw [dif_pos p.isLt]

end Cert.KernelIdeal.Hand

end
-- ==== Proof.KI.Host.lean ====
import proofs.«401785_j35828617183237_2_alg».proof.Proof.KI.Data
import proofs.«401785_j35828617183237_2_alg».proof.Proof.Spec
import Idealize.ShloMosaic.Lib.Pipeline.Value
import Idealize.ShloMosaic.Lib.StableHlo.Run
set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem

/-- An index word in the range the row gather accepts: `-4194304 ≤ · < 4194304`. -/
def InRange (a : S2097152.Idx → BitVec 32) : Prop := ∀ i, -4194304 ≤ (a i).toInt ∧ (a i).toInt < 4194304

/-- Rows of `y` gathered at the joined index arrays `a ++ b`, a negative index counted from the end: the host chain
    both programs apply before their pair terms. -/
def rowsK (y : S4194304x2.Idx → EReal) (a b : S2097152.Idx → BitVec 32) : S4194304x2.Idx → EReal :=
  Host.gather gather_S4194304x2_S4194304x1_S4194304x2_1_0_n_n_0_1_12 y
    (broadcastInDim S4194304x1 ![0] bcast_S4194304_S4194304x1_0
      (select (cmpi .slt (concatenate S4194304 0 [⟨S2097152, a⟩, ⟨S2097152, b⟩] concatenates_S2097152_S2097152_S4194304_d0)
                (broadcastInDim S4194304 ![] bcast_S_S4194304 (constantI S_ 32 0#32)))
              (addi (concatenate S4194304 0 [⟨S2097152, a⟩, ⟨S2097152, b⟩] concatenates_S2097152_S2097152_S4194304_d0)
                (broadcastInDim S4194304 ![] bcast_S_S4194304 (constantI S_ 32 4194304#32)))
              (concatenate S4194304 0 [⟨S2097152, a⟩, ⟨S2097152, b⟩] concatenates_S2097152_S2097152_S4194304_d0)))

/-! ## The row gather with every index in range -/

/-- A word in `[-4194304, 4194304)`, shifted up by 4194304 when negative, lies in `[0, 4194303]`: both of the
    gather's range tests hold. -/
theorem wrap_in_range (a : BitVec 32) (h : -4194304 ≤ a.toInt ∧ a.toInt < 4194304) :
    IntOp.andi
      (IntOp.cmpi .sge (Scalar.select (IntOp.cmpi .slt a 0#32) (IntOp.addi a 4194304#32) a) 0#32)
      (IntOp.cmpi .sle (Scalar.select (IntOp.cmpi .slt a 0#32) (IntOp.addi a 4194304#32) a) 4194303#32) = 1#1 := by
  obtain ⟨h1, h2⟩ := h
  unfold IntOp.cmpi IntOp.addi IntOp.andi Scalar.select
  simp only []
  have c0 : (0#32).toInt = 0 := by decide
  have c1 : (4194304#32).toInt = 4194304 := by decide
  have c2 : (4194303#32).toInt = 4194303 := by decide
  by_cases hs : a.slt 0#32 = true
  · rw [hs]
    simp only [BitVec.ofBool_true, if_true]
    have hneg : a.toInt < 0 := by
      rw [BitVec.slt_eq_decide] at hs
      simpa using hs
    have e1 : (0#32).sle (a + 4194304#32) = true := by
      rw [BitVec.sle_eq_decide, BitVec.toInt_add]
      simp only [decide_eq_true_eq]
      rw [c0, c1, Int.bmod_eq_of_le_mul_two (by omega) (by omega)]
      omega
    have e2 : (a + 4194304#32).sle 4194303#32 = true := by
      rw [BitVec.sle_eq_decide, BitVec.toInt_add]
      simp only [decide_eq_true_eq]
      rw [c1, c2, Int.bmod_eq_of_le_mul_two (by omega) (by omega)]
      omega
    rw [e1, e2]; decide
  · have hs' : a.slt 0#32 = false := by simpa using hs
    rw [hs']
    have hnn : 0 ≤ a.toInt := by
      rw [BitVec.slt_eq_decide] at hs'
      simpa using hs'
    have e1 : (0#32).sle a = true := by
      rw [BitVec.sle_eq_decide]
      simp only [decide_eq_true_eq]
      rw [c0]; exact hnn
    have e2 : a.sle 4194303#32 = true := by
      rw [BitVec.sle_eq_decide]
      simp only [decide_eq_true_eq]
      rw [c2]; omega
    have hf : (if BitVec.ofBool false = 1 then a + 4194304#32 else a) = a := if_neg (by decide)
    rw [hf, e1, e2]; decide

/-- An `and` fold of ones, from one, is one. -/
theorem foldl_andi_one {ι : Type} (g : ι → BitVec 1) (hg : ∀ n, g n = 1#1) :
    ∀ l : List ι, l.foldl (fun r n => IntOp.andi r (g n)) 1#1 = 1#1
  | [] => rfl
  | n :: l => by
    have e : IntOp.andi 1#1 1#1 = 1#1 := by decide
    rw [List.foldl_cons, hg n, e]
    exact foldl_andi_one g hg l

/-- A reduce by `and`, from the constant one, of an array that is one everywhere is one everywhere. -/
theorem reduce_andi_one {s t : Shape} {axes : List (Fin s.rank)} (x : s.Idx → BitVec 1) (hx : ∀ i, x i = 1#1)
    (h : s.ReducesTo axes t) (j : t.Idx) :
    Host.reduce IntOp.andi x (constantI S_ 1 1#1) h h_S_ j = 1#1 := by
  unfold Host.reduce
  exact foldl_andi_one (fun n => x (s.rowMajor.symm n)) (fun n => hx _) _

/-- The gather's index column: the index words, a negative one shifted up by the row count, as one column. -/
abbrev wrapCol (x : S4194304.Idx → BitVec 32) : S4194304x1.Idx → BitVec 32 :=
  broadcastInDim S4194304x1 ![0] bcast_S4194304_S4194304x1_0
    (select (cmpi .slt x (broadcastInDim S4194304 ![] bcast_S_S4194304 (constantI S_ 32 0#32)))
      (addi x (broadcastInDim S4194304 ![] bcast_S_S4194304 (constantI S_ 32 4194304#32))) x)

section AnyFloat

variable {F : FTy → Type} [FloatOps F]

/-- The validity mask of an index column: per row, `and` over the column's one entry of "at least 0" and "at most 4194303". -/
abbrev okK (col : S4194304x1.Idx → BitVec 32) : S4194304.Idx → BitVec 1 :=
  Host.reduce IntOp.andi
    (andi (cmpi .sge col (broadcastInDim S4194304x1 ![] bcast_S_S4194304x1 (constantI S_ 32 0#32)))
      (cmpi .sle col
        (broadcastInDim S4194304x1 ![0, 1] bcast_S1x1_S4194304x1_0_1
          (broadcastInDim S1x1 ![1] bcast_S1_S1x1_1 (constantI S1 32 4194303#32)))))
    (constantI S_ 1 1#1) reducesTo_S4194304x1_S4194304_d1 h_S_

/-- The rows gathered at an index column, kept where the mask is one, the fill value elsewhere. -/
abbrev guardK (y : S4194304x2.Idx → F .f32) (col : S4194304x1.Idx → BitVec 32) (ok : S4194304.Idx → BitVec 1) :
    S4194304x2.Idx → F .f32 :=
  select (broadcastInDim S4194304x2 ![0] bcast_S4194304_S4194304x2_0 ok)
    (Host.gather gather_S4194304x2_S4194304x1_S4194304x2_1_0_n_n_0_1_12 y col)
    (broadcastInDim S4194304x2 ![] bcast_S_S4194304x2 (constant (F := F) S_ .f32 0x7FC00000#32))

/-- The guarded row gather as the program spells it, from the index words. -/
abbrev takeK (y : S4194304x2.Idx → F .f32) (x : S4194304.Idx → BitVec 32) : S4194304x2.Idx → F .f32 :=
  guardK y (wrapCol x) (okK (wrapCol x))

/-- With every index word in range the gather's validity mask is one at every row, so the guarded gather is the
    gather itself: the fill value is never chosen. -/
theorem take_in_range (y : S4194304x2.Idx → F .f32) (x : S4194304.Idx → BitVec 32)
    (hx : ∀ i, -4194304 ≤ (x i).toInt ∧ (x i).toInt < 4194304) :
    takeK y x = Host.gather gather_S4194304x2_S4194304x1_S4194304x2_1_0_n_n_0_1_12 y (wrapCol x) := by
  have hm : okK (wrapCol x) = fun _ => 1#1 := by
    funext k
    refine reduce_andi_one _ (fun i => ?_) _ k
    exact wrap_in_range (x _) (hx _)
  funext j
  show Scalar.select (broadcastInDim S4194304x2 ![0] bcast_S4194304_S4194304x2_0 (okK (wrapCol x)) j) _ _ = _
  rw [hm]
  exact if_pos rfl

/-- A run of operations is its first `n` followed by the rest. -/
theorem after_split (l : List (HloOp τ sig (Elt F))) (n : Nat) (W : Valuation τ sig (Elt F)) :
    StableHlo.after l W = StableHlo.after (l.drop n) (StableHlo.after (l.take n) W) := by
  rw [← StableHlo.after_append, List.take_append_drop]

/-- The first row gather's stretch, cut in three. Its first eight operations, over any contents, leave the index column. -/
theorem take0_A (W : Valuation τ sig (Elt F)) :
    (StableHlo.after ((hostOps0_1 : List (HloOp τ sig (Elt F))).take 8) W (Proc.devRef .tc main_call0_v5) : S4194304x1.Idx → BitVec 32)
      = wrapCol (W (Proc.devRef .tc main_v0)) := by
  simp only [hostOps0_1, List.take_succ_cons, List.take_zero]
  after_results_simp
  simp only [StableHlo.TRef.ofBuf, StableHlo.TRef.toBuf, cast_eq]

theorem take0_A_arg0 (W : Valuation τ sig (Elt F)) :
    StableHlo.after ((hostOps0_1 : List (HloOp τ sig (Elt F))).take 8) W (Proc.devRef .tc main_arg0) = W (Proc.devRef .tc main_arg0) := by
  simp only [hostOps0_1, List.take_succ_cons, List.take_zero]
  after_results_simp

/-- The next ten leave the validity mask of the column they find, and the column and the probabilities as found. -/
theorem take0_B (W : Valuation τ sig (Elt F)) :
    (StableHlo.after (((hostOps0_1 : List (HloOp τ sig (Elt F))).drop 8).take 10) W (Proc.devRef .tc main_call0_v12) : S4194304.Idx → BitVec 1)
      = okK (W (Proc.devRef .tc main_call0_v5)) := by
  simp only [hostOps0_1, List.drop_succ_cons, List.drop_zero, List.take_succ_cons, List.take_zero]
  after_results_simp
  simp only [StableHlo.TRef.ofBuf, StableHlo.TRef.toBuf, cast_eq]

theorem take0_B_v5 (W : Valuation τ sig (Elt F)) :
    StableHlo.after (((hostOps0_1 : List (HloOp τ sig (Elt F))).drop 8).take 10) W (Proc.devRef .tc main_call0_v5)
      = W (Proc.devRef .tc main_call0_v5) := by
  simp only [hostOps0_1, List.drop_succ_cons, List.drop_zero, List.take_succ_cons, List.take_zero]
  after_results_simp

theorem take0_B_arg0 (W : Valuation τ sig (Elt F)) :
    StableHlo.after (((hostOps0_1 : List (HloOp τ sig (Elt F))).drop 8).take 10) W (Proc.devRef .tc main_arg0) = W (Proc.devRef .tc main_arg0) := by
  simp only [hostOps0_1, List.drop_succ_cons, List.drop_zero, List.take_succ_cons, List.take_zero]
  after_results_simp

/-- The last five gather the rows at the column and choose by the mask. -/
theorem take0_C (W : Valuation τ sig (Elt F)) :
    (StableHlo.after (((hostOps0_1 : List (HloOp τ sig (Elt F))).drop 8).drop 10) W (Proc.devRef .tc main_v2) : S4194304x2.Idx → F .f32)
      = guardK (W (Proc.devRef .tc main_arg0)) (W (Proc.devRef .tc main_call0_v5)) (W (Proc.devRef .tc main_call0_v12)) := by
  simp only [hostOps0_1, List.drop_succ_cons, List.drop_zero]
  after_results_simp
  simp only [StableHlo.TRef.ofBuf, StableHlo.TRef.toBuf, cast_eq]

/-- The whole stretch, over any contents: its result is the guarded gather of the probabilities at the joined index array. -/
theorem take0_result (W : Valuation τ sig (Elt F)) :
    (StableHlo.after hostOps0_1 W (Proc.devRef .tc main_v2) : S4194304x2.Idx → F .f32)
      = takeK (W (Proc.devRef .tc main_arg0)) (W (Proc.devRef .tc main_v0)) := by
  rw [after_split hostOps0_1 8, after_split (List.drop 8 hostOps0_1) 10, take0_C, take0_B, take0_B_v5, take0_B_arg0, take0_A,
    take0_A_arg0]

/-- The second row gather's stretch, cut in three. Its first eight operations, over any contents, leave the index column. -/
theorem take1_A (W : Valuation τ sig (Elt F)) :
    (StableHlo.after ((hostOps0_2 : List (HloOp τ sig (Elt F))).take 8) W (Proc.devRef .tc main_call1_v5) : S4194304x1.Idx → BitVec 32)
      = wrapCol (W (Proc.devRef .tc main_v1)) := by
  simp only [hostOps0_2, List.take_succ_cons, List.take_zero]
  after_results_simp
  simp only [StableHlo.TRef.ofBuf, StableHlo.TRef.toBuf, cast_eq]

theorem take1_A_arg0 (W : Valuation τ sig (Elt F)) :
    StableHlo.after ((hostOps0_2 : List (HloOp τ sig (Elt F))).take 8) W (Proc.devRef .tc main_arg0) = W (Proc.devRef .tc main_arg0) := by
  simp only [hostOps0_2, List.take_succ_cons, List.take_zero]
  after_results_simp

/-- The next ten leave the validity mask of the column they find, and the column and the probabilities as found. -/
theorem take1_B (W : Valuation τ sig (Elt F)) :
    (StableHlo.after (((hostOps0_2 : List (HloOp τ sig (Elt F))).drop 8).take 10) W (Proc.devRef .tc main_call1_v12) : S4194304.Idx → BitVec 1)
      = okK (W (Proc.devRef .tc main_call1_v5)) := by
  simp only [hostOps0_2, List.drop_succ_cons, List.drop_zero, List.take_succ_cons, List.take_zero]
  after_results_simp
  simp only [StableHlo.TRef.ofBuf, StableHlo.TRef.toBuf, cast_eq]

theorem take1_B_v5 (W : Valuation τ sig (Elt F)) :
    StableHlo.after (((hostOps0_2 : List (HloOp τ sig (Elt F))).drop 8).take 10) W (Proc.devRef .tc main_call1_v5)
      = W (Proc.devRef .tc main_call1_v5) := by
  simp only [hostOps0_2, List.drop_succ_cons, List.drop_zero, List.take_succ_cons, List.take_zero]
  after_results_simp

theorem take1_B_arg0 (W : Valuation τ sig (Elt F)) :
    StableHlo.after (((hostOps0_2 : List (HloOp τ sig (Elt F))).drop 8).take 10) W (Proc.devRef .tc main_arg0) = W (Proc.devRef .tc main_arg0) := by
  simp only [hostOps0_2, List.drop_succ_cons, List.drop_zero, List.take_succ_cons, List.take_zero]
  after_results_simp

/-- The last five gather the rows at the column and choose by the mask. -/
theorem take1_C (W : Valuation τ sig (Elt F)) :
    (StableHlo.after (((hostOps0_2 : List (HloOp τ sig (Elt F))).drop 8).drop 10) W (Proc.devRef .tc main_v3) : S4194304x2.Idx → F .f32)
      = guardK (W (Proc.devRef .tc main_arg0)) (W (Proc.devRef .tc main_call1_v5)) (W (Proc.devRef .tc main_call1_v12)) := by
  simp only [hostOps0_2, List.drop_succ_cons, List.drop_zero]
  after_results_simp
  simp only [StableHlo.TRef.ofBuf, StableHlo.TRef.toBuf, cast_eq]

/-- The whole stretch, over any contents: its result is the guarded gather of the probabilities at the joined index array. -/
theorem take1_result (W : Valuation τ sig (Elt F)) :
    (StableHlo.after hostOps0_2 W (Proc.devRef .tc main_v3) : S4194304x2.Idx → F .f32)
      = takeK (W (Proc.devRef .tc main_arg0)) (W (Proc.devRef .tc main_v1)) := by
  rw [after_split hostOps0_2 8, after_split (List.drop 8 hostOps0_2) 10, take1_C, take1_B, take1_B_v5, take1_B_arg0, take1_A,
    take1_A_arg0]

end AnyFloat

/-- Two index arrays in range, joined, are in range: a row of the joined array is a row of one of the two. -/
theorem inRange_concat (a b : S2097152.Idx → BitVec 32) (ha : InRange a) (hb : InRange b) (i : S4194304.Idx) :
    -4194304 ≤ (concatenate S4194304 0 [⟨S2097152, a⟩, ⟨S2097152, b⟩] concatenates_S2097152_S2097152_S4194304_d0 i).toInt
      ∧ (concatenate S4194304 0 [⟨S2097152, a⟩, ⟨S2097152, b⟩] concatenates_S2097152_S2097152_S4194304_d0 i).toInt < 4194304 := by
  have hi : (i 0).val < 4194304 := (i 0).isLt
  by_cases hlt : (i 0).val < 2097152
  · rw [concatenate_pair_apply_left (0 : Fin S4194304.rank) a b concatenates_S2097152_S2097152_S4194304_d0 i rfl
        (ix1 ⟨(i 0).val, hlt⟩) (fun d => match d with | ⟨0, _⟩ => rfl)]
    exact ha _
  · have hge : 2097152 ≤ (i 0).val := Nat.le_of_not_lt hlt
    rw [concatenate_pair_apply_right (0 : Fin S4194304.rank) a b concatenates_S2097152_S2097152_S4194304_d0 i rfl rfl
        (ix1 ⟨(i 0).val - 2097152, by omega⟩) (fun d hd => absurd (Subsingleton.elim _ _) hd)
        (by show (i 0).val - 2097152 + 2097152 = (i 0).val; omega)]
    exact hb _

variable (m : (ℓ : Loc nD τ sig) → Buf (Elt Ideal) ℓ)

/-- The first region reads the probabilities as launched. -/
theorem vin0_arg0 (c : Dev nD) : Vin0 m c main_arg0 = m ((c : Thread nD τ).loc main_arg0) :=
  (V4_of m c main_arg0 (by decide)).trans <| (V3_of m c main_arg0 (by decide)).trans <|
    (V2_of m c main_arg0 (by decide)).trans <| (V1_of m c main_arg0 (by decide)).trans rfl

/-- The first region's label column is the label vector, row by row. -/
theorem vin0_v4 (c : Dev nD) (n : Fin 4194304) :
    (Vin0 m c main_v4 : S4194304x1.Idx → BitVec 32) (ix2 n (0 : Fin 1))
      = (m ((c : Thread nD τ).loc main_arg1) : S4194304.Idx → BitVec 32) (ix1 n) := by
  have e : (V4 m c main_v4 : S4194304x1.Idx → BitVec 32)
      = shapeCast S4194304x1 (V3 m c main_arg1 : S4194304.Idx → BitVec 32) shapeCasts_S4194304_S4194304x1 := by
    show StableHlo.after hostOps0_3 (V3 m c) (Proc.devRef .tc main_v4) = _
    after_results
    rfl
  have a1 : V3 m c main_arg1 = m ((c : Thread nD τ).loc main_arg1) :=
    (V3_of m c main_arg1 (by decide)).trans <| (V2_of m c main_arg1 (by decide)).trans <|
      (V1_of m c main_arg1 (by decide)).trans rfl
  show (V4 m c main_v4 : S4194304x1.Idx → BitVec 32) (ix2 n (0 : Fin 1)) = _
  rw [e, a1]
  refine shapeCast_apply _ _ _ _ ?_
  show ((⟨1, ![4194304]⟩ : Shape).rowMajor (ix1 n)).val = ((⟨2, ![4194304, 1]⟩ : Shape).rowMajor (ix2 n (0 : Fin 1))).val
  rw [Shape.rowMajor_val_one, Shape.rowMajor_val_two]
  show n.val = n.val * 1 + 0
  omega

/-- With every index in range, the second region's first operand is the gathered rows (the out-of-range fill never binds). -/
theorem vin1_v2 (c : Dev nD) (h2 : InRange (m ((c : Thread nD τ).loc main_arg2))) (h4 : InRange (m ((c : Thread nD τ).loc main_arg4))) :
    (Vin1 m c main_v2 : S4194304x2.Idx → EReal)
      = rowsK (m ((c : Thread nD τ).loc main_arg0)) (m ((c : Thread nD τ).loc main_arg2)) (m ((c : Thread nD τ).loc main_arg4)) := by
  have e0 : (V1 m c main_v0 : S4194304.Idx → BitVec 32)
      = concatenate S4194304 0 [⟨S2097152, m ((c : Thread nD τ).loc main_arg2)⟩, ⟨S2097152, m ((c : Thread nD τ).loc main_arg4)⟩]
          concatenates_S2097152_S2097152_S4194304_d0 := by
    show StableHlo.after hostOps0 (V0 m c) (Proc.devRef .tc main_v0) = _
    after_results
  have a0 : V1 m c main_arg0 = m ((c : Thread nD τ).loc main_arg0) := (V1_of m c main_arg0 (by decide)).trans rfl
  have e : (V2 m c main_v2 : S4194304x2.Idx → EReal) = takeK (F := Ideal) (V1 m c main_arg0) (V1 m c main_v0) :=
    take0_result (F := Ideal) (V1 m c)
  show (V6 m (outsA m) c main_v2 : S4194304x2.Idx → EReal) = _
  rw [V6_of m (outsA m) c main_v2 (by decide), V5_of m (outsA m) c main_v2 (by decide), V4_of m c main_v2 (by decide),
    V3_of m c main_v2 (by decide), e, e0, a0]
  exact take_in_range _ _ (inRange_concat _ _ h2 h4)

theorem vin1_v3 (c : Dev nD) (h3 : InRange (m ((c : Thread nD τ).loc main_arg3))) (h5 : InRange (m ((c : Thread nD τ).loc main_arg5))) :
    (Vin1 m c main_v3 : S4194304x2.Idx → EReal)
      = rowsK (m ((c : Thread nD τ).loc main_arg0)) (m ((c : Thread nD τ).loc main_arg3)) (m ((c : Thread nD τ).loc main_arg5)) := by
  have e1 : (V2 m c main_v1 : S4194304.Idx → BitVec 32)
      = concatenate S4194304 0 [⟨S2097152, m ((c : Thread nD τ).loc main_arg3)⟩, ⟨S2097152, m ((c : Thread nD τ).loc main_arg5)⟩]
          concatenates_S2097152_S2097152_S4194304_d0 := by
    rw [V2_of m c main_v1 (by decide)]
    show StableHlo.after hostOps0 (V0 m c) (Proc.devRef .tc main_v1) = _
    after_results
  have a0 : V2 m c main_arg0 = m ((c : Thread nD τ).loc main_arg0) :=
    (V2_of m c main_arg0 (by decide)).trans <| (V1_of m c main_arg0 (by decide)).trans rfl
  have e : (V3 m c main_v3 : S4194304x2.Idx → EReal) = takeK (F := Ideal) (V2 m c main_arg0) (V2 m c main_v1) :=
    take1_result (F := Ideal) (V2 m c)
  show (V6 m (outsA m) c main_v3 : S4194304x2.Idx → EReal) = _
  rw [V6_of m (outsA m) c main_v3 (by decide), V5_of m (outsA m) c main_v3 (by decide), V4_of m c main_v3 (by decide),
    e, e1, a0]
  exact take_in_range _ _ (inRange_concat _ _ h3 h5)

end Cert.KernelIdeal.Hand

end
-- ==== Proof.KI.HostEnd.lean ====
import proofs.«401785_j35828617183237_2_alg».proof.Proof.KI.Data
import proofs.«401785_j35828617183237_2_alg».proof.Proof.Spec
import Idealize.ShloMosaic.Lib.Pipeline.Value
import Idealize.ShloMosaic.Lib.StableHlo.Run
set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem

open Idealize.ShloMosaic.StableHlo

variable (m : (ℓ : Loc nD τ sig) → Buf (Elt Ideal) ℓ)

/-- A 1×1 array reshaped to a scalar holds the array's one entry. -/
theorem cast11 (A : S1x1.Idx → EReal) (h : S1x1.ShapeCasts S_) (i : S_.Idx) :
    shapeCast S_ A h i = A (ix2 (0 : Fin 1) (0 : Fin 1)) := by
  refine shapeCast_apply A h i _ ?_
  have h1 : (S1x1.rowMajor (ix2 (0 : Fin 1) (0 : Fin 1))).val < 1 := (S1x1.rowMajor _).isLt
  have h2 : (S_.rowMajor i).val < 1 := (S_.rowMajor i).isLt
  omega

/-- The first region's result as the second host stretch reshapes it. -/
theorem v6_eq (c : Dev nD) :
    (V7 m (outsS m) c (Proc.devRef .tc main_v6) : S_.Idx → EReal)
      = fun _ => (exit0 m c (Proc.devRef .tc main_v5) : S1x1.Idx → EReal) (ix2 (0 : Fin 1) (0 : Fin 1)) := by
  rw [show V7 m (outsS m) c (Proc.devRef .tc main_v6) = V6 m (outsS m) c main_v6 from V7_of m (outsS m) c main_v6 (by decide)]
  show StableHlo.after hostOps1 (V5 m (outsS m) c) (Proc.devRef .tc main_v6) = _
  after_results
  funext i
  show shapeCast S_ (V5 m (outsS m) c (Proc.devRef .tc main_v5) : S1x1.Idx → EReal) shapeCasts_S1x1_S_ i = _
  rw [cast11]
  show (Function.update (V4 m c) (Proc.devRef .tc main_v5) (outsS m 5 main_v5 c) (Proc.devRef .tc main_v5) : S1x1.Idx → EReal) _ = _
  rw [Function.update_self]
  rfl

/-- The second region's result, as the last valuation before the closing host stretch holds it. -/
theorem v7_eq (c : Dev nD) :
    (V7 m (outsS m) c (Proc.devRef .tc main_v7) : S1x1.Idx → EReal) = (exit1 m c (Proc.devRef .tc main_v7) : S1x1.Idx → EReal) := by
  show (Function.update (V6 m (outsS m) c) (Proc.devRef .tc main_v7) (outsS m 7 main_v7 c) (Proc.devRef .tc main_v7) : S1x1.Idx → EReal) = _
  rw [Function.update_self]
  rfl

/-- The program's result from the two regions' results: each divided by its count, times one, added. -/
theorem result_eq (c : Dev nD) :
    (result m c : S_.Idx → EReal) = fun _ =>
      Ideal.div ((exit0 m c (Proc.devRef .tc main_v5) : S1x1.Idx → EReal) (ix2 (0 : Fin 1) (0 : Fin 1))) Cert.Spec.nEntries * Cert.Spec.one
      + Ideal.div ((exit1 m c (Proc.devRef .tc main_v7) : S1x1.Idx → EReal) (ix2 (0 : Fin 1) (0 : Fin 1))) Cert.Spec.nPairs * Cert.Spec.one := by
  show StableHlo.after hostOps2 (V7 m (outsS m) c) (Proc.devRef .tc main_v13) = _
  after_results
  rw [v6_eq m c]
  funext i
  simp only [addf, mulf, Host.divf, constant, Ideal.addf_def, Ideal.mulf_def, Ideal.hostDivf_def, Ideal.ofBits_def]
  show Ideal.div _ _ * _ + Ideal.div (shapeCast S_ (V7 m (outsS m) c (Proc.devRef .tc main_v7) : S1x1.Idx → EReal) shapeCasts_S1x1_S_ i) _ * _ = _
  rw [cast11, v7_eq m c]
  rfl

end Cert.KernelIdeal.Hand

end
-- ==== Proof.KI.Value.lean ====
/-
  The tiled program's result as the specification's tiled grouping: each region's result array is the running sum after its
  last block, that sum is the closed double sum over all rows, and @main's last host operations divide each by its count,
  multiply by one and add.
-/
import proofs.«401785_j35828617183237_2_alg».proof.Proof.KI.Segs
import proofs.«401785_j35828617183237_2_alg».proof.Proof.KI.Final0
import proofs.«401785_j35828617183237_2_alg».proof.Proof.KI.Final1
import proofs.«401785_j35828617183237_2_alg».proof.Proof.KI.Sum0
import proofs.«401785_j35828617183237_2_alg».proof.Proof.KI.Sum1
import proofs.«401785_j35828617183237_2_alg».proof.Proof.KI.Host
import proofs.«401785_j35828617183237_2_alg».proof.Proof.KI.HostEnd

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ)

/-- The first region's result array is the first running sum after the last block. -/
theorem exit0_v5 (c : Dev nD) : (exit0 m c (Proc.devRef .tc main_v5) : S1x1.Idx → EReal) = acc0 (Vin0 m) c 511 last0 :=
  (exit0_arr m c 2).trans (final0 (Vin0 m) c)
/-- The second region's result array is the second running sum after the last block. -/
theorem exit1_v7 (c : Dev nD) : (exit1 m c (Proc.devRef .tc main_v7) : S1x1.Idx → EReal) = acc1 (Vin1 m) c 511 last1 :=
  (exit1_arr m c 2).trans (final1 (Vin1 m) c)

/-- With every gather index in range, the program's result is the specification's tiled grouping of the probabilities,
    the labels and the two gathered row arrays. -/
theorem kernel_value (c : Dev nD)
    (h2 : InRange (m ((c : Thread nD τ).loc main_arg2))) (h3 : InRange (m ((c : Thread nD τ).loc main_arg3)))
    (h4 : InRange (m ((c : Thread nD τ).loc main_arg4))) (h5 : InRange (m ((c : Thread nD τ).loc main_arg5))) :
    (result m c : S_.Idx → EReal) = fun _ =>
      Cert.Spec.kernelVal (m ((c : Thread nD τ).loc main_arg0)) (m ((c : Thread nD τ).loc main_arg1))
        (rowsK (m ((c : Thread nD τ).loc main_arg0)) (m ((c : Thread nD τ).loc main_arg2)) (m ((c : Thread nD τ).loc main_arg4)))
        (rowsK (m ((c : Thread nD τ).loc main_arg0)) (m ((c : Thread nD τ).loc main_arg3)) (m ((c : Thread nD τ).loc main_arg5))) := by
  rw [result_eq m c]
  funext _
  have e0 : (exit0 m c (Proc.devRef .tc main_v5) : S1x1.Idx → EReal) (ix2 (0 : Fin 1) (0 : Fin 1))
      = Cert.Spec.kSum1 (m ((c : Thread nD τ).loc main_arg0)) (m ((c : Thread nD τ).loc main_arg1)) := by
    rw [exit0_v5, acc0_total (Vin0 m) c (m ((c : Thread nD τ).loc main_arg0)) (m ((c : Thread nD τ).loc main_arg1))
      (fun n k => by rw [vin0_arg0 m c]) (fun n => vin0_v4 m c n)]
  have e1 : (exit1 m c (Proc.devRef .tc main_v7) : S1x1.Idx → EReal) (ix2 (0 : Fin 1) (0 : Fin 1))
      = Cert.Spec.kSum2 (rowsK (m ((c : Thread nD τ).loc main_arg0)) (m ((c : Thread nD τ).loc main_arg2)) (m ((c : Thread nD τ).loc main_arg4)))
          (rowsK (m ((c : Thread nD τ).loc main_arg0)) (m ((c : Thread nD τ).loc main_arg3)) (m ((c : Thread nD τ).loc main_arg5))) := by
    rw [exit1_v7, acc1_total (Vin1 m) c _ _ (fun n k => by rw [vin1_v2 m c h2 h4]) (fun n k => by rw [vin1_v3 m c h3 h5])]
  rw [e0, e1]
  rfl

end Cert.KernelIdeal.Hand

end
-- ==== Proof.SpecLaw.lean ====
import proofs.«401785_j35828617183237_2_alg».proof.Proof.Spec
import Mathlib.Data.EReal.Inv
import Mathlib.Analysis.SpecialFunctions.Sqrt
import Mathlib.Algebra.BigOperators.Group.Finset.Basic
import Mathlib.Algebra.Order.BigOperators.Group.Finset

/-
  The two groupings of `Spec.lean` agree.

  Pair part.  A square `x * x` is nonnegative for every extended real (`⊥ * ⊥ = ⊤`), so the squared distance `d²`
  is nonnegative, and for nonnegative `d²` (a nonnegative real, or `⊤`) one has `√d² · √d² = d²`.  On the first
  half of the pairs the label is `0` and `(1 − 0) · d² + 0 · h = d²`; on the second half it is `1` and
  `(1 − 1) · d² + 1 · h = h` (`0 · x = 0` for every extended real `x`).

  Entry part.  For a real probability `y` and a target `t ∈ {0, 1}` the cross-entropy term is `log y` or
  `log (1 − y)`, never `⊤`.  Negation is additive over a sum none of whose terms is `⊤` (no `⊤ + ⊥` can arise), so
  `Σ (−A + M) = −Σ A + Σ M`; and multiplication by the nonnegative finite constant `1/8388608` distributes over
  any sum of two extended reals.
-/

noncomputable section

open scoped BigOperators

namespace Cert.Spec

open Idealize.ShloMosaic Idealize.ShloMosaic.ValueIdx

/-! ## The constants -/

theorem zero_eq : zero = 0 := by
  unfold zero; simp [Ideal.ofBits, Ideal.ieee]

theorem one_eq : one = 1 := by
  unfold one; simp [Ideal.ofBits, Ideal.ieee, -EReal.coe_mul]; norm_num

theorem nEntries_eq : nEntries = ((8388608 : ℝ) : EReal) := by
  unfold nEntries; simp [Ideal.ofBits, Ideal.ieee, -EReal.coe_mul]

theorem nPairs_eq : nPairs = ((4194304 : ℝ) : EReal) := by
  unfold nPairs; simp [Ideal.ofBits, Ideal.ieee, -EReal.coe_mul]; norm_num

/-! ## The pair part -/

theorem one_sub_one : (1 : EReal) - 1 = 0 := by
  rw [← EReal.coe_one, ← EReal.coe_sub, sub_self, EReal.coe_zero]

/-- A square is nonnegative on the extended reals: `⊥ * ⊥ = ⊤ * ⊤ = ⊤`. -/
theorem mul_self_nonneg_ereal (x : EReal) : 0 ≤ x * x := by
  rw [EReal.mul_nonneg_iff]
  rcases le_total 0 x with h | h
  · exact Or.inl ⟨h, h⟩
  · exact Or.inr ⟨h, h⟩

theorem dist2_nonneg (a b : SY.Idx → EReal) (p : Fin 4194304) : 0 ≤ dist2 a b p :=
  Finset.sum_nonneg fun _ _ => mul_self_nonneg_ereal _

/-- The square root squares back on `[0, ⊤]`. -/
theorem sqrt_mul_self {d : EReal} (h : 0 ≤ d) : Ideal.sqrt d * Ideal.sqrt d = d := by
  induction d using EReal.rec with
  | bot => exact absurd h (by simp)
  | top => simp
  | coe r =>
    have hr : 0 ≤ r := by exact_mod_cast h
    rw [Ideal.sqrt_coe, if_neg (not_lt.mpr hr), ← EReal.coe_mul, Real.mul_self_sqrt hr]

theorem pair_eq (a b : SY.Idx → EReal) (p : Fin 4194304) : kPair a b p = rPair a b p := by
  unfold kPair rPair label
  by_cases h : p.val < 2097152
  · rw [if_neg (by omega), if_pos h, zero_eq, sub_zero, one_eq, one_mul, zero_mul, add_zero,
      sqrt_mul_self (dist2_nonneg a b p)]
  · rw [if_pos (by omega), if_neg h, one_eq, one_sub_one, zero_mul,
      zero_add, one_mul]

/-! ## The entry part -/

/-- A sum with no `⊤` term is not `⊤`. -/
theorem sum_ne_top {ι : Type*} (s : Finset ι) (A : ι → EReal) (hA : ∀ i ∈ s, A i ≠ ⊤) : ∑ i ∈ s, A i ≠ ⊤ := by
  classical
  induction s using Finset.induction_on with
  | empty => simp
  | insert j s hj ih =>
    rw [Finset.sum_insert hj]
    exact EReal.add_ne_top (hA j (Finset.mem_insert_self j s)) (ih fun i hi => hA i (Finset.mem_insert_of_mem hi))

/-- Negation is additive over a sum with no `⊤` term. -/
theorem sum_neg {ι : Type*} (s : Finset ι) (A : ι → EReal) (hA : ∀ i ∈ s, A i ≠ ⊤) :
    ∑ i ∈ s, -A i = -∑ i ∈ s, A i := by
  classical
  induction s using Finset.induction_on with
  | empty => simp
  | insert j s hj ih =>
    have hs : ∀ i ∈ s, A i ≠ ⊤ := fun i hi => hA i (Finset.mem_insert_of_mem hi)
    rw [Finset.sum_insert hj, Finset.sum_insert hj, ih hs,
      EReal.neg_add (Or.inr (sum_ne_top s A hs)) (Or.inl (hA j (Finset.mem_insert_self j s))), sub_eq_add_neg]

theorem sum_neg_add {ι : Type*} (s : Finset ι) (A M : ι → EReal) (hA : ∀ i ∈ s, A i ≠ ⊤) :
    ∑ i ∈ s, (-A i + M i) = -(∑ i ∈ s, A i) + ∑ i ∈ s, M i := by
  rw [Finset.sum_add_distrib, sum_neg s A hA]

/-- The logarithm of a real is `⊥` or a real. -/
theorem log_coe_ne_top (r : ℝ) : Ideal.log (r : EReal) ≠ ⊤ := by
  rw [Ideal.log_coe]
  split_ifs
  · exact bot_ne_top
  · exact EReal.coe_ne_top _

/-- The cross-entropy term of a real probability against a one-hot target is never `⊤`. -/
theorem bceT_ne_top (w : BitVec 32) (k : Fin 2) (r : ℝ) : bceT (tgt w k) (r : EReal) (-(r : EReal)) ≠ ⊤ := by
  unfold bceT tgt
  split_ifs
  · rw [one_eq, one_mul, one_sub_one, zero_mul, add_zero]
    exact log_coe_ne_top r
  · rw [one_eq, zero_mul, sub_zero, one_mul, zero_add, Ideal.log1p, ← EReal.coe_neg, ← EReal.coe_one,
      ← EReal.coe_add]
    exact log_coe_ne_top _

theorem kT_eq (t y : EReal) : kT t y = -bceT t y (-y) + mseT t y := by
  simp only [kT, zero_eq, zero_sub]

theorem kSum1_eq (y : SY.Idx → EReal) (l : SL.Idx → BitVec 32) (hy : ∀ i, ∃ r : ℝ, y i = (r : EReal)) :
    kSum1 y l = -(rSumA y l) + rSumM y l := by
  unfold kSum1 rSumA rSumM
  rw [← Fintype.sum_prod_type', ← Fintype.sum_prod_type', ← Fintype.sum_prod_type']
  simp only [kT_eq]
  refine sum_neg_add Finset.univ _ _ fun i _ => ?_
  obtain ⟨r, hr⟩ := hy (ix2 i.1 i.2)
  rw [hr]
  exact bceT_ne_top _ _ r

theorem entry_eq (y : SY.Idx → EReal) (l : SL.Idx → BitVec 32) (hy : ∀ i, ∃ r : ℝ, y i = (r : EReal)) :
    Ideal.div (kSum1 y l) nEntries * one
      = (-(Ideal.div (rSumA y l) nEntries)) * one + Ideal.div (rSumM y l) nEntries * one := by
  have hc : (8388608 : ℝ) ≠ 0 := by norm_num
  have h0 : (0 : EReal) ≤ ((1 / 8388608 : ℝ) : EReal) := EReal.coe_nonneg.mpr (by norm_num)
  rw [kSum1_eq y l hy, one_eq, nEntries_eq, Ideal.div_coe hc, Ideal.div_coe hc, Ideal.div_coe hc, mul_one, mul_one,
    mul_one, EReal.right_distrib_of_nonneg_of_ne_top h0 (EReal.coe_ne_top _), EReal.neg_mul]

/-! ## The law -/

theorem law (y : SY.Idx → EReal) (l : SL.Idx → BitVec 32) (a b : SY.Idx → EReal)
    (hy : ∀ i, ∃ r : ℝ, y i = (r : EReal)) : kernelVal y l a b = refVal y l a b := by
  have h2 : kSum2 a b = rSumC a b := Finset.sum_congr rfl fun p _ => pair_eq a b p
  unfold kernelVal refVal
  rw [entry_eq y l hy, h2]

end Cert.Spec

end
-- ==== Proof.LibPreDecode.lean ====
/-
  Reading a printed precondition back. The predicate is a conjunction of one-bit scalars, each the "all" of an array
  of comparison bits. A conjunction that is one has both conjuncts one; an "all" that is one has every bit one; the
  bit of `|x| < +∞` being one says that the extended real `x` is a real number; the bit of a signed comparison of a
  word with a constant being one is the inequality between their signed values.
-/
import Idealize.ShloMosaic.Lib.ReduceAll
import Idealize.ShloMosaic.PureOps.Ideal

namespace Cert.PreDecode

open Idealize.ShloMosaic

variable {s u : Shape} {ax : List (Fin s.rank)}

/-- The shape of a scalar has exactly one index. -/
instance scalarIdxSubsingleton : Subsingleton (⟨0, ![]⟩ : Shape).Idx := ⟨fun _ _ => funext fun d => d.elim0⟩

/-- If the elementwise `and` of two one-bit arrays is one everywhere, the first array is one everywhere. -/
theorem andi_left {a b : IVec s 1} (h : andi a b = fun _ => 1#1) : a = fun _ => 1#1 :=
  funext fun i => (IntOp.andi_eq_one.1 (congrFun h i)).1

/-- If the elementwise `and` of two one-bit arrays is one everywhere, the second array is one everywhere. -/
theorem andi_right {a b : IVec s 1} (h : andi a b = fun _ => 1#1) : b = fun _ => 1#1 :=
  funext fun i => (IntOp.andi_eq_one.1 (congrFun h i)).2

/-- An "all" (a reduction by `and` over every axis, down to a scalar) that is one: every bit reduced is one. -/
theorem all_of_reduce (p : IVec s 1) (init : IVec u 1) (hr : s.ReducesTo ax ⟨0, ![]⟩) (hu : 0 < u.numel)
    (h : Host.reduce IntOp.andi p init hr hu = fun _ => 1#1) (i : s.Idx) : p i = 1#1 :=
  Host.reduce_andi_all p init hr hu (fun a => a.elim0) (congrFun h _) i

/-- An extended real whose absolute value `max x (-x)` is below `+∞` (the value of the pattern `0x7F800000`) is a real
    number: both infinities have absolute value `+∞`. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- The finiteness test of a float array, `all (|x| < +∞)`, came out one: every entry of `x` is a real number. -/
theorem allReal_of_reduce (x : FVec Ideal s .f32) (hb : (⟨0, ![]⟩ : Shape).BroadcastsInDim s ![]) (init : IVec u 1)
    (hr : s.ReducesTo ax ⟨0, ![]⟩) (hu : 0 < u.numel)
    (h : Host.reduce IntOp.andi
        (cmpf .olt (Host.absf x) (broadcastInDim s ![] hb (constant (F := Ideal) ⟨0, ![]⟩ .f32 0x7F800000#32))) init hr hu
      = fun _ => 1#1) (i : s.Idx) : ∃ r : ℝ, x i = (r : EReal) :=
  real_of_abs_lt_inf (x i) (all_of_reduce _ init hr hu h i)

/-- `all (x ≥ c)`, signed, for a constant word `c`, came out one: every word of `x` is at least `c`. -/
theorem sge_of_reduce (x : IVec s 32) (c : BitVec 32) (hb : (⟨0, ![]⟩ : Shape).BroadcastsInDim s ![]) (init : IVec u 1)
    (hr : s.ReducesTo ax ⟨0, ![]⟩) (hu : 0 < u.numel)
    (h : Host.reduce IntOp.andi (cmpi .sge x (broadcastInDim s ![] hb (constantI ⟨0, ![]⟩ 32 c))) init hr hu
      = fun _ => 1#1) (i : s.Idx) : c.toInt ≤ (x i).toInt :=
  IntOp.cmpi_sge.1 (all_of_reduce _ init hr hu h i)

/-- `all (x < c)`, signed, for a constant word `c`, came out one: every word of `x` is below `c`. -/
theorem slt_of_reduce (x : IVec s 32) (c : BitVec 32) (hb : (⟨0, ![]⟩ : Shape).BroadcastsInDim s ![]) (init : IVec u 1)
    (hr : s.ReducesTo ax ⟨0, ![]⟩) (hu : 0 < u.numel)
    (h : Host.reduce IntOp.andi (cmpi .slt x (broadcastInDim s ![] hb (constantI ⟨0, ![]⟩ 32 c))) init hr hu
      = fun _ => 1#1) (i : s.Idx) : (x i).toInt < c.toInt :=
  IntOp.cmpi_slt.1 (all_of_reduce _ init hr hu h i)

end Cert.PreDecode
-- ==== Proof.PreFacts.lean ====
/-
  The printed precondition of this unit, read back as facts about its arguments: every entry of the float array is a
  real number, and every word of each of the four index arrays, read as a signed integer, lies in `[-2^22, 2^22)`.
-/
import proofs.«401785_j35828617183237_2_alg».proof.Pre_finite_inputs
import proofs.«401785_j35828617183237_2_alg».proof.Proof.Gen.Pre_finite_inputs
import proofs.«401785_j35828617183237_2_alg».proof.Proof.LibPreDecode
import Idealize.ShloMosaic.Lib.ReduceAll
import Idealize.ShloMosaic.Lib.StableHlo.Predicate
import Idealize.ShloMosaic.PureOps.Ideal

namespace Cert.PreFacts

open Idealize.ShloMosaic Cert.Pre_finite_inputs Cert.PreDecode

/-- Every word of the index array, read as a signed integer, lies in `[-4194304, 4194304)`. -/
def InRange (a : Cert.Pre_finite_inputs.S2097152.Idx → BitVec 32) : Prop :=
  ∀ i, -4194304 ≤ (a i).toInt ∧ (a i).toInt < 4194304

/-- The word `4290772992` is the two's-complement pattern of `-4194304 = -2^22`. -/
theorem lo_toInt : (4290772992#32 : BitVec 32).toInt = -4194304 := by decide

/-- The word `4194304 = 2^22` is its own signed value. -/
theorem hi_toInt : (4194304#32 : BitVec 32).toInt = 4194304 := by decide

/-- One range test of the predicate: `all (a ≥ -2^22 ∧ a < 2^22)`, both comparisons signed and against a broadcast
    constant, came out one. Then every bit reduced is one, a bit that is the `and` of two comparison bits has both of
    them one, and each comparison bit being one is the inequality of signed values. -/
theorem inRange_of_reduce (a : IVec S2097152 32) (init : IVec S_ 1)
    (hb₁ hb₂ : S_.BroadcastsInDim S2097152 ![]) (hr : S2097152.ReducesTo [0] S_) (hu : 0 < S_.numel)
    (h : Host.reduce IntOp.andi
        (andi (cmpi .sge a (broadcastInDim S2097152 ![] hb₁ (constantI S_ 32 4290772992#32)))
              (cmpi .slt a (broadcastInDim S2097152 ![] hb₂ (constantI S_ 32 4194304#32)))) init hr hu
      = fun _ => 1#1) : InRange a := by
  intro i
  obtain ⟨hge, hlt⟩ := IntOp.andi_eq_one.1 (all_of_reduce _ init hr hu h i)
  have hlo : (4290772992#32 : BitVec 32).toInt ≤ (a i).toInt := IntOp.cmpi_sge.1 hge
  have hhi : (a i).toInt < (4194304#32 : BitVec 32).toInt := IntOp.cmpi_slt.1 hlt
  rw [lo_toInt] at hlo
  rw [hi_toInt] at hhi
  exact ⟨hlo, hhi⟩

/-- The printed precondition decoded. It is the conjunction, as one-bit scalars, of five "all"s: the finiteness test
    `all (|y| < +∞)` and one range test per index array. The predicate being one makes each conjunct one; the first says
    that every entry of `y` is a real number, the other four are the signed ranges. The array `l` is not tested. -/
theorem of_pre (y : Cert.Pre_finite_inputs.S4194304x2.Idx → EReal) (l : Cert.Pre_finite_inputs.S4194304.Idx → BitVec 32)
    (i2 i3 i4 i5 : Cert.Pre_finite_inputs.S2097152.Idx → BitVec 32)
    (h : Cert.Pre_finite_inputs.fn (F := Ideal) y l i2 i3 i4 i5 = fun _ => 1#1) :
    (∀ i, ∃ r : ℝ, y i = (r : EReal)) ∧ InRange i2 ∧ InRange i3 ∧ InRange i4 ∧ InRange i5 := by
  dsimp only [Cert.Pre_finite_inputs.fn, Cert.Pre_finite_inputs.fn_part1] at h
  have h5 := andi_right h
  have h4 := andi_right (andi_left h)
  have h3 := andi_right (andi_left (andi_left h))
  have h2 := andi_right (andi_left (andi_left (andi_left h)))
  have h1 := andi_left (andi_left (andi_left (andi_left h)))
  exact ⟨allReal_of_reduce y _ _ _ _ h1, inRange_of_reduce i2 _ _ _ _ _ h2, inRange_of_reduce i3 _ _ _ _ _ h3,
    inRange_of_reduce i4 _ _ _ _ _ h4, inRange_of_reduce i5 _ _ _ _ _ h5⟩

end Cert.PreFacts
-- ==== Proof.RefValue.lean ====
import proofs.«401785_j35828617183237_2_alg».proof.Proof.Spec
import proofs.«401785_j35828617183237_2_alg».proof.Proof.Gen.ReferenceIdeal.Run
import proofs.«401785_j35828617183237_2_alg».proof.Proof.Gen.ReferenceIdeal.Read
import Idealize.ShloMosaic.Lib.ValueIdxRank1
import Idealize.ShloMosaic.Lib.StableHlo.Predicate

/-
  The array program's result, read operation by operation at the exact instance, is the specification's refVal of
  the probabilities, the label words and the two gathered row arrays (which stay opaque here).

  Three means make up the result. Each full sum over a rank-2 index set is split into the double sum over rows and
  classes; the sum over pairs is re-indexed by the pair's number. Under the sums every operation is pointwise, so the
  summand at (n, k) (or at pair p) is read off directly:
    * the one-hot target is the unsigned reading of the bit "label n = k", which is 1 or 0;
    * the pair-label vector is a concatenation of a block of zeros and a block of ones, so it is 0 below the midpoint
      and 1 from it on;
    * each sum starts from the zero word, which is 0, and 0 + s = s.
-/

noncomputable section

open scoped BigOperators

namespace Cert.RefValue

open Idealize.ShloMosaic Idealize.ShloMosaic.ValueIdx Idealize.ShloMosaic.StableHlo
open Idealize.ShloMosaic.StableHlo.Predicate (cmpi_eq_iff)
open Cert.ReferenceIdeal Cert.ReferenceIdeal.Read

/-- A sum over a rank-1 index set is the sum over its coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## The one-hot target -/

/-- The unsigned reading of a one-bit word that is set, and of one that is clear. -/
theorem uitofp_one : FloatOps.uitofp (F := Ideal) .f32 (1#1) = (1 : EReal) := by
  show (((1#1 : BitVec 1).toNat : ℝ) : EReal) = 1
  simp

theorem uitofp_zero : FloatOps.uitofp (F := Ideal) .f32 (0#1) = (0 : EReal) := by
  show (((0#1 : BitVec 1).toNat : ℝ) : EReal) = 0
  simp

theorem v0_at (x1 : S4194304.Idx → BitVec 32) (n : Fin 4194304) (k : Fin 2) :
    val_main_v0 (F := Ideal) x1 (ix2 n k) = Spec.tgt (x1 (ix1 n)) k := by
  rw [val_main_v0_apply, val_main_call0_v4_apply, val_main_call0_v2_apply, val_main_call0_v0_apply,
    val_main_call0_v3_apply, val_main_call0_v1_apply]
  have h1 : idx_main_call0_v0 (idx_main_call0_v2 (ix2 n k)) = ix1 n :=
    funext fun a => Fin.ext (by match a with | ⟨0, _⟩ => rfl)
  have h2 : ((idx_main_call0_v3 (ix2 n k)) 1).val = k.val := rfl
  rw [h1, h2]
  unfold Spec.tgt
  by_cases h : x1 (ix1 n) = BitVec.ofNat 32 k.val
  · rw [if_pos h, cmpi_eq_iff.mpr h, uitofp_one]
  · rw [if_neg h, eq_zero_of_ne_one (fun hh => h (cmpi_eq_iff.mp hh)), uitofp_zero]

/-! ## The two entry sums -/

/-- The cross-entropy summand at entry (n, k). -/
theorem v8_at (x0 : S4194304x2.Idx → EReal) (x1 : S4194304.Idx → BitVec 32) (n : Fin 4194304) (k : Fin 2) :
    val_main_v8 (F := Ideal) x0 x1 (ix2 n k)
      = Spec.bceT (Spec.tgt (x1 (ix1 n)) k) (x0 (ix2 n k)) (-(x0 (ix2 n k))) := by
  rw [val_main_v8_apply, val_main_v2_apply, val_main_v7_apply, val_main_v1_apply, val_main_v4_apply,
    val_main_v6_apply, val_main_v5_apply, val_main_v3_apply, val_main_cst_apply, v0_at]
  simp only [Ideal.addf_def, Ideal.mulf_def, Ideal.subf_def, Ideal.hostUnary_log_def, Ideal.hostUnary_log1p_def,
    Ideal.hostNegf_def, Ideal.negf_def, Ideal.ofBits_def]
  rfl

/-- The squared-error summand at entry (n, k). -/
theorem v13_at (x0 : S4194304x2.Idx → EReal) (x1 : S4194304.Idx → BitVec 32) (n : Fin 4194304) (k : Fin 2) :
    val_main_v13 (F := Ideal) x0 x1 (ix2 n k) = Spec.mseT (Spec.tgt (x1 (ix1 n)) k) (x0 (ix2 n k)) := by
  rw [val_main_v13_apply, val_main_v12_apply, v0_at]
  simp only [Ideal.mulf_def, Ideal.subf_def]
  rfl

theorem sumA (x0 : S4194304x2.Idx → EReal) (x1 : S4194304.Idx → BitVec 32) :
    ∑ j : S4194304x2.Idx, val_main_v8 (F := Ideal) x0 x1 j = Spec.rSumA x0 x1 := by
  rw [sum_idx2]
  unfold Spec.rSumA
  exact Finset.sum_congr rfl fun n _ => Finset.sum_congr rfl fun k _ => v8_at x0 x1 n k

theorem sumM (x0 : S4194304x2.Idx → EReal) (x1 : S4194304.Idx → BitVec 32) :
    ∑ j : S4194304x2.Idx, val_main_v13 (F := Ideal) x0 x1 j = Spec.rSumM x0 x1 := by
  rw [sum_idx2]
  unfold Spec.rSumM
  exact Finset.sum_congr rfl fun n _ => Finset.sum_congr rfl fun k _ => v13_at x0 x1 n k

/-! ## The pair sum -/

/-- The pair-label vector: zeros on the first half, ones on the second. -/
theorem v34_at (p : Fin 4194304) : val_main_v34 (F := Ideal) (ix1 p) = Spec.label p := by
  unfold val_main_v34 Spec.label
  by_cases h : p.val < 2097152
  · rw [if_pos h, concatenate_pair_apply_left (t := S4194304) (s₁ := S2097152) (s₂ := S2097152) (0 : Fin S4194304.rank) _ _ _
      (ix1 p) rfl (ix1 ⟨p.val, h⟩)
      (fun b => by match b with | ⟨0, _⟩ => rfl), val_main_v32_apply, val_main_cst_7_apply]
    rfl
  · rw [if_neg h, concatenate_pair_apply_right (t := S4194304) (s₁ := S2097152) (s₂ := S2097152) (0 : Fin S4194304.rank) _ _ _
      (ix1 p) rfl rfl
      (ix1 ⟨p.val - 2097152, by have := p.isLt; omega⟩)
      (fun b => by match b with | ⟨0, _⟩ => exact fun hb => (hb rfl).elim)
      (by show p.val - 2097152 + 2097152 = p.val; omega), val_main_v33_apply, val_main_cst_8_apply]
    rfl

/-- The squared distance of pair p, over the two gathered row arrays. -/
theorem v39_at (x0 : S4194304x2.Idx → EReal) (x2 x3 x4 x5 : S2097152.Idx → BitVec 32) (p : Fin 4194304) :
    val_main_v39 (F := Ideal) x0 x2 x3 x4 x5 (ix1 p)
      = Spec.dist2 (val_main_v23 (F := Ideal) x0 x2 x4) (val_main_v31 (F := Ideal) x0 x3 x5) p := by
  rw [val_main_v39_apply, val_main_cst_10_apply]
  simp only [Ideal.ofBits_def]
  rw [Ideal.ofBits_zero_f32, zero_add]
  unfold Spec.dist2
  refine Finset.sum_congr rfl fun k _ => ?_
  have hk : idx_main_v39 (ix1 p) k = ix2 p k :=
    funext fun a => Fin.ext (by match a with | ⟨0, _⟩ => rfl | ⟨1, _⟩ => rfl)
  rw [hk, val_main_v38_apply, val_main_v37_apply, val_main_v35_apply, val_main_v36_apply, val_main_cst_9_apply]
  simp only [Ideal.addf_def, Ideal.mulf_def, Ideal.subf_def, Ideal.ofBits_def]
  rfl

/-- The pair summand at pair p. -/
theorem v51_at (x0 : S4194304x2.Idx → EReal) (x2 x3 x4 x5 : S2097152.Idx → BitVec 32) (p : Fin 4194304) :
    val_main_v51 (F := Ideal) x0 x2 x3 x4 x5 (ix1 p)
      = Spec.rPair (val_main_v23 (F := Ideal) x0 x2 x4) (val_main_v31 (F := Ideal) x0 x3 x5) p := by
  rw [val_main_v51_apply, val_main_v44_apply, val_main_v50_apply, val_main_v42_apply, val_main_v43_apply,
    val_main_v49_apply, val_main_v48_apply, val_main_v46_apply, val_main_v40_apply, val_main_v41_apply,
    val_main_v45_apply, val_main_v47_apply, val_main_cst_11_apply, val_main_cst_12_apply, val_main_cst_13_apply,
    v39_at, v34_at]
  simp only [Ideal.addf_def, Ideal.mulf_def, Ideal.subf_def, Ideal.maximumf_def, Ideal.hostUnary_sqrt_def,
    Ideal.ofBits_def]
  rfl

theorem sumC (x0 : S4194304x2.Idx → EReal) (x2 x3 x4 x5 : S2097152.Idx → BitVec 32) :
    ∑ j : S4194304.Idx, val_main_v51 (F := Ideal) x0 x2 x3 x4 x5 j
      = Spec.rSumC (val_main_v23 (F := Ideal) x0 x2 x4) (val_main_v31 (F := Ideal) x0 x3 x5) := by
  rw [sum_idx1]
  unfold Spec.rSumC
  exact Finset.sum_congr rfl fun p _ => v51_at x0 x2 x3 x4 x5 p

/-! ## The result -/

theorem ref_value (x0 : S4194304x2.Idx → EReal) (x1 : S4194304.Idx → BitVec 32)
    (x2 x3 x4 x5 : S2097152.Idx → BitVec 32) :
    val_main_v58 (F := Ideal) x0 x1 x2 x3 x4 x5
      = fun _ => Spec.refVal x0 x1 (val_main_v23 (F := Ideal) x0 x2 x4) (val_main_v31 (F := Ideal) x0 x3 x5) := by
  funext i
  rw [val_main_v58_apply, val_main_v56_apply, val_main_v57_apply, val_main_v54_apply, val_main_v55_apply,
    val_main_v53_apply, val_main_v11_apply, val_main_v15_apply, val_main_v10_apply, val_main_v52_apply,
    val_main_v9_apply, val_main_v14_apply, val_main_cst_0_apply, val_main_cst_1_apply, val_main_cst_2_apply,
    val_main_cst_3_apply, val_main_cst_14_apply, val_main_cst_15_apply, val_main_cst_16_apply,
    val_main_cst_17_apply, val_main_cst_18_apply, sumA, sumM, sumC]
  simp only [Ideal.addf_def, Ideal.mulf_def, Ideal.hostDivf_def, Ideal.hostNegf_def, Ideal.negf_def,
    Ideal.ofBits_def]
  rw [Ideal.ofBits_zero_f32, zero_add, zero_add, zero_add]
  rfl

end Cert.RefValue

end
-- ==== Proof.lean ====
/-
  Loss = mean cross-entropy + mean squared error + mean contrastive hinge, over 4194304 rows of two class probabilities.

  The tiled program computes it as two running sums over 512 blocks of 8192 rows — per entry `−(t·log y + (1−t)·log1p(−y)) + (y−t)²`
  with the one-hot target `t`; per gathered pair `d²` on the same-class half and `max(1−d,0)²` on the other, `d² = Σₖ (aₖ−bₖ+ε)²` —
  each divided by its count. The array program computes three means, the pair term written `(1−label)·d·d + label·hinge²`.

  Over the extended reals the two agree for finite probabilities: the entry sums differ by a regrouping that is sound because
  the cross-entropy term is never +∞ (it is a real or −∞, and then both sides are +∞), and the pair terms agree outright since
  `d² ≥ 0` and `√d²·√d² = d²`. The row gathers agree once every index lies in `[−4194304, 4194304)`: there the tiled program's
  out-of-range fill never binds, and both programs read the same rows (a negative index counted from the end).

  Frames: each region of the tiled program keeps a 1×1 cell between blocks; its invariant names the cell's contents block by
  block, and the two regions are chained through @main's host operations. The array program's frame is its run.
-/
import proofs.«401785_j35828617183237_2_alg».proof.Defs
import proofs.«401785_j35828617183237_2_alg».proof.Proof.Gen.Kernel
import proofs.«401785_j35828617183237_2_alg».proof.Proof.Gen.KernelIdeal
import proofs.«401785_j35828617183237_2_alg».proof.Proof.Gen.ReferenceIdeal
import proofs.«401785_j35828617183237_2_alg».proof.Proof.Gen.Pre_finite_inputs
import proofs.«401785_j35828617183237_2_alg».proof.Proof.K.Run
import proofs.«401785_j35828617183237_2_alg».proof.Proof.KI.Run
import proofs.«401785_j35828617183237_2_alg».proof.Proof.KI.Value
import proofs.«401785_j35828617183237_2_alg».proof.Proof.SpecLaw
import proofs.«401785_j35828617183237_2_alg».proof.Proof.PreFacts
import proofs.«401785_j35828617183237_2_alg».proof.Proof.RefValue
import Idealize.ShloMosaic.Adequacy
import Idealize.ShloMosaic.Init

noncomputable section

namespace Cert.Proof

open Idealize.ShloMosaic Idealize.ShloMosaic.TcCoe Idealize.SL.Sem

/-! ## Both programs gather the same rows -/

theorem rows_first (y : Cert.Spec.SY.Idx → EReal) (a b : Cert.ReferenceIdeal.S2097152.Idx → BitVec 32) :
    Cert.KernelIdeal.Hand.rowsK y a b = Cert.ReferenceIdeal.Read.val_main_v23 (F := Ideal) y a b := by
  unfold Cert.KernelIdeal.Hand.rowsK Cert.ReferenceIdeal.Read.val_main_v23 Cert.ReferenceIdeal.Read.val_main_v22 Cert.ReferenceIdeal.Read.val_main_v21 Cert.ReferenceIdeal.Read.val_main_v20 Cert.ReferenceIdeal.Read.val_main_v18
    Cert.ReferenceIdeal.Read.val_main_v16 Cert.ReferenceIdeal.Read.val_main_v17 Cert.ReferenceIdeal.Read.val_main_v19 Cert.ReferenceIdeal.Read.val_main_c Cert.ReferenceIdeal.Read.val_main_c_4
  rfl

theorem rows_second (y : Cert.Spec.SY.Idx → EReal) (a b : Cert.ReferenceIdeal.S2097152.Idx → BitVec 32) :
    Cert.KernelIdeal.Hand.rowsK y a b = Cert.ReferenceIdeal.Read.val_main_v31 (F := Ideal) y a b := by
  unfold Cert.KernelIdeal.Hand.rowsK Cert.ReferenceIdeal.Read.val_main_v31 Cert.ReferenceIdeal.Read.val_main_v30 Cert.ReferenceIdeal.Read.val_main_v29 Cert.ReferenceIdeal.Read.val_main_v28 Cert.ReferenceIdeal.Read.val_main_v26
    Cert.ReferenceIdeal.Read.val_main_v24 Cert.ReferenceIdeal.Read.val_main_v25 Cert.ReferenceIdeal.Read.val_main_v27 Cert.ReferenceIdeal.Read.val_main_c_5 Cert.ReferenceIdeal.Read.val_main_c_6
  rfl

/-! ## The claims -/

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

/-- The tiled program ends at the specification's tiled grouping, the array program at its array grouping, of arguments
    that agree; the precondition makes the probabilities finite and the gather indices in range; the law joins the two. -/
theorem algebraic : Cert.algebraic_KernelIdeal_ReferenceIdeal := by
  intro m ρ m' ρ' hpre hagree
  refine ⟨fun c => Cert.KernelIdeal.Hand.result (F := Ideal) m c, Cert.KernelIdeal.Hand.run_named (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨hy, h2, h3, h4, h5⟩ := Cert.PreFacts.of_pre _ _ _ _ _ _ (hpre c)
  obtain ⟨a0, a1, a2, a3, a4, a5⟩ := hagree c
  rw [Cert.ReferenceIdeal.Read.val_main_v58_eq, Cert.RefValue.ref_value, a0, a1, a2, a3, a4, a5]
  refine Eq.trans ?_ (Cert.KernelIdeal.Hand.kernel_value m c h2 h3 h4 h5).symm
  funext _
  rw [Cert.Spec.law _ _ _ _ hy, rows_first, rows_second]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
